-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S800000x2 : Shape := ⟨2, ![800000, 2]⟩
abbrev S2x64 : Shape := ⟨2, ![2, 64]⟩
abbrev S64 : Shape := ⟨1, ![64]⟩
abbrev S3x66x64 : Shape := ⟨3, ![3, 66, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩
abbrev S1x800000 : Shape := ⟨2, ![1, 800000]⟩
abbrev S800000 : Shape := ⟨1, ![800000]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S3x66x64 : S_.BroadcastsInDim S3x66x64 (![] : Fin 0 → Fin S3x66x64.rank)
  reducesTo_S3x66x64_S_d0_1_2 : S3x66x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_v78 : IVec S_ 1) (main_v82 : IVec S800000 1) (main_v84 : IVec S800000 32) (main_v85 : IVec S800000 32) : IVec S_ 1 :=
  let main_v86 : IVec S800000 1 := cmpi .slt main_v84 main_v85
  let main_v87 : IVec S800000 1 := andi main_v82 main_v86
  let main_c_32 : IVec S_ 1 := constantI S_ 1 1#1
  let main_v88 : IVec S_ 1 := (fun x v => Host.reduce IntOp.andi x v reducesTo_S800000_S_d0 h_S_) main_v87 main_c_32
  let main_v89 : IVec S_ 1 := andi main_v78 main_v88
  main_v89

def fn_part4 {F : FTy → Type} [FloatOps F] (main_arg1 : IVec S2x800000 32) (main_arg15 : FVec F S32x4 .f32) (main_arg16 : FVec F S4 .f32) (main_v63 : IVec S_ 1) (main_v67 : IVec S_ 1) : IVec S_ 1 :=
  let main_v68 : IVec S_ 1 := andi main_v63 main_v67
  let main_v69 : FVec F S32x4 .f32 := Host.absf main_arg15
  let main_cst_26 : FVec F S_ .f32 := constant S_ .f32 0x7F800000#32
  let main_v70 : FVec F S32x4 .f32 := broadcastInDim S32x4 ![] bcast_S_S32x4 main_cst_26
  let main_v71 : IVec S32x4 1 := cmpf .olt main_v69 main_v70
  let main_c_27 : IVec S_ 1 := constantI S_ 1 1#1
  let main_v72 : IVec S_ 1 := (fun x v => Host.reduce IntOp.andi x v reducesTo_S32x4_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : IVec S1x800000 32 := (extractStridedSlice S1x800000 ![0, 0] · slices_S2x800000_S1x800000_0_0) main_arg1
  let main_v80 : IVec S800000 32 := shapeCast S800000 main_v79 shapeCasts_S1x800000_S800000
  let main_c_30 : IVec S_ 32 := constantI S_ 32 4294917296#32
  let main_v81 : IVec S800000 32 := broadcastInDim S800000 ![] bcast_S_S800000 main_c_30
  let main_v82 : IVec S800000 1 := cmpi .sge main_v80 main_v81
  let main_v83 : IVec S1x800000 32 := (extractStridedSlice S1x800000 ![0, 0] · slices_S2x800000_S1x800000_0_0) main_arg1
  let main_v84 : IVec S800000 32 := shapeCast S800000 main_v83 shapeCasts_S1x800000_S800000
  let main_c_31 : IVec S_ 32 := constantI S_ 32 50000#32
  let main_v85 : IVec S800000 32 := broadcastInDim S800000 ![] bcast_S_S800000 main_c_31
  fn_part5 (F := F) main_v78 main_v82 main_v84 main_v85

def fn_part3 {F : FTy → Type} [FloatOps F] (main_arg1 : IVec S2x800000 32) (main_arg12 : FVec F S1 .f32) (main_arg13 : FVec F S64x32 .f32) (main_arg14 : FVec F S32 .f32) (main_arg15 : FVec F S32x4 .f32) (main_arg16 : FVec F S4 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg15 main_arg16 main_v63 main_v67

def fn_part2 {F : FTy → Type} [FloatOps F] (main_arg1 : IVec S2x800000 32) (main_arg8 : FVec F S3x64 .f32) (main_arg9 : FVec F S64x1 .f32) (main_arg10 : FVec F S1 .f32) (main_arg11 : FVec F S64x1 .f32) (main_arg12 : FVec F S1 .f32) (main_arg13 : FVec F S64x32 .f32) (main_arg14 : FVec F S32 .f32) (main_arg15 : FVec F S32x4 .f32) (main_arg16 : FVec F S4 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg1 main_arg12 main_arg13 main_arg14 main_arg15 main_arg16 main_v48 main_v49 main_v50

def fn_part1 {F : FTy → Type} [FloatOps F] (main_arg1 : IVec S2x800000 32) (main_arg5 : FVec F S3x66x64 .f32) (main_arg6 : FVec F S3x64 .f32) (main_arg7 : FVec F S3x128x64 .f32) (main_arg8 : FVec F S3x64 .f32) (main_arg9 : FVec F S64x1 .f32) (main_arg10 : FVec F S1 .f32) (main_arg11 : FVec F S64x1 .f32) (main_arg12 : FVec F S1 .f32) (main_arg13 : FVec F S64x32 .f32) (main_arg14 : FVec F S32 .f32) (main_arg15 : FVec F S32x4 .f32) (main_arg16 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x66x64 .f32 := Host.absf main_arg5
  let main_cst_6 : FVec F S_ .f32 := constant S_ .f32 0x7F800000#32
  let main_v20 : FVec F S3x66x64 .f32 := broadcastInDim S3x66x64 ![] bcast_S_S3x66x64 main_cst_6
  let main_v21 : IVec S3x66x64 1 := cmpf .olt main_v19 main_v20
  let main_c_7 : IVec S_ 1 := constantI S_ 1 1#1
  let main_v22 : IVec S_ 1 := (fun x v => Host.reduce IntOp.andi x v reducesTo_S3x66x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x128x64 .f32 := Host.absf main_arg7
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x2 .f32) (main_arg1 : IVec S2x800000 32) (main_arg2 : FVec F S800000x2 .f32) (main_arg3 : FVec F S2x64 .f32) (main_arg4 : FVec F S64 .f32) (main_arg5 : FVec F S3x66x64 .f32) (main_arg6 : FVec F S3x64 .f32) (main_arg7 : FVec F S3x128x64 .f32) (main_arg8 : FVec F S3x64 .f32) (main_arg9 : FVec F S64x1 .f32) (main_arg10 : FVec F S1 .f32) (main_arg11 : FVec F S64x1 .f32) (main_arg12 : FVec F S1 .f32) (main_arg13 : FVec F S64x32 .f32) (main_arg14 : FVec F S32 .f32) (main_arg15 : FVec F S32x4 .f32) (main_arg16 : FVec F S4 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S800000x2 .f32 := Host.absf main_arg2
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x2 : Shape := ⟨2, ![50000, 2]⟩
abbrev S2x800000 : Shape := ⟨2, ![2, 800000]⟩
abbrev S800000x2 : Shape := ⟨2, ![800000, 2]⟩
abbrev S2x64 : Shape := ⟨2, ![2, 64]⟩
abbrev S64 : Shape := ⟨1, ![64]⟩
abbrev S3x66x64 : Shape := ⟨3, ![3, 66, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x2 : Shape := ⟨2, ![5000, 2]⟩
abbrev S5000x64 : Shape := ⟨2, ![5000, 64]⟩
abbrev S1x64 : Shape := ⟨2, ![1, 64]⟩
abbrev S1x1 : Shape := ⟨2, ![1, 1]⟩
abbrev S800000x64 : Shape := ⟨2, ![800000, 64]⟩
abbrev S1x66x64 : Shape := ⟨3, ![1, 66, 64]⟩
abbrev S66x64 : Shape := ⟨2, ![66, 64]⟩
abbrev S64x64 : Shape := ⟨2, ![64, 64]⟩
abbrev S4000x64 : Shape := ⟨2, ![4000, 64]⟩
abbrev S4000x2 : Shape := ⟨2, ![4000, 2]⟩
abbrev S1x128x64 : Shape := ⟨3, ![1, 128, 64]⟩
abbrev S128x64 : Shape := ⟨2, ![128, 64]⟩
abbrev S1x32 : Shape := ⟨2, ![1, 32]⟩
abbrev S1x4 : Shape := ⟨2, ![1, 4]⟩

abbrev nBuf : Space → Nat
  | .hbm => 189
  | .vmem => 60
  | .smem => 0
  | _ => 0

abbrev hbmTy0_0 (i : Nat) : BufTy := match i % 128 with
  | 0 => ⟨S50000x2, .f32⟩
  | 1 => ⟨S2x800000, .i32⟩
  | 2 => ⟨S800000x2, .f32⟩
  | 3 => ⟨S2x64, .f32⟩
  | 4 => ⟨S64, .f32⟩
  | 5 => ⟨S3x66x64, .f32⟩
  | 6 => ⟨S3x64, .f32⟩
  | 7 => ⟨S3x128x64, .f32⟩
  | 8 => ⟨S3x64, .f32⟩
  | 9 => ⟨S64x1, .f32⟩
  | 10 => ⟨S1, .f32⟩
  | 11 => ⟨S64x1, .f32⟩
  | 12 => ⟨S1, .f32⟩
  | 13 => ⟨S64x32, .f32⟩
  | 14 => ⟨S32, .f32⟩
  | 15 => ⟨S32x4, .f32⟩
  | 16 => ⟨S4, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S1, .i32⟩
  | 41 => ⟨S_, .i32⟩
  | 42 => ⟨S800000x1, .i32⟩
  | 43 => ⟨S800000x1, .i1⟩
  | 44 => ⟨S1x1, .i32⟩
  | 45 => ⟨S800000x1, .i32⟩
  | 46 => ⟨S800000x1, .i1⟩
  | 47 => ⟨S800000x1, .i1⟩
  | 48 => ⟨S_, .i1⟩
  | 49 => ⟨S800000, .i1⟩
  | 50 => ⟨S800000x64, .f32⟩
  | 51 => ⟨S800000x64, .i1⟩
  | 52 => ⟨S_, .f32⟩
  | 53 => ⟨S800000x64, .f32⟩
  | 54 => ⟨S800000x64, .f32⟩
  | 55 => ⟨S1x66x64, .f32⟩
  | 56 => ⟨S66x64, .f32⟩
  | 57 => ⟨S64x64, .f32⟩
  | 58 => ⟨S2x64, .f32⟩
  | 59 => ⟨S1x64, .f32⟩
  | 60 => ⟨S64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S50000x64, .f32⟩
  | 67 => ⟨S50000x64, .f32⟩
  | 68 => ⟨S1x128x64, .f32⟩
  | 69 => ⟨S128x64, .f32⟩
  | 70 => ⟨S64x64, .f32⟩
  | 71 => ⟨S64x64, .f32⟩
  | 72 => ⟨S1x64, .f32⟩
  | 73 => ⟨S64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S1, .i32⟩
  | 84 => ⟨S_, .i32⟩
  | 85 => ⟨S800000x1, .i32⟩
  | 86 => ⟨S800000x1, .i1⟩
  | 87 => ⟨S1x1, .i32⟩
  | 88 => ⟨S800000x1, .i32⟩
  | 89 => ⟨S800000x1, .i1⟩
  | 90 => ⟨S800000x1, .i1⟩
  | 91 => ⟨S_, .i1⟩
  | 92 => ⟨S800000, .i1⟩
  | 93 => ⟨S800000x64, .f32⟩
  | 94 => ⟨S800000x64, .i1⟩
  | 95 => ⟨S_, .f32⟩
  | 96 => ⟨S800000x64, .f32⟩
  | 97 => ⟨S800000x64, .f32⟩
  | 98 => ⟨S1x66x64, .f32⟩
  | 99 => ⟨S66x64, .f32⟩
  | 100 => ⟨S64x64, .f32⟩
  | 101 => ⟨S2x64, .f32⟩
  | 102 => ⟨S1x64, .f32⟩
  | 103 => ⟨S64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S50000x64, .f32⟩
  | 111 => ⟨S1x128x64, .f32⟩
  | 112 => ⟨S128x64, .f32⟩
  | 113 => ⟨S64x64, .f32⟩
  | 114 => ⟨S64x64, .f32⟩
  | 115 => ⟨S1x64, .f32⟩
  | 116 => ⟨S64, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x2, .f32⟩

abbrev hbmTy0_1 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x64, .f32⟩
  | 9 => ⟨S800000x64, .i1⟩
  | 10 => ⟨S_, .f32⟩
  | 11 => ⟨S800000x64, .f32⟩
  | 12 => ⟨S800000x64, .f32⟩
  | 13 => ⟨S1x66x64, .f32⟩
  | 14 => ⟨S66x64, .f32⟩
  | 15 => ⟨S64x64, .f32⟩
  | 16 => ⟨S2x64, .f32⟩
  | 17 => ⟨S1x64, .f32⟩
  | 18 => ⟨S64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x64, .f32⟩
  | 26 => ⟨S1x128x64, .f32⟩
  | 27 => ⟨S128x64, .f32⟩
  | 28 => ⟨S64x64, .f32⟩
  | 29 => ⟨S64x64, .f32⟩
  | 30 => ⟨S1x64, .f32⟩
  | 31 => ⟨S64, .f32⟩
  | 32 => ⟨S50000x64, .f32⟩
  | 33 => ⟨S50000x1, .f32⟩
  | 34 => ⟨S1x1, .f32⟩
  | 35 => ⟨S50000x1, .f32⟩
  | 36 => ⟨S50000x1, .f32⟩
  | 37 => ⟨S50000, .f32⟩
  | 38 => ⟨S50000, .f32⟩
  | 39 => ⟨S50000, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .f32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S1x32, .f32⟩
  | 53 => ⟨S1x32, .f32⟩
  | 54 => ⟨S1x32, .f32⟩
  | 55 => ⟨S_, .f32⟩
  | 56 => ⟨S1x32, .f32⟩
  | 57 => ⟨S1x32, .f32⟩
  | 58 => ⟨S1x4, .f32⟩
  | 59 => ⟨S1x4, .f32⟩
  | 60 => ⟨S1x4, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S4000x64, .f32⟩
  | .local _ .vmem, ⟨7, _⟩ => ⟨S4000x64, .f32⟩
  | .local _ .vmem, ⟨8, _⟩ => ⟨S4000x2, .f32⟩
  | .local _ .vmem, ⟨9, _⟩ => ⟨S4000x2, .f32⟩
  | .local _ .vmem, ⟨10, _⟩ => ⟨S64x64, .f32⟩
  | .local _ .vmem, ⟨11, _⟩ => ⟨S2x64, .f32⟩
  | .local _ .vmem, ⟨12, _⟩ => ⟨S64, .f32⟩
  | .local _ .vmem, ⟨13, _⟩ => ⟨S4000x64, .f32⟩
  | .local _ .vmem, ⟨14, _⟩ => ⟨S4000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | .local _ .vmem, ⟨24, _⟩ => ⟨S4000x64, .f32⟩
  | .local _ .vmem, ⟨25, _⟩ => ⟨S4000x64, .f32⟩
  | .local _ .vmem, ⟨26, _⟩ => ⟨S4000x2, .f32⟩
  | .local _ .vmem, ⟨27, _⟩ => ⟨S4000x2, .f32⟩
  | .local _ .vmem, ⟨28, _⟩ => ⟨S64x64, .f32⟩
  | .local _ .vmem, ⟨29, _⟩ => ⟨S2x64, .f32⟩
  | .local _ .vmem, ⟨30, _⟩ => ⟨S64, .f32⟩
  | .local _ .vmem, ⟨31, _⟩ => ⟨S4000x64, .f32⟩
  | .local _ .vmem, ⟨32, _⟩ => ⟨S4000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S64x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S4000x64, .f32⟩
  | .local _ .vmem, ⟨43, _⟩ => ⟨S4000x64, .f32⟩
  | .local _ .vmem, ⟨44, _⟩ => ⟨S4000x2, .f32⟩
  | .local _ .vmem, ⟨45, _⟩ => ⟨S4000x2, .f32⟩
  | .local _ .vmem, ⟨46, _⟩ => ⟨S64x64, .f32⟩
  | .local _ .vmem, ⟨47, _⟩ => ⟨S2x64, .f32⟩
  | .local _ .vmem, ⟨48, _⟩ => ⟨S64, .f32⟩
  | .local _ .vmem, ⟨49, _⟩ => ⟨S4000x64, .f32⟩
  | .local _ .vmem, ⟨50, _⟩ => ⟨S4000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S64x64, .f32⟩
  | .local _ .vmem, ⟨56, _⟩ => ⟨S64x64, .f32⟩
  | .local _ .vmem, ⟨57, _⟩ => ⟨S64, .f32⟩
  | .local _ .vmem, ⟨58, _⟩ => ⟨S5000x64, .f32⟩
  | .local _ .vmem, ⟨59, _⟩ => ⟨S5000x64, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_3 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_cst_4 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_cst_5 : Ref sig .tc := ⟨.hbm, 168, rfl⟩
abbrev main_v79 : Ref sig .tc := ⟨.hbm, 169, rfl⟩
abbrev main_v80 : Ref sig .tc := ⟨.hbm, 170, rfl⟩
abbrev main_cst_6 : Ref sig .tc := ⟨.hbm, 171, rfl⟩
abbrev main_v81 : Ref sig .tc := ⟨.hbm, 172, rfl⟩
abbrev main_v82 : Ref sig .tc := ⟨.hbm, 173, rfl⟩
abbrev main_cst_7 : Ref sig .tc := ⟨.hbm, 174, rfl⟩
abbrev main_v83 : Ref sig .tc := ⟨.hbm, 175, rfl⟩
abbrev main_v84 : Ref sig .tc := ⟨.hbm, 176, rfl⟩
abbrev main_cst_8 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_call3_cst : Ref sig .tc := ⟨.hbm, 183, rfl⟩
abbrev main_call3_v0 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x66x64_S1x66x64_0_0_0 : S3x66x64.Slices ![0, 0, 0] S1x66x64
  shapeCasts_S1x66x64_S66x64 : S1x66x64.ShapeCasts S66x64
  slices_S66x64_S64x64_0_0 : S66x64.Slices ![0, 0] S64x64
  slices_S66x64_S2x64_64_0 : S66x64.Slices ![64, 0] S2x64
  slices_S3x64_S1x64_0_0 : S3x64.Slices ![0, 0] S1x64
  shapeCasts_S1x64_S64 : S1x64.ShapeCasts S64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x2_S4000x2_0_0 : ∀ a, (![0, 0] : Fin 2 → Nat) a + S4000x2.size a ≤ S4000x2.size a
  h_S4000x2 : 0 < S4000x2.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S2x64_S2x64 : S2x64.ShapeCasts S2x64
  shapeCasts_S64_S64 : S64.ShapeCasts S64
  broadcasts_S1x64_S4000x64 : S1x64.Broadcasts S4000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x128x64_S1x128x64_0_0_0 : S3x128x64.Slices ![0, 0, 0] S1x128x64
  shapeCasts_S1x128x64_S128x64 : S1x128x64.ShapeCasts S128x64
  slices_S128x64_S64x64_0_0 : S128x64.Slices ![0, 0] S64x64
  slices_S128x64_S64x64_64_0 : S128x64.Slices ![64, 0] S64x64
  shapeCasts_S5000x64_S5000x64 : S5000x64.ShapeCasts S5000x64
  slices_S3x66x64_S1x66x64_1_0_0 : S3x66x64.Slices ![1, 0, 0] S1x66x64
  slices_S3x64_S1x64_1_0 : S3x64.Slices ![1, 0] S1x64
  slices_S3x128x64_S1x128x64_1_0_0 : S3x128x64.Slices ![1, 0, 0] S1x128x64
  slices_S3x66x64_S1x66x64_2_0_0 : S3x66x64.Slices ![2, 0, 0] S1x66x64
  slices_S3x64_S1x64_2_0 : S3x64.Slices ![2, 0] S1x64
  slices_S3x128x64_S1x128x64_2_0_0 : S3x128x64.Slices ![2, 0, 0] S1x128x64
  bcast_S1x1_S50000x1_0_1 : S1x1.BroadcastsInDim S50000x1 (![0, 1] : Fin 2 → Fin S50000x1.rank)
  shapeCasts_S50000x1_S50000 : S50000x1.ShapeCasts S50000
  reducesTo_S50000x64_S64_d0 : S50000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S4_S1x4_1 : S4.BroadcastsInDim S1x4 (![1] : Fin 1 → Fin S1x4.rank)
  scatter_S50000_S800000x1_S800000_n_0_0_1_wf : ScatterDims.WF S50000 S800000x1 S800000 [] [0] [0] 1
  dot_S5000x2_S2x64_S5000x64_1_0_0_1_n_n_wf : DotDims.WF S5000x2 S2x64 S5000x64 [1] [0] [0] [1] [] []
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x2_S2x64_S4000x64_1_0_0_1_n_n_wf : DotDims.WF S4000x2 S2x64 S4000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S50000x64_S64x1_S50000x1_1_0_0_1_n_n_wf : DotDims.WF S50000x64 S64x1 S50000x1 [1] [0] [0] [1] [] []
  dot_S1x64_S64x32_S1x32_1_0_0_1_n_n_wf : DotDims.WF S1x64 S64x32 S1x32 [1] [0] [0] [1] [] []
  dot_S1x32_S32x4_S1x4_1_0_0_1_n_n_wf : DotDims.WF S1x32 S32x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S50000x2.size a
  hwx0_0 : ∀ i : grid0.Coords, EltTy.bits .f32 = 32 ∨ (Rect.block (s := S50000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S800000x2.size a
  hwx1_1 : ∀ i : grid1.Coords, EltTy.bits .f32 = 32 ∨ (Rect.block (s := S800000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S800000x64.size a
  hwx1_5 : ∀ i : grid1.Coords, EltTy.bits .f32 = 32 ∨ (Rect.block (s := S800000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S800000x2.size a
  hwx3_1 : ∀ i : grid3.Coords, EltTy.bits .f32 = 32 ∨ (Rect.block (s := S800000x2) S4000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x64.size a ≤ S2x64.size a
  hwx3_3 : ∀ i : grid3.Coords, EltTy.bits .f32 = 32 ∨ (Rect.block (s := S2x64) S2x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S800000x64.size a
  hwx3_5 : ∀ i : grid3.Coords, EltTy.bits .f32 = 32 ∨ (Rect.block (s := S800000x64) S4000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S800000x64.size a
  hwx5_0 : ∀ i : grid5.Coords, EltTy.bits .f32 = 32 ∨ (Rect.block (s := S800000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x2.size a ≤ S800000x2.size a
  hwx5_1 : ∀ i : grid5.Coords, EltTy.bits .f32 = 32 ∨ (Rect.block (s := S800000x2) S4000x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x64.size a ≤ S2x64.size a
  hwx5_3 : ∀ i : grid5.Coords, EltTy.bits .f32 = 32 ∨ (Rect.block (s := S2x64) S2x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x64.size a ≤ S800000x64.size a
  hwx5_5 : ∀ i : grid5.Coords, EltTy.bits .f32 = 32 ∨ (Rect.block (s := S800000x64) S4000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x2_S2x64_S4000x64_1_0_0_1_n_n : DotDims S4000x2 S2x64 S4000x64 where
  lhsContracting := [1]
  rhsContracting := [0]
  lhsNonContracting := [0]
  rhsNonContracting := [1]
  lhsBatch := []
  rhsBatch := []
  wf := dot_S4000x2_S2x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x4_S1x4_1_0_0_1_n_n : DotDims S1x32 S32x4 S1x4 where
  lhsContracting := [1]
  rhsContracting := [0]
  lhsNonContracting := [0]
  rhsNonContracting := [1]
  lhsBatch := []
  rhsBatch := []
  wf := dot_S1x32_S32x4_S1x4_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v31) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v52) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S4000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S4000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v51) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v71) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S800000x2 : Shape := ⟨2, ![800000, 2]⟩
abbrev S2x64 : Shape := ⟨2, ![2, 64]⟩
abbrev S64 : Shape := ⟨1, ![64]⟩
abbrev S3x66x64 : Shape := ⟨3, ![3, 66, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S800000x66 : Shape := ⟨2, ![800000, 66]⟩
abbrev S1x66x64 : Shape := ⟨3, ![1, 66, 64]⟩
abbrev S66x64 : Shape := ⟨2, ![66, 64]⟩
abbrev S50000x128 : Shape := ⟨2, ![50000, 128]⟩
abbrev S1x128x64 : Shape := ⟨3, ![1, 128, 64]⟩
abbrev S128x64 : Shape := ⟨2, ![128, 64]⟩
abbrev S1x1 : Shape := ⟨2, ![1, 1]⟩
abbrev S1x32 : Shape := ⟨2, ![1, 32]⟩
abbrev S1x4 : Shape := ⟨2, ![1, 4]⟩

abbrev nBuf : Space → Nat
  | .hbm => 180
  | .vmem => 0
  | .smem => 0
  | _ => 0

abbrev hbmTy0_0 (i : Nat) : BufTy := match i % 128 with
  | 0 => ⟨S50000x2, .f32⟩
  | 1 => ⟨S2x800000, .i32⟩
  | 2 => ⟨S800000x2, .f32⟩
  | 3 => ⟨S2x64, .f32⟩
  | 4 => ⟨S64, .f32⟩
  | 5 => ⟨S3x66x64, .f32⟩
  | 6 => ⟨S3x64, .f32⟩
  | 7 => ⟨S3x128x64, .f32⟩
  | 8 => ⟨S3x64, .f32⟩
  | 9 => ⟨S64x1, .f32⟩
  | 10 => ⟨S1, .f32⟩
  | 11 => ⟨S64x1, .f32⟩
  | 12 => ⟨S1, .f32⟩
  | 13 => ⟨S64x32, .f32⟩
  | 14 => ⟨S32, .f32⟩
  | 15 => ⟨S32x4, .f32⟩
  | 16 => ⟨S4, .f32⟩
  | 17 => ⟨S1x800000, .i32⟩
  | 18 => ⟨S800000, .i32⟩
  | 19 => ⟨S1x800000, .i32⟩
  | 20 => ⟨S800000, .i32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x66, .f32⟩
  | 45 => ⟨S1x66x64, .f32⟩
  | 46 => ⟨S66x64, .f32⟩
  | 47 => ⟨S800000x64, .f32⟩
  | 48 => ⟨S1x64, .f32⟩
  | 49 => ⟨S64, .f32⟩
  | 50 => ⟨S1x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x128, .f32⟩
  | 63 => ⟨S1x128x64, .f32⟩
  | 64 => ⟨S128x64, .f32⟩
  | 65 => ⟨S50000x64, .f32⟩
  | 66 => ⟨S1x64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S800000x66, .f32⟩
  | 84 => ⟨S1x66x64, .f32⟩
  | 85 => ⟨S66x64, .f32⟩
  | 86 => ⟨S800000x64, .f32⟩
  | 87 => ⟨S1x64, .f32⟩
  | 88 => ⟨S64, .f32⟩
  | 89 => ⟨S1x64, .f32⟩
  | 90 => ⟨S800000x64, .f32⟩
  | 91 => ⟨S800000x64, .f32⟩
  | 92 => ⟨S_, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S50000x64, .f32⟩
  | 100 => ⟨S50000x64, .f32⟩
  | 101 => ⟨S50000x128, .f32⟩
  | 102 => ⟨S1x128x64, .f32⟩
  | 103 => ⟨S128x64, .f32⟩
  | 104 => ⟨S50000x64, .f32⟩
  | 105 => ⟨S1x64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x66, .f32⟩
  | 123 => ⟨S1x66x64, .f32⟩
  | 124 => ⟨S66x64, .f32⟩
  | 125 => ⟨S800000x64, .f32⟩
  | 126 => ⟨S1x64, .f32⟩
  | 127 => ⟨S64, .f32⟩
  | _ => ⟨S50000x2, .f32⟩

abbrev hbmTy0_1 (i : Nat) : BufTy := match i % 128 with
  | 0 => ⟨S1x64, .f32⟩
  | 1 => ⟨S800000x64, .f32⟩
  | 2 => ⟨S800000x64, .f32⟩
  | 3 => ⟨S_, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000x64, .f32⟩
  | 11 => ⟨S50000x64, .f32⟩
  | 12 => ⟨S50000x128, .f32⟩
  | 13 => ⟨S1x128x64, .f32⟩
  | 14 => ⟨S128x64, .f32⟩
  | 15 => ⟨S50000x64, .f32⟩
  | 16 => ⟨S1x64, .f32⟩
  | 17 => ⟨S64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x1, .f32⟩
  | 25 => ⟨S1x1, .f32⟩
  | 26 => ⟨S50000x1, .f32⟩
  | 27 => ⟨S50000x1, .f32⟩
  | 28 => ⟨S50000, .f32⟩
  | 29 => ⟨S50000, .f32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S1x32, .f32⟩
  | 44 => ⟨S1x32, .f32⟩
  | 45 => ⟨S1x32, .f32⟩
  | 46 => ⟨S_, .f32⟩
  | 47 => ⟨S1x32, .f32⟩
  | 48 => ⟨S1x32, .f32⟩
  | 49 => ⟨S1x4, .f32⟩
  | 50 => ⟨S1x4, .f32⟩
  | 51 => ⟨S1x4, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_cst : Ref sig .tc := ⟨.hbm, 71, rfl⟩
abbrev main_call1_v0 : Ref sig .tc := ⟨.hbm, 72, rfl⟩
abbrev main_v46 : Ref sig .tc := ⟨.hbm, 73, rfl⟩
abbrev main_c_4 : Ref sig .tc := ⟨.hbm, 74, rfl⟩
abbrev main_v47 : Ref sig .tc := ⟨.hbm, 75, rfl⟩
abbrev main_v48 : Ref sig .tc := ⟨.hbm, 76, rfl⟩
abbrev main_c_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_v63 : Ref sig .tc := ⟨.hbm, 94, rfl⟩
abbrev main_cst_6 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call3_cst : Ref sig .tc := ⟨.hbm, 110, rfl⟩
abbrev main_call3_v0 : Ref sig .tc := ⟨.hbm, 111, rfl⟩
abbrev main_v78 : Ref sig .tc := ⟨.hbm, 112, rfl⟩
abbrev main_c_7 : Ref sig .tc := ⟨.hbm, 113, rfl⟩
abbrev main_v79 : Ref sig .tc := ⟨.hbm, 114, rfl⟩
abbrev main_v80 : Ref sig .tc := ⟨.hbm, 115, rfl⟩
abbrev main_c_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call4_cst : Ref sig .tc := ⟨.hbm, 131, rfl⟩
abbrev main_call4_v0 : Ref sig .tc := ⟨.hbm, 132, rfl⟩
abbrev main_v95 : Ref sig .tc := ⟨.hbm, 133, rfl⟩
abbrev main_cst_9 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call5_cst : Ref sig .tc := ⟨.hbm, 149, rfl⟩
abbrev main_call5_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_10 : Ref sig .tc := ⟨.hbm, 159, rfl⟩
abbrev main_v118 : Ref sig .tc := ⟨.hbm, 160, rfl⟩
abbrev main_v119 : Ref sig .tc := ⟨.hbm, 161, rfl⟩
abbrev main_cst_11 : Ref sig .tc := ⟨.hbm, 162, rfl⟩
abbrev main_v120 : Ref sig .tc := ⟨.hbm, 163, rfl⟩
abbrev main_v121 : Ref sig .tc := ⟨.hbm, 164, rfl⟩
abbrev main_cst_12 : Ref sig .tc := ⟨.hbm, 165, rfl⟩
abbrev main_v122 : Ref sig .tc := ⟨.hbm, 166, rfl⟩
abbrev main_v123 : Ref sig .tc := ⟨.hbm, 167, rfl⟩
abbrev main_cst_13 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_call6_cst : Ref sig .tc := ⟨.hbm, 174, rfl⟩
abbrev main_call6_v0 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x64_S800000x2_S800000x66_d1 : Shape.Concatenates [S800000x64, S800000x2] S800000x66 1
  slices_S3x66x64_S1x66x64_0_0_0 : S3x66x64.Slices ![0, 0, 0] S1x66x64
  shapeCasts_S1x66x64_S66x64 : S1x66x64.ShapeCasts S66x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  slices_S3x128x64_S1x128x64_0_0_0 : S3x128x64.Slices ![0, 0, 0] S1x128x64
  shapeCasts_S1x128x64_S128x64 : S1x128x64.ShapeCasts S128x64
  slices_S3x66x64_S1x66x64_1_0_0 : S3x66x64.Slices ![1, 0, 0] S1x66x64
  slices_S3x64_S1x64_1_0 : S3x64.Slices ![1, 0] S1x64
  slices_S3x128x64_S1x128x64_1_0_0 : S3x128x64.Slices ![1, 0, 0] S1x128x64
  slices_S3x66x64_S1x66x64_2_0_0 : S3x66x64.Slices ![2, 0, 0] S1x66x64
  slices_S3x64_S1x64_2_0 : S3x64.Slices ![2, 0] S1x64
  slices_S3x128x64_S1x128x64_2_0_0 : S3x128x64.Slices ![2, 0, 0] S1x128x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  reducesTo_S50000x64_S64_d0 : S50000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S4_S1x4_1 : S4.BroadcastsInDim S1x4 (![1] : Fin 1 → Fin S1x4.rank)
  dot_S50000x2_S2x64_S50000x64_1_0_0_1_n_n_wf : DotDims.WF S50000x2 S2x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x66_S66x64_S800000x64_1_0_0_1_n_n_wf : DotDims.WF S800000x66 S66x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  dot_S1x64_S64x32_S1x32_1_0_0_1_n_n_wf : DotDims.WF S1x64 S64x32 S1x32 [1] [0] [0] [1] [] []
  dot_S1x32_S32x4_S1x4_1_0_0_1_n_n_wf : DotDims.WF S1x32 S32x4 S1x4 [1] [0] [0] [1] [] []

variable [Facts₀]

def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x66_S66x64_S800000x64_1_0_0_1_n_n : DotDims S800000x66 S66x64 S800000x64 where
  lhsContracting := [1]
  rhsContracting := [0]
  lhsNonContracting := [0]
  rhsNonContracting := [1]
  lhsBatch := []
  rhsBatch := []
  wf := dot_S800000x66_S66x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x4_S1x4_1_0_0_1_n_n : DotDims S1x32 S32x4 S1x4 where
  lhsContracting := [1]
  rhsContracting := [0]
  lhsNonContracting := [0]
  rhsNonContracting := [1]
  lhsBatch := []
  rhsBatch := []
  wf := dot_S1x32_S32x4_S1x4_1_0_0_1_n_n_wf

class Facts : Prop extends Facts₀ where

variable [Facts]
-- ==== Proof.RefStages.lean ====
/-
  The reference network, stage by stage, as functions of arrays.

  Node features `h : [50000, 64]` start as an affine image of the inputs (`h0`). A layer gathers the row of `h` at each
  edge's source node (`rows`: a negative index counts from the end), passes that row beside the edge's attributes
  through a dense layer cut off at zero (`msg`), sums the messages of the edges that end at a node and divides by the
  node's in-degree, at least one (`agg`, `degCol`), and passes `h` beside that mean through a second dense layer
  (`upd`). Three layers give the node embeddings; two small heads read a per-node probability and four logits of the
  mean embedding off them. Each definition is spelled operation by operation as the host program spells it.
-/
import proofs.«401737_j58909771432764_1_alg».proof.ReferenceIdeal
import Idealize.ShloMosaic.PureOps.Ideal

noncomputable section

namespace Cert.ReferenceIdeal.Stages

open Cert.ReferenceIdeal Idealize.ShloMosaic Idealize.ShloMosaic.TcCoe
open Cert.ReferenceIdeal.Facts₀ Cert.ReferenceIdeal.Facts

variable [Cert.ReferenceIdeal.Facts]

/-- The edges' source nodes: row 0 of the edge list. -/
def src (x1 : IVec S2x800000 32) : IVec S800000 32 :=
  shapeCast _ (extractStridedSlice S1x800000 ![0, 0] x1 slices_S2x800000_S1x800000_0_0) shapeCasts_S1x800000_S800000

/-- The edges' target nodes: row 1 of the edge list. -/
def dst (x1 : IVec S2x800000 32) : IVec S800000 32 :=
  shapeCast _ (extractStridedSlice S1x800000 ![1, 0] x1 slices_S2x800000_S1x800000_1_0) shapeCasts_S1x800000_S800000

/-- The in-degree of every node, at least one, as a column. -/
def degCol (x1 : IVec S2x800000 32) : FVec Ideal S50000x1 .f32 :=
  broadcastInDim S50000x1 ![0] bcast_S50000_S50000x1_0
    (maximumf
      (Host.scatterAdd scatter_S50000_S800000x1_S800000_n_0_0_1 (broadcastInDim S50000 ![] bcast_S_S50000 (constant S_ .f32 0x00000000#32))
        (broadcastInDim S800000x1 ![0] bcast_S800000_S800000x1_0 (dst x1)) (broadcastInDim S800000 ![] bcast_S_S800000 (constant S_ .f32 0x3F800000#32)))
      (broadcastInDim S50000 ![] bcast_S_S50000 (constant S_ .f32 0x3F800000#32)))

/-- The input projection: `x · W_in + b_in`. -/
def h0 (x0 : FVec Ideal S50000x2 .f32) (x3 : FVec Ideal S2x64 .f32) (x4 : FVec Ideal S64 .f32) : FVec Ideal S50000x64 .f32 :=
  addf (Host.dotGeneral dot_S50000x2_S2x64_S50000x64_1_0_0_1_n_n none x0 x3)
    (broadcastInDim S50000x64 ![0, 1] bcast_S1x64_S50000x64_0_1 (broadcastInDim S1x64 ![1] bcast_S64_S1x64_1 x4))

/-- The source nodes as gather indices: a negative index counts from the end. -/
def srcIdx (x1 : IVec S2x800000 32) : IVec S800000x1 32 :=
  broadcastInDim S800000x1 ![0] bcast_S800000_S800000x1_0
    (select (cmpi .slt (src x1) (broadcastInDim S800000 ![] bcast_S_S800000 (constantI S_ 32 0#32)))
      (addi (src x1) (broadcastInDim S800000 ![] bcast_S_S800000 (constantI S_ 32 50000#32))) (src x1))

/-- Each edge's source row of `h`. -/
def rows (h : FVec Ideal S50000x64 .f32) (x1 : IVec S2x800000 32) : FVec Ideal S800000x64 .f32 :=
  Host.gather gather_S50000x64_S800000x1_S800000x64_1_0_n_n_0_1_164 h (srcIdx x1)

/-- Layer 0's message weights `[66, 64]`, message bias, update weights `[128, 64]` and update bias: slab `0` of each stacked input. -/
def wMsg0 (x5 : FVec Ideal S3x66x64 .f32) : FVec Ideal S66x64 .f32 :=
  shapeCast _ (extractStridedSlice S1x66x64 ![0, 0, 0] x5 slices_S3x66x64_S1x66x64_0_0_0) shapeCasts_S1x66x64_S66x64
def bMsg0 (x6 : FVec Ideal S3x64 .f32) : FVec Ideal S64 .f32 :=
  shapeCast _ (extractStridedSlice S1x64 ![0, 0] x6 slices_S3x64_S1x64_0_0) shapeCasts_S1x64_S64
def wUpd0 (x7 : FVec Ideal S3x128x64 .f32) : FVec Ideal S128x64 .f32 :=
  shapeCast _ (extractStridedSlice S1x128x64 ![0, 0, 0] x7 slices_S3x128x64_S1x128x64_0_0_0) shapeCasts_S1x128x64_S128x64
def bUpd0 (x8 : FVec Ideal S3x64 .f32) : FVec Ideal S64 .f32 :=
  shapeCast _ (extractStridedSlice S1x64 ![0, 0] x8 slices_S3x64_S1x64_0_0) shapeCasts_S1x64_S64

/-- Layer 1's message weights `[66, 64]`, message bias, update weights `[128, 64]` and update bias: slab `1` of each stacked input. -/
def wMsg1 (x5 : FVec Ideal S3x66x64 .f32) : FVec Ideal S66x64 .f32 :=
  shapeCast _ (extractStridedSlice S1x66x64 ![1, 0, 0] x5 slices_S3x66x64_S1x66x64_1_0_0) shapeCasts_S1x66x64_S66x64
def bMsg1 (x6 : FVec Ideal S3x64 .f32) : FVec Ideal S64 .f32 :=
  shapeCast _ (extractStridedSlice S1x64 ![1, 0] x6 slices_S3x64_S1x64_1_0) shapeCasts_S1x64_S64
def wUpd1 (x7 : FVec Ideal S3x128x64 .f32) : FVec Ideal S128x64 .f32 :=
  shapeCast _ (extractStridedSlice S1x128x64 ![1, 0, 0] x7 slices_S3x128x64_S1x128x64_1_0_0) shapeCasts_S1x128x64_S128x64
def bUpd1 (x8 : FVec Ideal S3x64 .f32) : FVec Ideal S64 .f32 :=
  shapeCast _ (extractStridedSlice S1x64 ![1, 0] x8 slices_S3x64_S1x64_1_0) shapeCasts_S1x64_S64

/-- Layer 2's message weights `[66, 64]`, message bias, update weights `[128, 64]` and update bias: slab `2` of each stacked input. -/
def wMsg2 (x5 : FVec Ideal S3x66x64 .f32) : FVec Ideal S66x64 .f32 :=
  shapeCast _ (extractStridedSlice S1x66x64 ![2, 0, 0] x5 slices_S3x66x64_S1x66x64_2_0_0) shapeCasts_S1x66x64_S66x64
def bMsg2 (x6 : FVec Ideal S3x64 .f32) : FVec Ideal S64 .f32 :=
  shapeCast _ (extractStridedSlice S1x64 ![2, 0] x6 slices_S3x64_S1x64_2_0) shapeCasts_S1x64_S64
def wUpd2 (x7 : FVec Ideal S3x128x64 .f32) : FVec Ideal S128x64 .f32 :=
  shapeCast _ (extractStridedSlice S1x128x64 ![2, 0, 0] x7 slices_S3x128x64_S1x128x64_2_0_0) shapeCasts_S1x128x64_S128x64
def bUpd2 (x8 : FVec Ideal S3x64 .f32) : FVec Ideal S64 .f32 :=
  shapeCast _ (extractStridedSlice S1x64 ![2, 0] x8 slices_S3x64_S1x64_2_0) shapeCasts_S1x64_S64

/-- The message layer: `max ([hs ‖ ea] · W + b) 0`. -/
def msg (hs : FVec Ideal S800000x64 .f32) (ea : FVec Ideal S800000x2 .f32) (w : FVec Ideal S66x64 .f32) (b : FVec Ideal S64 .f32) :
    FVec Ideal S800000x64 .f32 :=
  maximumf
    (addf (Host.dotGeneral dot_S800000x66_S66x64_S800000x64_1_0_0_1_n_n none
        (concatenate S800000x66 1 [⟨S800000x64, hs⟩, ⟨S800000x2, ea⟩] concatenates_S800000x64_S800000x2_S800000x66_d1) w)
      (broadcastInDim S800000x64 ![0, 1] bcast_S1x64_S800000x64_0_1 (broadcastInDim S1x64 ![1] bcast_S64_S1x64_1 b)))
    (broadcastInDim S800000x64 ![] bcast_S_S800000x64 (constant S_ .f32 0x00000000#32))

/-- The mean of the messages arriving at each node. -/
def agg (ms : FVec Ideal S800000x64 .f32) (x1 : IVec S2x800000 32) : FVec Ideal S50000x64 .f32 :=
  Host.divf
    (Host.scatterAdd scatter_S50000x64_S800000x1_S800000x64_1_0_0_1 (broadcastInDim S50000x64 ![] bcast_S_S50000x64 (constant S_ .f32 0x00000000#32))
      (broadcastInDim S800000x1 ![0] bcast_S800000_S800000x1_0 (dst x1)) ms)
    (broadcastInDim S50000x64 ![0, 1] bcast_S50000x1_S50000x64_0_1 (degCol x1))

/-- The update layer: `max ([h ‖ a] · W + b) 0`. -/
def upd (h : FVec Ideal S50000x64 .f32) (a : FVec Ideal S50000x64 .f32) (w : FVec Ideal S128x64 .f32) (b : FVec Ideal S64 .f32) :
    FVec Ideal S50000x64 .f32 :=
  maximumf
    (addf (Host.dotGeneral dot_S50000x128_S128x64_S50000x64_1_0_0_1_n_n none
        (concatenate S50000x128 1 [⟨S50000x64, h⟩, ⟨S50000x64, a⟩] concatenates_S50000x64_S50000x64_S50000x128_d1) w)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- One message-passing layer. -/
def layer (h : FVec Ideal S50000x64 .f32) (x1 : IVec S2x800000 32) (x2 : FVec Ideal S800000x2 .f32)
    (wm : FVec Ideal S66x64 .f32) (bm : FVec Ideal S64 .f32) (wu : FVec Ideal S128x64 .f32) (bu : FVec Ideal S64 .f32) : FVec Ideal S50000x64 .f32 :=
  upd h (agg (msg (rows h x1) x2 wm bm) x1) wu bu

/-- Each node's probability: the logistic function of an affine read-out. -/
def probs (h : FVec Ideal S50000x64 .f32) (x9 : FVec Ideal S64x1 .f32) (x10 : FVec Ideal S1 .f32) : FVec Ideal S50000 .f32 :=
  Host.divf (broadcastInDim S50000 ![] bcast_S_S50000 (constant S_ .f32 0x3F800000#32))
    (addf (broadcastInDim S50000 ![] bcast_S_S50000 (constant S_ .f32 0x3F800000#32))
      (Host.exp (Host.negf (shapeCast _
        (addf (Host.dotGeneral dot_S50000x64_S64x1_S50000x1_1_0_0_1_n_n none h x9)
          (broadcastInDim S50000x1 ![0, 1] bcast_S1x1_S50000x1_0_1 (broadcastInDim S1x1 ![1] bcast_S1_S1x1_1 x10)))
        shapeCasts_S50000x1_S50000))))

/-- The four logits of the mean embedding: two affine layers with a cut-off at zero between them. -/
def logits (h : FVec Ideal S50000x64 .f32) (x13 : FVec Ideal S64x32 .f32) (x14 : FVec Ideal S32 .f32) (x15 : FVec Ideal S32x4 .f32)
    (x16 : FVec Ideal S4 .f32) : FVec Ideal S1x4 .f32 :=
  addf (Host.dotGeneral dot_S1x32_S32x4_S1x4_1_0_0_1_n_n none
      (maximumf
        (addf (Host.dotGeneral dot_S1x64_S64x32_S1x32_1_0_0_1_n_n none
            (Host.divf (broadcastInDim S1x64 ![1] bcast_S64_S1x64_1 (Host.reduceAdd h (constant S_ .f32 0x00000000#32) reducesTo_S50000x64_S64_d0 h_S_))
              (broadcastInDim S1x64 ![] bcast_S_S1x64 (constant S_ .f32 0x47435000#32)))
            x13)
          (broadcastInDim S1x32 ![1] bcast_S32_S1x32_1 x14))
        (broadcastInDim S1x32 ![] bcast_S_S1x32 (constant S_ .f32 0x00000000#32)))
      x15)
    (broadcastInDim S1x4 ![1] bcast_S4_S1x4_1 x16)

end Cert.ReferenceIdeal.Stages

end
-- ==== Proof.Net.lean ====
/-
  The whole network as one function of its nine array arguments: the input projection followed by the three
  message-passing layers, each with its own slab of the stacked weights.
-/
import proofs.«401737_j58909771432764_1_alg».proof.Proof.RefStages

noncomputable section

namespace Cert.ReferenceIdeal.Stages

open Cert.ReferenceIdeal Idealize.ShloMosaic

variable [Cert.ReferenceIdeal.Facts]

/-- The node embeddings after three layers. -/
def embed (x0 : FVec Ideal S50000x2 .f32) (x1 : IVec S2x800000 32) (x2 : FVec Ideal S800000x2 .f32) (x3 : FVec Ideal S2x64 .f32)
    (x4 : FVec Ideal S64 .f32) (x5 : FVec Ideal S3x66x64 .f32) (x6 : FVec Ideal S3x64 .f32) (x7 : FVec Ideal S3x128x64 .f32)
    (x8 : FVec Ideal S3x64 .f32) : FVec Ideal S50000x64 .f32 :=
  layer (layer (layer (h0 x0 x3 x4) x1 x2 (wMsg0 x5) (bMsg0 x6) (wUpd0 x7) (bUpd0 x8))
      x1 x2 (wMsg1 x5) (bMsg1 x6) (wUpd1 x7) (bUpd1 x8))
    x1 x2 (wMsg2 x5) (bMsg2 x6) (wUpd2 x7) (bUpd2 x8)

end Cert.ReferenceIdeal.Stages

end
-- ==== Proof.RefRunHand.lean ====
/-
  The reference program's run, read stage by stage.

  Every weakly fair execution of the reference program terminates with each buffer at the fold of its operations over
  the launch contents. The operation list is cut where the network's stages end, and once more in front of every
  concatenation, so that a concatenation's two operands are buffers its own stretch finds, not terms it computes:
  the edges' end points, the input projection and the degree column; per layer the gather, the messages with their
  mean, and the update; the two heads. Each stretch's result is its stage's function of what the stretch found. A
  buffer a stretch does not write passes through it. Composing the stretches gives the three results as the network
  of the arguments, and no operation writes an argument.
-/
import proofs.«401737_j58909771432764_1_alg».proof.Proof.RefRunDefs
import proofs.«401737_j58909771432764_1_alg».proof.Proof.Net
import Idealize.ShloMosaic.Lib.StableHlo.Run

noncomputable section

namespace Cert.ReferenceIdeal.RefRunHand

open Cert.ReferenceIdeal Cert.ReferenceIdeal.Gen Cert.ReferenceIdeal.RunDefs Cert.ReferenceIdeal.Stages
open Idealize.ShloMosaic Idealize.ShloMosaic.TcCoe Idealize.SL.Sem Idealize.ShloMosaic.StableHlo

local notation:max V "⟪" b "⟫" => V (Proc.devRef Proc.tc b)

/-! ## Folds over a list cut in two -/

/-- The fold over two lines run one after the other is the second line's fold over the first's. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A buffer that passes through each of two lines passes through the two run one after the other. -/
theorem keep_app {Val : EltTy → Type} {l₁ l₂ : List (HloOp τ sig Val)} {W₁ W₂ : List (Ref sig .tc)}
    (k₁ : ∀ (V : Valuation τ sig Val) (r : Ref sig .tc), r ∉ W₁ → (after l₁ V)⟪r⟫ = V⟪r⟫)
    (k₂ : ∀ (V : Valuation τ sig Val) (r : Ref sig .tc), r ∉ W₂ → (after l₂ V)⟪r⟫ = V⟪r⟫)
    (V : Valuation τ sig Val) (r : Ref sig .tc) (h : r ∉ W₁ ++ W₂) : (after (l₁ ++ l₂) V)⟪r⟫ = V⟪r⟫ := by
  rw [after_app]
  exact (k₂ _ r fun hm => h (List.mem_append_right _ hm)).trans (k₁ V r fun hm => h (List.mem_append_left _ hm))

/-- Contents moved to a typed reference's buffer type and back are the contents. -/
theorem ofBuf_toBuf {T : BufTy} {Val : EltTy → Type} (x : TRef sig T) (v : T.Contents Val) : x.ofBuf (x.toBuf v) = v := by
  obtain ⟨r, rfl, _, _⟩ := x
  rfl

/-! ## The stretches

The program's operations in order, cut after the degree column, in each layer after the gather and after the mean,
and after each layer's update. -/

section Lists
variable {F : FTy → Type} [FloatOps F]

/-- The edges' end points, the input projection, the degree column. -/
abbrev sA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x2_S2x64_S50000x64_1_0_0_1_n_n none l r) : (⟨S50000x2, .f32⟩ : BufTy).Contents (Elt F) → (⟨S2x64, .f32⟩ : BufTy).Contents (Elt F) → (⟨S50000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3F800000#32),
    unary main_cst main_v8 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v3 main_v10 (broadcastInDim S800000x1 ![0] bcast_S800000_S800000x1_0 : (⟨S800000, .i32⟩ : BufTy).Contents (Elt F) → (⟨S800000x1, .i32⟩ : BufTy).Contents (Elt F)),
    ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (maximumf : (⟨S50000, .f32⟩ : BufTy).Contents (Elt F) → (⟨S50000, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)) ]

/-- Layer 0's gather. -/
abbrev sR0 : List (HloOp τ sig (Elt F)) :=
  [ nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v1 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_v1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v7 main_v20 main_v21 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]
/-- Layer 0's messages and their mean. -/
abbrev sM0 : List (HloOp τ sig (Elt F)) :=
  [ binary main_v21 main_arg2 main_v22 ((fun a b => concatenate S800000x66 1 [⟨S800000x64, a⟩, ⟨S800000x2, b⟩] concatenates_S800000x64_S800000x2_S800000x66_d1) : (⟨S800000x64, .f32⟩ : BufTy).Contents (Elt F) → (⟨S800000x2, .f32⟩ : BufTy).Contents (Elt F) → (⟨S800000x66, .f32⟩ : BufTy).Contents (Elt F)),
    unary main_arg5 main_v23 ((extractStridedSlice S1x66x64 ![0, 0, 0] · slices_S3x66x64_S1x66x64_0_0_0) : (⟨S3x66x64, .f32⟩ : BufTy).Contents (Elt F) → (⟨S1x66x64, .f32⟩ : BufTy).Contents (Elt F)),
    reshape main_v23 main_v24 rfl shapeCasts_S1x66x64_S66x64,
    binary main_v22 main_v24 main_v25 ((fun l r => Host.dotGeneral dot_S800000x66_S66x64_S800000x64_1_0_0_1_n_n none l r) : (⟨S800000x66, .f32⟩ : BufTy).Contents (Elt F) → (⟨S66x64, .f32⟩ : BufTy).Contents (Elt F) → (⟨S800000x64, .f32⟩ : BufTy).Contents (Elt F)),
    unary main_arg6 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S800000x64 ![0, 1] bcast_S1x64_S800000x64_0_1 : (⟨S1x64, .f32⟩ : BufTy).Contents (Elt F) → (⟨S800000x64, .f32⟩ : BufTy).Contents (Elt F)),
    binary main_v25 main_v29 main_v30 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v30) (TRef.of (T := ⟨S800000x64, .f32⟩) main_call0_v0) (TRef.of (T := ⟨S800000x64, .f32⟩) main_v31) maximumf,
    nullary main_cst_3 (constant S_ .f32 0x00000000#32),
    unary main_cst_3 main_v32 (broadcastInDim S50000x64 ![] bcast_S_S50000x64 : (⟨S_, .f32⟩ : BufTy).Contents (Elt F) → (⟨S50000x64, .f32⟩ : BufTy).Contents (Elt F)),
    unary main_v3 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v35 (broadcastInDim S50000x64 ![0, 1] bcast_S50000x1_S50000x64_0_1 : (⟨S50000x1, .f32⟩ : BufTy).Contents (Elt F) → (⟨S50000x64, .f32⟩ : BufTy).Contents (Elt F)),
    binary main_v34 main_v35 main_v36 (Host.divf : (⟨S50000x64, .f32⟩ : BufTy).Contents (Elt F) → (⟨S50000x64, .f32⟩ : BufTy).Contents (Elt F) → (⟨S50000x64, .f32⟩ : BufTy).Contents (Elt F)) ]
/-- Layer 0's update. -/
abbrev sU0 : List (HloOp τ sig (Elt F)) :=
  [ binary main_v7 main_v36 main_v37 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg7 main_v38 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v38 main_v39 rfl shapeCasts_S1x128x64_S128x64,
    binary main_v37 main_v39 main_v40 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v41 ((extractStridedSlice S1x64 ![0, 0] · slices_S3x64_S1x64_0_0) : (⟨S3x64, .f32⟩ : BufTy).Contents (Elt F) → (⟨S1x64, .f32⟩ : BufTy).Contents (Elt F)),
    reshape main_v41 main_v42 rfl shapeCasts_S1x64_S64,
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v40 main_v44 main_v45 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v45) (TRef.of (T := ⟨S50000x64, .f32⟩) main_call1_v0) (TRef.of (T := ⟨S50000x64, .f32⟩) main_v46) maximumf ]

/-- Layer 1's gather. -/
abbrev sR1 : List (HloOp τ sig (Elt F)) :=
  [ nullary main_c_4 (constantI S_ 32 0#32),
    unary main_c_4 main_v47 (broadcastInDim S800000 ![] bcast_S_S800000 : (⟨S_, .i32⟩ : BufTy).Contents (Elt F) → (⟨S800000, .i32⟩ : BufTy).Contents (Elt F)),
    binary main_v1 main_v47 main_v48 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v49 (broadcastInDim S800000 ![] bcast_S_S800000 : (⟨S_, .i32⟩ : BufTy).Contents (Elt F) → (⟨S800000, .i32⟩ : BufTy).Contents (Elt F)),
    binary main_v1 main_v49 main_v50 (addi : (⟨S800000, .i32⟩ : BufTy).Contents (Elt F) → (⟨S800000, .i32⟩ : BufTy).Contents (Elt F) → (⟨S800000, .i32⟩ : BufTy).Contents (Elt F)),
    ternary main_v48 main_v50 main_v1 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v51 main_v52 (broadcastInDim S800000x1 ![0] bcast_S800000_S800000x1_0 : (⟨S800000, .i32⟩ : BufTy).Contents (Elt F) → (⟨S800000x1, .i32⟩ : BufTy).Contents (Elt F)),
    binary main_v46 main_v52 main_v53 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]
/-- Layer 1's messages and their mean. -/
abbrev sM1 : List (HloOp τ sig (Elt F)) :=
  [ binary main_v53 main_arg2 main_v54 ((fun a b => concatenate S800000x66 1 [⟨S800000x64, a⟩, ⟨S800000x2, b⟩] concatenates_S800000x64_S800000x2_S800000x66_d1) : (⟨S800000x64, .f32⟩ : BufTy).Contents (Elt F) → (⟨S800000x2, .f32⟩ : BufTy).Contents (Elt F) → (⟨S800000x66, .f32⟩ : BufTy).Contents (Elt F)),
    unary main_arg5 main_v55 ((extractStridedSlice S1x66x64 ![1, 0, 0] · slices_S3x66x64_S1x66x64_1_0_0) : (⟨S3x66x64, .f32⟩ : BufTy).Contents (Elt F) → (⟨S1x66x64, .f32⟩ : BufTy).Contents (Elt F)),
    reshape main_v55 main_v56 rfl shapeCasts_S1x66x64_S66x64,
    binary main_v54 main_v56 main_v57 ((fun l r => Host.dotGeneral dot_S800000x66_S66x64_S800000x64_1_0_0_1_n_n none l r) : (⟨S800000x66, .f32⟩ : BufTy).Contents (Elt F) → (⟨S66x64, .f32⟩ : BufTy).Contents (Elt F) → (⟨S800000x64, .f32⟩ : BufTy).Contents (Elt F)),
    unary main_arg6 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S800000x64 ![0, 1] bcast_S1x64_S800000x64_0_1 : (⟨S1x64, .f32⟩ : BufTy).Contents (Elt F) → (⟨S800000x64, .f32⟩ : BufTy).Contents (Elt F)),
    binary main_v57 main_v61 main_v62 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v62) (TRef.of (T := ⟨S800000x64, .f32⟩) main_call2_v0) (TRef.of (T := ⟨S800000x64, .f32⟩) main_v63) maximumf,
    nullary main_cst_6 (constant S_ .f32 0x00000000#32),
    unary main_cst_6 main_v64 (broadcastInDim S50000x64 ![] bcast_S_S50000x64 : (⟨S_, .f32⟩ : BufTy).Contents (Elt F) → (⟨S50000x64, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v67 (broadcastInDim S50000x64 ![0, 1] bcast_S50000x1_S50000x64_0_1 : (⟨S50000x1, .f32⟩ : BufTy).Contents (Elt F) → (⟨S50000x64, .f32⟩ : BufTy).Contents (Elt F)),
    binary main_v66 main_v67 main_v68 (Host.divf : (⟨S50000x64, .f32⟩ : BufTy).Contents (Elt F) → (⟨S50000x64, .f32⟩ : BufTy).Contents (Elt F) → (⟨S50000x64, .f32⟩ : BufTy).Contents (Elt F)) ]
/-- Layer 1's update. -/
abbrev sU1 : List (HloOp τ sig (Elt F)) :=
  [ binary main_v46 main_v68 main_v69 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg7 main_v70 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v70 main_v71 rfl shapeCasts_S1x128x64_S128x64,
    binary main_v69 main_v71 main_v72 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v73 ((extractStridedSlice S1x64 ![1, 0] · slices_S3x64_S1x64_1_0) : (⟨S3x64, .f32⟩ : BufTy).Contents (Elt F) → (⟨S1x64, .f32⟩ : BufTy).Contents (Elt F)),
    reshape main_v73 main_v74 rfl shapeCasts_S1x64_S64,
    unary main_v74 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v72 main_v76 main_v77 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v77) (TRef.of (T := ⟨S50000x64, .f32⟩) main_call3_v0) (TRef.of (T := ⟨S50000x64, .f32⟩) main_v78) maximumf ]

/-- Layer 2's gather. -/
abbrev sR2 : List (HloOp τ sig (Elt F)) :=
  [ nullary main_c_7 (constantI S_ 32 0#32),
    unary main_c_7 main_v79 (broadcastInDim S800000 ![] bcast_S_S800000 : (⟨S_, .i32⟩ : BufTy).Contents (Elt F) → (⟨S800000, .i32⟩ : BufTy).Contents (Elt F)),
    binary main_v1 main_v79 main_v80 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v81 (broadcastInDim S800000 ![] bcast_S_S800000 : (⟨S_, .i32⟩ : BufTy).Contents (Elt F) → (⟨S800000, .i32⟩ : BufTy).Contents (Elt F)),
    binary main_v1 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v78 main_v84 main_v85 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]
/-- Layer 2's messages and their mean. -/
abbrev sM2 : List (HloOp τ sig (Elt F)) :=
  [ binary main_v85 main_arg2 main_v86 ((fun a b => concatenate S800000x66 1 [⟨S800000x64, a⟩, ⟨S800000x2, b⟩] concatenates_S800000x64_S800000x2_S800000x66_d1) : (⟨S800000x64, .f32⟩ : BufTy).Contents (Elt F) → (⟨S800000x2, .f32⟩ : BufTy).Contents (Elt F) → (⟨S800000x66, .f32⟩ : BufTy).Contents (Elt F)),
    unary main_arg5 main_v87 ((extractStridedSlice S1x66x64 ![2, 0, 0] · slices_S3x66x64_S1x66x64_2_0_0) : (⟨S3x66x64, .f32⟩ : BufTy).Contents (Elt F) → (⟨S1x66x64, .f32⟩ : BufTy).Contents (Elt F)),
    reshape main_v87 main_v88 rfl shapeCasts_S1x66x64_S66x64,
    binary main_v86 main_v88 main_v89 ((fun l r => Host.dotGeneral dot_S800000x66_S66x64_S800000x64_1_0_0_1_n_n none l r) : (⟨S800000x66, .f32⟩ : BufTy).Contents (Elt F) → (⟨S66x64, .f32⟩ : BufTy).Contents (Elt F) → (⟨S800000x64, .f32⟩ : BufTy).Contents (Elt F)),
    unary main_arg6 main_v90 ((extractStridedSlice S1x64 ![2, 0] · slices_S3x64_S1x64_2_0) : (⟨S3x64, .f32⟩ : BufTy).Contents (Elt F) → (⟨S1x64, .f32⟩ : BufTy).Contents (Elt F)),
    reshape main_v90 main_v91 rfl shapeCasts_S1x64_S64,
    unary main_v91 main_v92 (broadcastInDim S1x64 ![1] bcast_S64_S1x64_1 : (⟨S64, .f32⟩ : BufTy).Contents (Elt F) → (⟨S1x64, .f32⟩ : BufTy).Contents (Elt F)),
    unary main_v92 main_v93 (broadcastInDim S800000x64 ![0, 1] bcast_S1x64_S800000x64_0_1 : (⟨S1x64, .f32⟩ : BufTy).Contents (Elt F) → (⟨S800000x64, .f32⟩ : BufTy).Contents (Elt F)),
    binary main_v89 main_v93 main_v94 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v94) (TRef.of (T := ⟨S800000x64, .f32⟩) main_call4_v0) (TRef.of (T := ⟨S800000x64, .f32⟩) main_v95) maximumf,
    nullary main_cst_9 (constant S_ .f32 0x00000000#32),
    unary main_cst_9 main_v96 (broadcastInDim S50000x64 ![] bcast_S_S50000x64 : (⟨S_, .f32⟩ : BufTy).Contents (Elt F) → (⟨S50000x64, .f32⟩ : BufTy).Contents (Elt F)),
    unary main_v3 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v99 (broadcastInDim S50000x64 ![0, 1] bcast_S50000x1_S50000x64_0_1 : (⟨S50000x1, .f32⟩ : BufTy).Contents (Elt F) → (⟨S50000x64, .f32⟩ : BufTy).Contents (Elt F)),
    binary main_v98 main_v99 main_v100 (Host.divf : (⟨S50000x64, .f32⟩ : BufTy).Contents (Elt F) → (⟨S50000x64, .f32⟩ : BufTy).Contents (Elt F) → (⟨S50000x64, .f32⟩ : BufTy).Contents (Elt F)) ]
/-- Layer 2's update. -/
abbrev sU2 : List (HloOp τ sig (Elt F)) :=
  [ binary main_v78 main_v100 main_v101 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg7 main_v102 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v102 main_v103 rfl shapeCasts_S1x128x64_S128x64,
    binary main_v101 main_v103 main_v104 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v105 ((extractStridedSlice S1x64 ![2, 0] · slices_S3x64_S1x64_2_0) : (⟨S3x64, .f32⟩ : BufTy).Contents (Elt F) → (⟨S1x64, .f32⟩ : BufTy).Contents (Elt F)),
    reshape main_v105 main_v106 rfl shapeCasts_S1x64_S64,
    unary main_v106 main_v107 (broadcastInDim S1x64 ![1] bcast_S64_S1x64_1 : (⟨S64, .f32⟩ : BufTy).Contents (Elt F) → (⟨S1x64, .f32⟩ : BufTy).Contents (Elt F)),
    unary main_v107 main_v108 (broadcastInDim S50000x64 ![0, 1] bcast_S1x64_S50000x64_0_1 : (⟨S1x64, .f32⟩ : BufTy).Contents (Elt F) → (⟨S50000x64, .f32⟩ : BufTy).Contents (Elt F)),
    binary main_v104 main_v108 main_v109 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v109) (TRef.of (T := ⟨S50000x64, .f32⟩) main_call5_v0) (TRef.of (T := ⟨S50000x64, .f32⟩) main_v110) maximumf ]

/-- The two heads. -/
abbrev sH : List (HloOp τ sig (Elt F)) :=
  [ binary main_v110 main_arg9 main_v111 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg10 main_v112 (broadcastInDim S1x1 ![1] bcast_S1_S1x1_1 : (⟨S1, .f32⟩ : BufTy).Contents (Elt F) → (⟨S1x1, .f32⟩ : BufTy).Contents (Elt F)),
    unary main_v112 main_v113 (broadcastInDim S50000x1 ![0, 1] bcast_S1x1_S50000x1_0_1 : (⟨S1x1, .f32⟩ : BufTy).Contents (Elt F) → (⟨S50000x1, .f32⟩ : BufTy).Contents (Elt F)),
    binary main_v111 main_v113 main_v114 (addf : (⟨S50000x1, .f32⟩ : BufTy).Contents (Elt F) → (⟨S50000x1, .f32⟩ : BufTy).Contents (Elt F) → (⟨S50000x1, .f32⟩ : BufTy).Contents (Elt F)),
    reshape main_v114 main_v115 rfl shapeCasts_S50000x1_S50000,
    unary main_v115 main_v116 (Host.negf : (⟨S50000, .f32⟩ : BufTy).Contents (Elt F) → (⟨S50000, .f32⟩ : BufTy).Contents (Elt F)),
    unary main_v116 main_v117 (Host.exp : (⟨S50000, .f32⟩ : BufTy).Contents (Elt F) → (⟨S50000, .f32⟩ : BufTy).Contents (Elt F)),
    nullary main_cst_10 (constant S_ .f32 0x3F800000#32),
    unary main_cst_10 main_v118 (broadcastInDim S50000 ![] bcast_S_S50000 : (⟨S_, .f32⟩ : BufTy).Contents (Elt F) → (⟨S50000, .f32⟩ : BufTy).Contents (Elt F)),
    binary main_v118 main_v117 main_v119 (addf : (⟨S50000, .f32⟩ : BufTy).Contents (Elt F) → (⟨S50000, .f32⟩ : BufTy).Contents (Elt F) → (⟨S50000, .f32⟩ : BufTy).Contents (Elt F)),
    nullary main_cst_11 (constant S_ .f32 0x3F800000#32),
    unary main_cst_11 main_v120 (broadcastInDim S50000 ![] bcast_S_S50000 : (⟨S_, .f32⟩ : BufTy).Contents (Elt F) → (⟨S50000, .f32⟩ : BufTy).Contents (Elt F)),
    binary main_v120 main_v119 main_v121 (Host.divf : (⟨S50000, .f32⟩ : BufTy).Contents (Elt F) → (⟨S50000, .f32⟩ : BufTy).Contents (Elt F) → (⟨S50000, .f32⟩ : BufTy).Contents (Elt F)),
    nullary main_cst_12 (constant S_ .f32 0x00000000#32),
    binary main_v110 main_cst_12 main_v122 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_v122 main_v123 (broadcastInDim S1x64 ![1] bcast_S64_S1x64_1 : (⟨S64, .f32⟩ : BufTy).Contents (Elt F) → (⟨S1x64, .f32⟩ : BufTy).Contents (Elt F)),
    nullary main_cst_13 (constant S_ .f32 0x47435000#32),
    unary main_cst_13 main_v124 (broadcastInDim S1x64 ![] bcast_S_S1x64 : (⟨S_, .f32⟩ : BufTy).Contents (Elt F) → (⟨S1x64, .f32⟩ : BufTy).Contents (Elt F)),
    binary main_v123 main_v124 main_v125 (Host.divf : (⟨S1x64, .f32⟩ : BufTy).Contents (Elt F) → (⟨S1x64, .f32⟩ : BufTy).Contents (Elt F) → (⟨S1x64, .f32⟩ : BufTy).Contents (Elt F)),
    binary main_v125 main_arg13 main_v126 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    unary main_arg14 main_v127 (broadcastInDim S1x32 ![1] bcast_S32_S1x32_1 : (⟨S32, .f32⟩ : BufTy).Contents (Elt F) → (⟨S1x32, .f32⟩ : BufTy).Contents (Elt F)),
    binary main_v126 main_v127 main_v128 (addf : (⟨S1x32, .f32⟩ : BufTy).Contents (Elt F) → (⟨S1x32, .f32⟩ : BufTy).Contents (Elt F) → (⟨S1x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1x32, .f32⟩) main_call6_v0) (broadcastInDim S1x32 ![] bcast_S_S1x32),
    TRef.binary (TRef.of (T := ⟨S1x32, .f32⟩) main_v128) (TRef.of (T := ⟨S1x32, .f32⟩) main_call6_v0) (TRef.of (T := ⟨S1x32, .f32⟩) main_v129) maximumf,
    binary main_v129 main_arg15 main_v130 ((fun l r => Host.dotGeneral dot_S1x32_S32x4_S1x4_1_0_0_1_n_n none l r) : (⟨S1x32, .f32⟩ : BufTy).Contents (Elt F) → (⟨S32x4, .f32⟩ : BufTy).Contents (Elt F) → (⟨S1x4, .f32⟩ : BufTy).Contents (Elt F)),
    unary main_arg16 main_v131 (broadcastInDim S1x4 ![1] bcast_S4_S1x4_1 : (⟨S4, .f32⟩ : BufTy).Contents (Elt F) → (⟨S1x4, .f32⟩ : BufTy).Contents (Elt F)),
    binary main_v130 main_v131 main_v132 (addf : (⟨S1x4, .f32⟩ : BufTy).Contents (Elt F) → (⟨S1x4, .f32⟩ : BufTy).Contents (Elt F) → (⟨S1x4, .f32⟩ : BufTy).Contents (Elt F)) ]

/-- A layer's three stretches in order. -/
abbrev sL0 : List (HloOp τ sig (Elt F)) := sR0 ++ (sM0 ++ sU0)
@[inherit_doc sL0] abbrev sL1 : List (HloOp τ sig (Elt F)) := sR1 ++ (sM1 ++ sU1)
@[inherit_doc sL0] abbrev sL2 : List (HloOp τ sig (Elt F)) := sR2 ++ (sM2 ++ sU2)

set_option maxRecDepth 8192 in
/-- The program's operation list is the stretches in order. -/
theorem ops_cut : (ops : List (HloOp τ sig (Elt F))) = sA ++ (sL0 ++ (sL1 ++ (sL2 ++ sH))) := rfl

end Lists

set_option maxRecDepth 8192 in
/-- Every operation determines its results. -/
theorem ops_fresh : (ops : List (HloOp τ sig (Elt Ideal))).Forall fun op => op.fresh = ∅ := by
  simp only [List.Forall]; repeat' constructor

/-! ## The first stretch -/

/-- The buffers the operations of `sA` write. -/
abbrev sA_W : List (Ref sig .tc) := [main_v0, main_v1, main_v2, main_v3, main_v4, main_v5, main_v6, main_v7, main_cst, main_v8, main_cst_0, main_v9, main_v10, main_v11, main_cst_1, main_v12, main_v13, main_v14]
theorem sA_writes : (sA : List (HloOp τ sig (Elt Ideal))).Forall fun op => op.writes ⊆ (sA_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sA` does not write keeps its contents through it. -/
theorem sA_keep (V : Valuation τ sig (Elt Ideal)) (r : Ref sig .tc) (h : r ∉ sA_W) : (after sA V)⟪r⟫ = V⟪r⟫ :=
  after_of_writes_sub sA V sA_writes h

/-- Row 0 of the edge list, flattened: the source node of every edge. -/
theorem sA_src (V : Valuation τ sig (Elt Ideal)) : (after sA V)⟪main_v1⟫ = src V⟪main_arg1⟫ := by
  after_results_simp
  unfold src
  rfl

/-- Row 1 of the edge list, flattened: the target node of every edge. -/
theorem sA_dst (V : Valuation τ sig (Elt Ideal)) : (after sA V)⟪main_v3⟫ = dst V⟪main_arg1⟫ := by
  after_results_simp
  unfold dst
  rfl

/-- The input projection. -/
theorem sA_h0 (V : Valuation τ sig (Elt Ideal)) : (after sA V)⟪main_v7⟫ = h0 V⟪main_arg0⟫ V⟪main_arg3⟫ V⟪main_arg4⟫ := by
  after_results_simp
  unfold h0
  rfl

/-- The in-degree column: one unit scattered per edge at its target node, cut off below at one. -/
theorem sA_deg (V : Valuation τ sig (Elt Ideal)) : (after sA V)⟪main_v14⟫ = degCol V⟪main_arg1⟫ := by
  after_results_simp
  unfold degCol dst
  rfl

/-! ## Layer 0 -/

theorem ofBuf_main_v30 (p q r) (v : (⟨S800000x64, .f32⟩ : BufTy).Contents (Elt Ideal)) :
    ((TRef.of main_v30 p q r : TRef sig ⟨S800000x64, .f32⟩).ofBuf (Val := Elt Ideal) v : (⟨S800000x64, .f32⟩ : BufTy).Contents (Elt Ideal)) = v := rfl
theorem toBuf_main_v31 (p q r) (v : (⟨S800000x64, .f32⟩ : BufTy).Contents (Elt Ideal)) :
    ((TRef.of main_v31 p q r : TRef sig ⟨S800000x64, .f32⟩).toBuf (Val := Elt Ideal) v : (⟨S800000x64, .f32⟩ : BufTy).Contents (Elt Ideal)) = v := rfl
theorem ofBuf_main_v45 (p q r) (v : (⟨S50000x64, .f32⟩ : BufTy).Contents (Elt Ideal)) :
    ((TRef.of main_v45 p q r : TRef sig ⟨S50000x64, .f32⟩).ofBuf (Val := Elt Ideal) v : (⟨S50000x64, .f32⟩ : BufTy).Contents (Elt Ideal)) = v := rfl
theorem toBuf_main_v46 (p q r) (v : (⟨S50000x64, .f32⟩ : BufTy).Contents (Elt Ideal)) :
    ((TRef.of main_v46 p q r : TRef sig ⟨S50000x64, .f32⟩).toBuf (Val := Elt Ideal) v : (⟨S50000x64, .f32⟩ : BufTy).Contents (Elt Ideal)) = v := rfl

/-- The buffers the operations of `sR0` write. -/
abbrev sR0_W : List (Ref sig .tc) := [main_c, main_v15, main_v16, main_c_2, main_v17, main_v18, main_v19, main_v20, main_v21]
theorem sR0_writes : (sR0 : List (HloOp τ sig (Elt Ideal))).Forall fun op => op.writes ⊆ (sR0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sR0` does not write keeps its contents through it. -/
theorem sR0_keep (V : Valuation τ sig (Elt Ideal)) (r : Ref sig .tc) (h : r ∉ sR0_W) : (after sR0 V)⟪r⟫ = V⟪r⟫ :=
  after_of_writes_sub sR0 V sR0_writes h

/-- The buffers the operations of `sM0` write. -/
abbrev sM0_W : List (Ref sig .tc) := [main_v22, main_v23, main_v24, main_v25, main_v26, main_v27, main_v28, main_v29, main_v30, main_call0_cst, main_call0_v0, main_v31, main_cst_3, main_v32, main_v33, main_v34, main_v35, main_v36]
theorem sM0_writes : (sM0 : List (HloOp τ sig (Elt Ideal))).Forall fun op => op.writes ⊆ (sM0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sM0` does not write keeps its contents through it. -/
theorem sM0_keep (V : Valuation τ sig (Elt Ideal)) (r : Ref sig .tc) (h : r ∉ sM0_W) : (after sM0 V)⟪r⟫ = V⟪r⟫ :=
  after_of_writes_sub sM0 V sM0_writes h

/-- The buffers the operations of `sU0` write. -/
abbrev sU0_W : List (Ref sig .tc) := [main_v37, main_v38, main_v39, main_v40, main_v41, main_v42, main_v43, main_v44, main_v45, main_call1_cst, main_call1_v0, main_v46]
theorem sU0_writes : (sU0 : List (HloOp τ sig (Elt Ideal))).Forall fun op => op.writes ⊆ (sU0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sU0` does not write keeps its contents through it. -/
theorem sU0_keep (V : Valuation τ sig (Elt Ideal)) (r : Ref sig .tc) (h : r ∉ sU0_W) : (after sU0 V)⟪r⟫ = V⟪r⟫ :=
  after_of_writes_sub sU0 V sU0_writes h

/-- The gather: the wrapped source column is rebuilt from the edges' sources, and the rows of the node features are
    taken at it. -/
theorem sR0_rows (V : Valuation τ sig (Elt Ideal)) (x1 : IVec S2x800000 32) (h : FVec Ideal S50000x64 .f32)
    (e1 : V⟪main_v1⟫ = src x1) (eh : V⟪main_v7⟫ = h) :
    (after sR0 V)⟪main_v21⟫ = rows h x1 := by
  after_results_simp
  rw [e1, eh]
  unfold rows srcIdx
  rfl

set_option maxHeartbeats 1600000 in
/-- The message layer on the gathered rows beside the edge attributes, then the mean of the messages by target node. -/
theorem sM0_agg (V : Valuation τ sig (Elt Ideal)) (x1 : IVec S2x800000 32) (x2 : FVec Ideal S800000x2 .f32)
    (x5 : FVec Ideal S3x66x64 .f32) (x6 : FVec Ideal S3x64 .f32) (rws : FVec Ideal S800000x64 .f32)
    (e3 : V⟪main_v3⟫ = dst x1) (e14 : V⟪main_v14⟫ = degCol x1) (er : V⟪main_v21⟫ = rws)
    (e2 : V⟪main_arg2⟫ = x2) (e5 : V⟪main_arg5⟫ = x5) (e6 : V⟪main_arg6⟫ = x6) :
    (after sM0 V)⟪main_v36⟫ = agg (msg rws x2 (wMsg0 x5) (bMsg0 x6)) x1 := by
  after_results_simp
  simp only [ofBuf_toBuf]
  rw [toBuf_main_v31, ofBuf_main_v30, e3, e14, er, e2, e5, e6]
  unfold agg msg wMsg0 bMsg0
  rfl

set_option maxHeartbeats 1600000 in
/-- The update layer on the node features beside the mean. -/
theorem sU0_upd (V : Valuation τ sig (Elt Ideal)) (h a : FVec Ideal S50000x64 .f32)
    (x7 : FVec Ideal S3x128x64 .f32) (x8 : FVec Ideal S3x64 .f32)
    (eh : V⟪main_v7⟫ = h) (ea : V⟪main_v36⟫ = a) (e7 : V⟪main_arg7⟫ = x7) (e8 : V⟪main_arg8⟫ = x8) :
    (after sU0 V)⟪main_v46⟫ = upd h a (wUpd0 x7) (bUpd0 x8) := by
  after_results_simp
  simp only [ofBuf_toBuf]
  rw [toBuf_main_v46, ofBuf_main_v45, eh, ea, e7, e8]
  unfold upd wUpd0 bUpd0
  rfl

/-- The buffers layer 0's three stretches write. -/
abbrev sL0_W : List (Ref sig .tc) := sR0_W ++ (sM0_W ++ sU0_W)
/-- A buffer none of layer 0's stretches writes keeps its contents through the layer. -/
theorem sL0_keep (V : Valuation τ sig (Elt Ideal)) (r : Ref sig .tc) (h : r ∉ sL0_W) : (after sL0 V)⟪r⟫ = V⟪r⟫ :=
  keep_app sR0_keep (keep_app sM0_keep sU0_keep) V r h

/-- Layer 0: the gather reads the node features and the sources, the message stretch reads the rows it left, the
    update stretch reads the mean; the node features and the weights reach the later stretches untouched. -/
theorem sL0_layer (V : Valuation τ sig (Elt Ideal)) (x1 : IVec S2x800000 32) (x2 : FVec Ideal S800000x2 .f32)
    (x5 : FVec Ideal S3x66x64 .f32) (x6 : FVec Ideal S3x64 .f32) (x7 : FVec Ideal S3x128x64 .f32) (x8 : FVec Ideal S3x64 .f32)
    (h : FVec Ideal S50000x64 .f32)
    (e1 : V⟪main_v1⟫ = src x1) (e3 : V⟪main_v3⟫ = dst x1) (e14 : V⟪main_v14⟫ = degCol x1) (eh : V⟪main_v7⟫ = h)
    (e2 : V⟪main_arg2⟫ = x2) (e5 : V⟪main_arg5⟫ = x5) (e6 : V⟪main_arg6⟫ = x6) (e7 : V⟪main_arg7⟫ = x7) (e8 : V⟪main_arg8⟫ = x8) :
    (after sL0 V)⟪main_v46⟫ = layer h x1 x2 (wMsg0 x5) (bMsg0 x6) (wUpd0 x7) (bUpd0 x8) := by
  unfold layer
  show (after (sR0 ++ (sM0 ++ sU0)) V)⟪main_v46⟫ = _
  rw [after_app, after_app]
  have kR := sR0_keep V
  have kM := sM0_keep (after sR0 V)
  exact sU0_upd _ h _ x7 x8
    ((kM main_v7 (by decide)).trans ((kR main_v7 (by decide)).trans eh))
    (sM0_agg _ x1 x2 x5 x6 _
      ((kR main_v3 (by decide)).trans e3) ((kR main_v14 (by decide)).trans e14)
      (sR0_rows V x1 h e1 eh)
      ((kR main_arg2 (by decide)).trans e2) ((kR main_arg5 (by decide)).trans e5) ((kR main_arg6 (by decide)).trans e6))
    ((kM main_arg7 (by decide)).trans ((kR main_arg7 (by decide)).trans e7))
    ((kM main_arg8 (by decide)).trans ((kR main_arg8 (by decide)).trans e8))

/-! ## Layer 1 -/

theorem ofBuf_main_v62 (p q r) (v : (⟨S800000x64, .f32⟩ : BufTy).Contents (Elt Ideal)) :
    ((TRef.of main_v62 p q r : TRef sig ⟨S800000x64, .f32⟩).ofBuf (Val := Elt Ideal) v : (⟨S800000x64, .f32⟩ : BufTy).Contents (Elt Ideal)) = v := rfl
theorem toBuf_main_v63 (p q r) (v : (⟨S800000x64, .f32⟩ : BufTy).Contents (Elt Ideal)) :
    ((TRef.of main_v63 p q r : TRef sig ⟨S800000x64, .f32⟩).toBuf (Val := Elt Ideal) v : (⟨S800000x64, .f32⟩ : BufTy).Contents (Elt Ideal)) = v := rfl
theorem ofBuf_main_v77 (p q r) (v : (⟨S50000x64, .f32⟩ : BufTy).Contents (Elt Ideal)) :
    ((TRef.of main_v77 p q r : TRef sig ⟨S50000x64, .f32⟩).ofBuf (Val := Elt Ideal) v : (⟨S50000x64, .f32⟩ : BufTy).Contents (Elt Ideal)) = v := rfl
theorem toBuf_main_v78 (p q r) (v : (⟨S50000x64, .f32⟩ : BufTy).Contents (Elt Ideal)) :
    ((TRef.of main_v78 p q r : TRef sig ⟨S50000x64, .f32⟩).toBuf (Val := Elt Ideal) v : (⟨S50000x64, .f32⟩ : BufTy).Contents (Elt Ideal)) = v := rfl

/-- The buffers the operations of `sR1` write. -/
abbrev sR1_W : List (Ref sig .tc) := [main_c_4, main_v47, main_v48, main_c_5, main_v49, main_v50, main_v51, main_v52, main_v53]
theorem sR1_writes : (sR1 : List (HloOp τ sig (Elt Ideal))).Forall fun op => op.writes ⊆ (sR1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sR1` does not write keeps its contents through it. -/
theorem sR1_keep (V : Valuation τ sig (Elt Ideal)) (r : Ref sig .tc) (h : r ∉ sR1_W) : (after sR1 V)⟪r⟫ = V⟪r⟫ :=
  after_of_writes_sub sR1 V sR1_writes h

/-- The buffers the operations of `sM1` write. -/
abbrev sM1_W : List (Ref sig .tc) := [main_v54, main_v55, main_v56, main_v57, main_v58, main_v59, main_v60, main_v61, main_v62, main_call2_cst, main_call2_v0, main_v63, main_cst_6, main_v64, main_v65, main_v66, main_v67, main_v68]
theorem sM1_writes : (sM1 : List (HloOp τ sig (Elt Ideal))).Forall fun op => op.writes ⊆ (sM1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sM1` does not write keeps its contents through it. -/
theorem sM1_keep (V : Valuation τ sig (Elt Ideal)) (r : Ref sig .tc) (h : r ∉ sM1_W) : (after sM1 V)⟪r⟫ = V⟪r⟫ :=
  after_of_writes_sub sM1 V sM1_writes h

/-- The buffers the operations of `sU1` write. -/
abbrev sU1_W : List (Ref sig .tc) := [main_v69, main_v70, main_v71, main_v72, main_v73, main_v74, main_v75, main_v76, main_v77, main_call3_cst, main_call3_v0, main_v78]
theorem sU1_writes : (sU1 : List (HloOp τ sig (Elt Ideal))).Forall fun op => op.writes ⊆ (sU1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sU1` does not write keeps its contents through it. -/
theorem sU1_keep (V : Valuation τ sig (Elt Ideal)) (r : Ref sig .tc) (h : r ∉ sU1_W) : (after sU1 V)⟪r⟫ = V⟪r⟫ :=
  after_of_writes_sub sU1 V sU1_writes h

/-- The gather: the wrapped source column is rebuilt from the edges' sources, and the rows of the node features are
    taken at it. -/
theorem sR1_rows (V : Valuation τ sig (Elt Ideal)) (x1 : IVec S2x800000 32) (h : FVec Ideal S50000x64 .f32)
    (e1 : V⟪main_v1⟫ = src x1) (eh : V⟪main_v46⟫ = h) :
    (after sR1 V)⟪main_v53⟫ = rows h x1 := by
  after_results_simp
  rw [e1, eh]
  unfold rows srcIdx
  rfl

set_option maxHeartbeats 1600000 in
/-- The message layer on the gathered rows beside the edge attributes, then the mean of the messages by target node. -/
theorem sM1_agg (V : Valuation τ sig (Elt Ideal)) (x1 : IVec S2x800000 32) (x2 : FVec Ideal S800000x2 .f32)
    (x5 : FVec Ideal S3x66x64 .f32) (x6 : FVec Ideal S3x64 .f32) (rws : FVec Ideal S800000x64 .f32)
    (e3 : V⟪main_v3⟫ = dst x1) (e14 : V⟪main_v14⟫ = degCol x1) (er : V⟪main_v53⟫ = rws)
    (e2 : V⟪main_arg2⟫ = x2) (e5 : V⟪main_arg5⟫ = x5) (e6 : V⟪main_arg6⟫ = x6) :
    (after sM1 V)⟪main_v68⟫ = agg (msg rws x2 (wMsg1 x5) (bMsg1 x6)) x1 := by
  after_results_simp
  simp only [ofBuf_toBuf]
  rw [toBuf_main_v63, ofBuf_main_v62, e3, e14, er, e2, e5, e6]
  unfold agg msg wMsg1 bMsg1
  rfl

set_option maxHeartbeats 1600000 in
/-- The update layer on the node features beside the mean. -/
theorem sU1_upd (V : Valuation τ sig (Elt Ideal)) (h a : FVec Ideal S50000x64 .f32)
    (x7 : FVec Ideal S3x128x64 .f32) (x8 : FVec Ideal S3x64 .f32)
    (eh : V⟪main_v46⟫ = h) (ea : V⟪main_v68⟫ = a) (e7 : V⟪main_arg7⟫ = x7) (e8 : V⟪main_arg8⟫ = x8) :
    (after sU1 V)⟪main_v78⟫ = upd h a (wUpd1 x7) (bUpd1 x8) := by
  after_results_simp
  simp only [ofBuf_toBuf]
  rw [toBuf_main_v78, ofBuf_main_v77, eh, ea, e7, e8]
  unfold upd wUpd1 bUpd1
  rfl

/-- The buffers layer 1's three stretches write. -/
abbrev sL1_W : List (Ref sig .tc) := sR1_W ++ (sM1_W ++ sU1_W)
/-- A buffer none of layer 1's stretches writes keeps its contents through the layer. -/
theorem sL1_keep (V : Valuation τ sig (Elt Ideal)) (r : Ref sig .tc) (h : r ∉ sL1_W) : (after sL1 V)⟪r⟫ = V⟪r⟫ :=
  keep_app sR1_keep (keep_app sM1_keep sU1_keep) V r h

/-- Layer 1: the gather reads the node features and the sources, the message stretch reads the rows it left, the
    update stretch reads the mean; the node features and the weights reach the later stretches untouched. -/
theorem sL1_layer (V : Valuation τ sig (Elt Ideal)) (x1 : IVec S2x800000 32) (x2 : FVec Ideal S800000x2 .f32)
    (x5 : FVec Ideal S3x66x64 .f32) (x6 : FVec Ideal S3x64 .f32) (x7 : FVec Ideal S3x128x64 .f32) (x8 : FVec Ideal S3x64 .f32)
    (h : FVec Ideal S50000x64 .f32)
    (e1 : V⟪main_v1⟫ = src x1) (e3 : V⟪main_v3⟫ = dst x1) (e14 : V⟪main_v14⟫ = degCol x1) (eh : V⟪main_v46⟫ = h)
    (e2 : V⟪main_arg2⟫ = x2) (e5 : V⟪main_arg5⟫ = x5) (e6 : V⟪main_arg6⟫ = x6) (e7 : V⟪main_arg7⟫ = x7) (e8 : V⟪main_arg8⟫ = x8) :
    (after sL1 V)⟪main_v78⟫ = layer h x1 x2 (wMsg1 x5) (bMsg1 x6) (wUpd1 x7) (bUpd1 x8) := by
  unfold layer
  show (after (sR1 ++ (sM1 ++ sU1)) V)⟪main_v78⟫ = _
  rw [after_app, after_app]
  have kR := sR1_keep V
  have kM := sM1_keep (after sR1 V)
  exact sU1_upd _ h _ x7 x8
    ((kM main_v46 (by decide)).trans ((kR main_v46 (by decide)).trans eh))
    (sM1_agg _ x1 x2 x5 x6 _
      ((kR main_v3 (by decide)).trans e3) ((kR main_v14 (by decide)).trans e14)
      (sR1_rows V x1 h e1 eh)
      ((kR main_arg2 (by decide)).trans e2) ((kR main_arg5 (by decide)).trans e5) ((kR main_arg6 (by decide)).trans e6))
    ((kM main_arg7 (by decide)).trans ((kR main_arg7 (by decide)).trans e7))
    ((kM main_arg8 (by decide)).trans ((kR main_arg8 (by decide)).trans e8))

/-! ## Layer 2 -/

theorem ofBuf_main_v94 (p q r) (v : (⟨S800000x64, .f32⟩ : BufTy).Contents (Elt Ideal)) :
    ((TRef.of main_v94 p q r : TRef sig ⟨S800000x64, .f32⟩).ofBuf (Val := Elt Ideal) v : (⟨S800000x64, .f32⟩ : BufTy).Contents (Elt Ideal)) = v := rfl
theorem toBuf_main_v95 (p q r) (v : (⟨S800000x64, .f32⟩ : BufTy).Contents (Elt Ideal)) :
    ((TRef.of main_v95 p q r : TRef sig ⟨S800000x64, .f32⟩).toBuf (Val := Elt Ideal) v : (⟨S800000x64, .f32⟩ : BufTy).Contents (Elt Ideal)) = v := rfl
theorem ofBuf_main_v109 (p q r) (v : (⟨S50000x64, .f32⟩ : BufTy).Contents (Elt Ideal)) :
    ((TRef.of main_v109 p q r : TRef sig ⟨S50000x64, .f32⟩).ofBuf (Val := Elt Ideal) v : (⟨S50000x64, .f32⟩ : BufTy).Contents (Elt Ideal)) = v := rfl
theorem toBuf_main_v110 (p q r) (v : (⟨S50000x64, .f32⟩ : BufTy).Contents (Elt Ideal)) :
    ((TRef.of main_v110 p q r : TRef sig ⟨S50000x64, .f32⟩).toBuf (Val := Elt Ideal) v : (⟨S50000x64, .f32⟩ : BufTy).Contents (Elt Ideal)) = v := rfl

/-- The buffers the operations of `sR2` write. -/
abbrev sR2_W : List (Ref sig .tc) := [main_c_7, main_v79, main_v80, main_c_8, main_v81, main_v82, main_v83, main_v84, main_v85]
theorem sR2_writes : (sR2 : List (HloOp τ sig (Elt Ideal))).Forall fun op => op.writes ⊆ (sR2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sR2` does not write keeps its contents through it. -/
theorem sR2_keep (V : Valuation τ sig (Elt Ideal)) (r : Ref sig .tc) (h : r ∉ sR2_W) : (after sR2 V)⟪r⟫ = V⟪r⟫ :=
  after_of_writes_sub sR2 V sR2_writes h

/-- The buffers the operations of `sM2` write. -/
abbrev sM2_W : List (Ref sig .tc) := [main_v86, main_v87, main_v88, main_v89, main_v90, main_v91, main_v92, main_v93, main_v94, main_call4_cst, main_call4_v0, main_v95, main_cst_9, main_v96, main_v97, main_v98, main_v99, main_v100]
theorem sM2_writes : (sM2 : List (HloOp τ sig (Elt Ideal))).Forall fun op => op.writes ⊆ (sM2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sM2` does not write keeps its contents through it. -/
theorem sM2_keep (V : Valuation τ sig (Elt Ideal)) (r : Ref sig .tc) (h : r ∉ sM2_W) : (after sM2 V)⟪r⟫ = V⟪r⟫ :=
  after_of_writes_sub sM2 V sM2_writes h

/-- The buffers the operations of `sU2` write. -/
abbrev sU2_W : List (Ref sig .tc) := [main_v101, main_v102, main_v103, main_v104, main_v105, main_v106, main_v107, main_v108, main_v109, main_call5_cst, main_call5_v0, main_v110]
theorem sU2_writes : (sU2 : List (HloOp τ sig (Elt Ideal))).Forall fun op => op.writes ⊆ (sU2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sU2` does not write keeps its contents through it. -/
theorem sU2_keep (V : Valuation τ sig (Elt Ideal)) (r : Ref sig .tc) (h : r ∉ sU2_W) : (after sU2 V)⟪r⟫ = V⟪r⟫ :=
  after_of_writes_sub sU2 V sU2_writes h

/-- The gather: the wrapped source column is rebuilt from the edges' sources, and the rows of the node features are
    taken at it. -/
theorem sR2_rows (V : Valuation τ sig (Elt Ideal)) (x1 : IVec S2x800000 32) (h : FVec Ideal S50000x64 .f32)
    (e1 : V⟪main_v1⟫ = src x1) (eh : V⟪main_v78⟫ = h) :
    (after sR2 V)⟪main_v85⟫ = rows h x1 := by
  after_results_simp
  rw [e1, eh]
  unfold rows srcIdx
  rfl

set_option maxHeartbeats 1600000 in
/-- The message layer on the gathered rows beside the edge attributes, then the mean of the messages by target node. -/
theorem sM2_agg (V : Valuation τ sig (Elt Ideal)) (x1 : IVec S2x800000 32) (x2 : FVec Ideal S800000x2 .f32)
    (x5 : FVec Ideal S3x66x64 .f32) (x6 : FVec Ideal S3x64 .f32) (rws : FVec Ideal S800000x64 .f32)
    (e3 : V⟪main_v3⟫ = dst x1) (e14 : V⟪main_v14⟫ = degCol x1) (er : V⟪main_v85⟫ = rws)
    (e2 : V⟪main_arg2⟫ = x2) (e5 : V⟪main_arg5⟫ = x5) (e6 : V⟪main_arg6⟫ = x6) :
    (after sM2 V)⟪main_v100⟫ = agg (msg rws x2 (wMsg2 x5) (bMsg2 x6)) x1 := by
  after_results_simp
  simp only [ofBuf_toBuf]
  rw [toBuf_main_v95, ofBuf_main_v94, e3, e14, er, e2, e5, e6]
  unfold agg msg wMsg2 bMsg2
  rfl

set_option maxHeartbeats 1600000 in
/-- The update layer on the node features beside the mean. -/
theorem sU2_upd (V : Valuation τ sig (Elt Ideal)) (h a : FVec Ideal S50000x64 .f32)
    (x7 : FVec Ideal S3x128x64 .f32) (x8 : FVec Ideal S3x64 .f32)
    (eh : V⟪main_v78⟫ = h) (ea : V⟪main_v100⟫ = a) (e7 : V⟪main_arg7⟫ = x7) (e8 : V⟪main_arg8⟫ = x8) :
    (after sU2 V)⟪main_v110⟫ = upd h a (wUpd2 x7) (bUpd2 x8) := by
  after_results_simp
  simp only [ofBuf_toBuf]
  rw [toBuf_main_v110, ofBuf_main_v109, eh, ea, e7, e8]
  unfold upd wUpd2 bUpd2
  rfl

/-- The buffers layer 2's three stretches write. -/
abbrev sL2_W : List (Ref sig .tc) := sR2_W ++ (sM2_W ++ sU2_W)
/-- A buffer none of layer 2's stretches writes keeps its contents through the layer. -/
theorem sL2_keep (V : Valuation τ sig (Elt Ideal)) (r : Ref sig .tc) (h : r ∉ sL2_W) : (after sL2 V)⟪r⟫ = V⟪r⟫ :=
  keep_app sR2_keep (keep_app sM2_keep sU2_keep) V r h

/-- Layer 2: the gather reads the node features and the sources, the message stretch reads the rows it left, the
    update stretch reads the mean; the node features and the weights reach the later stretches untouched. -/
theorem sL2_layer (V : Valuation τ sig (Elt Ideal)) (x1 : IVec S2x800000 32) (x2 : FVec Ideal S800000x2 .f32)
    (x5 : FVec Ideal S3x66x64 .f32) (x6 : FVec Ideal S3x64 .f32) (x7 : FVec Ideal S3x128x64 .f32) (x8 : FVec Ideal S3x64 .f32)
    (h : FVec Ideal S50000x64 .f32)
    (e1 : V⟪main_v1⟫ = src x1) (e3 : V⟪main_v3⟫ = dst x1) (e14 : V⟪main_v14⟫ = degCol x1) (eh : V⟪main_v78⟫ = h)
    (e2 : V⟪main_arg2⟫ = x2) (e5 : V⟪main_arg5⟫ = x5) (e6 : V⟪main_arg6⟫ = x6) (e7 : V⟪main_arg7⟫ = x7) (e8 : V⟪main_arg8⟫ = x8) :
    (after sL2 V)⟪main_v110⟫ = layer h x1 x2 (wMsg2 x5) (bMsg2 x6) (wUpd2 x7) (bUpd2 x8) := by
  unfold layer
  show (after (sR2 ++ (sM2 ++ sU2)) V)⟪main_v110⟫ = _
  rw [after_app, after_app]
  have kR := sR2_keep V
  have kM := sM2_keep (after sR2 V)
  exact sU2_upd _ h _ x7 x8
    ((kM main_v78 (by decide)).trans ((kR main_v78 (by decide)).trans eh))
    (sM2_agg _ x1 x2 x5 x6 _
      ((kR main_v3 (by decide)).trans e3) ((kR main_v14 (by decide)).trans e14)
      (sR2_rows V x1 h e1 eh)
      ((kR main_arg2 (by decide)).trans e2) ((kR main_arg5 (by decide)).trans e5) ((kR main_arg6 (by decide)).trans e6))
    ((kM main_arg7 (by decide)).trans ((kR main_arg7 (by decide)).trans e7))
    ((kM main_arg8 (by decide)).trans ((kR main_arg8 (by decide)).trans e8))

/-! ## The heads -/

theorem ofBuf_main_v128 (p q r) (v : (⟨S1x32, .f32⟩ : BufTy).Contents (Elt Ideal)) :
    ((TRef.of main_v128 p q r : TRef sig ⟨S1x32, .f32⟩).ofBuf (Val := Elt Ideal) v : (⟨S1x32, .f32⟩ : BufTy).Contents (Elt Ideal)) = v := rfl
theorem toBuf_main_v129 (p q r) (v : (⟨S1x32, .f32⟩ : BufTy).Contents (Elt Ideal)) :
    ((TRef.of main_v129 p q r : TRef sig ⟨S1x32, .f32⟩).toBuf (Val := Elt Ideal) v : (⟨S1x32, .f32⟩ : BufTy).Contents (Elt Ideal)) = v := rfl

/-- The buffers the operations of `sH` write. -/
abbrev sH_W : List (Ref sig .tc) := [main_v111, main_v112, main_v113, main_v114, main_v115, main_v116, main_v117, main_cst_10, main_v118, main_v119, main_cst_11, main_v120, main_v121, main_cst_12, main_v122, main_v123, main_cst_13, main_v124, main_v125, main_v126, main_v127, main_v128, main_call6_cst, main_call6_v0, main_v129, main_v130, main_v131, main_v132]
theorem sH_writes : (sH : List (HloOp τ sig (Elt Ideal))).Forall fun op => op.writes ⊆ (sH_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer `sH` does not write keeps its contents through it. -/
theorem sH_keep (V : Valuation τ sig (Elt Ideal)) (r : Ref sig .tc) (h : r ∉ sH_W) : (after sH V)⟪r⟫ = V⟪r⟫ :=
  after_of_writes_sub sH V sH_writes h

/-- The probability head: the logistic function of an affine read-out of every node's embedding. -/
theorem sH_probs (V : Valuation τ sig (Elt Ideal)) (h : FVec Ideal S50000x64 .f32) (x9 : FVec Ideal S64x1 .f32) (x10 : FVec Ideal S1 .f32)
    (eh : V⟪main_v110⟫ = h) (e9 : V⟪main_arg9⟫ = x9) (e10 : V⟪main_arg10⟫ = x10) :
    (after sH V)⟪main_v121⟫ = probs h x9 x10 := by
  after_results_simp
  rw [eh, e9, e10]
  unfold probs
  rfl

set_option maxHeartbeats 1600000 in
/-- The logit head: the mean embedding through two affine layers with a cut-off at zero between them. -/
theorem sH_logits (V : Valuation τ sig (Elt Ideal)) (h : FVec Ideal S50000x64 .f32) (x13 : FVec Ideal S64x32 .f32) (x14 : FVec Ideal S32 .f32)
    (x15 : FVec Ideal S32x4 .f32) (x16 : FVec Ideal S4 .f32)
    (eh : V⟪main_v110⟫ = h) (e13 : V⟪main_arg13⟫ = x13) (e14 : V⟪main_arg14⟫ = x14) (e15 : V⟪main_arg15⟫ = x15) (e16 : V⟪main_arg16⟫ = x16) :
    (after sH V)⟪main_v132⟫ = logits h x13 x14 x15 x16 := by
  after_results_simp
  simp only [ofBuf_toBuf]
  rw [toBuf_main_v129, ofBuf_main_v128, eh, e13, e14, e15, e16]
  unfold logits
  rfl

/-! ## What the stretches hand on -/

/-- The program's seventeen arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- What every stretch after the first finds in place and leaves in place: the arguments as they were at the start,
    the edges' end points and the degree column of the edge list. -/
structure Carried (W V : Valuation τ sig (Elt Ideal)) : Prop where
  args : ∀ r ∈ argRefs, V⟪r⟫ = W⟪r⟫
  s : V⟪main_v1⟫ = src W⟪main_arg1⟫
  d : V⟪main_v3⟫ = dst W⟪main_arg1⟫
  g : V⟪main_v14⟫ = degCol W⟪main_arg1⟫

/-- A line that writes none of them hands them on. -/
theorem Carried.through {W V : Valuation τ sig (Elt Ideal)} {l : List (HloOp τ sig (Elt Ideal))} {Wl : List (Ref sig .tc)}
    (c : Carried W V) (k : ∀ (V : Valuation τ sig (Elt Ideal)) (r : Ref sig .tc), r ∉ Wl → (after l V)⟪r⟫ = V⟪r⟫)
    (ha : ∀ r ∈ argRefs, r ∉ Wl) (h1 : main_v1 ∉ Wl) (h3 : main_v3 ∉ Wl) (h14 : main_v14 ∉ Wl) : Carried W (after l V) :=
  ⟨fun r hr => (k V r (ha r hr)).trans (c.args r hr), (k V main_v1 h1).trans c.s, (k V main_v3 h3).trans c.d,
    (k V main_v14 h14).trans c.g⟩

/-- The first stretch makes them. -/
theorem carried_sA (W : Valuation τ sig (Elt Ideal)) : Carried W (after sA W) :=
  ⟨fun r hr => sA_keep W r ((by decide : ∀ r ∈ argRefs, r ∉ sA_W) r hr), sA_src W, sA_dst W, sA_deg W⟩

/-! ## The whole fold -/

set_option maxHeartbeats 1600000 in
/-- The fold of all the operations over any contents `W`: the three results are the network of the arguments found
    in `W`, and every argument is as `W` had it. -/
theorem fold (W : Valuation τ sig (Elt Ideal)) :
    (after ops W)⟪main_v121⟫ = probs (embed W⟪main_arg0⟫ W⟪main_arg1⟫ W⟪main_arg2⟫ W⟪main_arg3⟫ W⟪main_arg4⟫ W⟪main_arg5⟫ W⟪main_arg6⟫ W⟪main_arg7⟫ W⟪main_arg8⟫) W⟪main_arg9⟫ W⟪main_arg10⟫
    ∧ (after ops W)⟪main_v132⟫ = logits (embed W⟪main_arg0⟫ W⟪main_arg1⟫ W⟪main_arg2⟫ W⟪main_arg3⟫ W⟪main_arg4⟫ W⟪main_arg5⟫ W⟪main_arg6⟫ W⟪main_arg7⟫ W⟪main_arg8⟫) W⟪main_arg13⟫ W⟪main_arg14⟫ W⟪main_arg15⟫ W⟪main_arg16⟫
    ∧ (after ops W)⟪main_v110⟫ = (embed W⟪main_arg0⟫ W⟪main_arg1⟫ W⟪main_arg2⟫ W⟪main_arg3⟫ W⟪main_arg4⟫ W⟪main_arg5⟫ W⟪main_arg6⟫ W⟪main_arg7⟫ W⟪main_arg8⟫)
    ∧ ∀ r ∈ argRefs, (after ops W)⟪r⟫ = W⟪r⟫ := by
  have cut : after ops W = after sH (after sL2 (after sL1 (after sL0 (after sA W)))) := by
    rw [ops_cut, after_app, after_app, after_app, after_app]
  rw [cut]
  -- what each stretch hands on
  have cA : Carried W (after sA W) := carried_sA W
  have cB : Carried W (after sL0 (after sA W)) := cA.through sL0_keep (by decide) (by decide) (by decide) (by decide)
  have cC : Carried W (after sL1 (after sL0 (after sA W))) := cB.through sL1_keep (by decide) (by decide) (by decide) (by decide)
  have cD : Carried W (after sL2 (after sL1 (after sL0 (after sA W)))) :=
    cC.through sL2_keep (by decide) (by decide) (by decide) (by decide)
  have cE : Carried W (after sH (after sL2 (after sL1 (after sL0 (after sA W))))) :=
    cD.through sH_keep (by decide) (by decide) (by decide) (by decide)
  -- the node features after the projection and after each layer
  have hA := sA_h0 W
  have hB := sL0_layer (after sA W) W⟪main_arg1⟫ W⟪main_arg2⟫ W⟪main_arg5⟫ W⟪main_arg6⟫ W⟪main_arg7⟫ W⟪main_arg8⟫ _
    cA.s cA.d cA.g hA (cA.args main_arg2 (by decide)) (cA.args main_arg5 (by decide)) (cA.args main_arg6 (by decide))
    (cA.args main_arg7 (by decide)) (cA.args main_arg8 (by decide))
  have hC := sL1_layer (after sL0 (after sA W)) W⟪main_arg1⟫ W⟪main_arg2⟫ W⟪main_arg5⟫ W⟪main_arg6⟫ W⟪main_arg7⟫ W⟪main_arg8⟫ _
    cB.s cB.d cB.g hB (cB.args main_arg2 (by decide)) (cB.args main_arg5 (by decide)) (cB.args main_arg6 (by decide))
    (cB.args main_arg7 (by decide)) (cB.args main_arg8 (by decide))
  have hD := sL2_layer (after sL1 (after sL0 (after sA W))) W⟪main_arg1⟫ W⟪main_arg2⟫ W⟪main_arg5⟫ W⟪main_arg6⟫ W⟪main_arg7⟫ W⟪main_arg8⟫ _
    cC.s cC.d cC.g hC (cC.args main_arg2 (by decide)) (cC.args main_arg5 (by decide)) (cC.args main_arg6 (by decide))
    (cC.args main_arg7 (by decide)) (cC.args main_arg8 (by decide))
  unfold embed
  exact ⟨sH_probs _ _ _ _ hD (cD.args main_arg9 (by decide)) (cD.args main_arg10 (by decide)),
    sH_logits _ _ _ _ _ _ hD (cD.args main_arg13 (by decide)) (cD.args main_arg14 (by decide)) (cD.args main_arg15 (by decide))
      (cD.args main_arg16 (by decide)),
    (sH_keep _ main_v110 (by decide)).trans hD, cE.args⟩

/-! ## The run -/

/-- Every weakly fair execution of the reference program terminates with the network's three results of its arguments
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = probs (embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10))
      ∧ r.2.mem ((c.tc : Thread nD τ).loc main_v132) = logits (embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v110) = (embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun _ h c => ?_)
    (run_seq scopedRefs_eq scopedSems_eq defs main (fun _ => ops) main_eq (fun _ => ops_sub) m ρ
      (fun _ => List.forall_iff_forall_mem.mp ops_fresh))
  obtain ⟨hP, hL, hE, hA⟩ := fold (launchContents m c)
  exact ⟨(h c main_v121).trans hP, (h c main_v132).trans hL, (h c main_v110).trans hE,
    (h c main_arg0).trans (hA main_arg0 (by decide)),
    (h c main_arg1).trans (hA main_arg1 (by decide)),
    (h c main_arg2).trans (hA main_arg2 (by decide)),
    (h c main_arg3).trans (hA main_arg3 (by decide)),
    (h c main_arg4).trans (hA main_arg4 (by decide)),
    (h c main_arg5).trans (hA main_arg5 (by decide)),
    (h c main_arg6).trans (hA main_arg6 (by decide)),
    (h c main_arg7).trans (hA main_arg7 (by decide)),
    (h c main_arg8).trans (hA main_arg8 (by decide)),
    (h c main_arg9).trans (hA main_arg9 (by decide)),
    (h c main_arg10).trans (hA main_arg10 (by decide)),
    (h c main_arg11).trans (hA main_arg11 (by decide)),
    (h c main_arg12).trans (hA main_arg12 (by decide)),
    (h c main_arg13).trans (hA main_arg13 (by decide)),
    (h c main_arg14).trans (hA main_arg14 (by decide)),
    (h c main_arg15).trans (hA main_arg15 (by decide)),
    (h c main_arg16).trans (hA main_arg16 (by decide))⟩

end Cert.ReferenceIdeal.RefRunHand

end
-- ==== Proof.Spec.lean ====
/-
  The dense layers of the network, as functions of their operands, entry by entry.

  A layer sends row `p` of its input(s) to row `p` of its output: with one input `a : [n, K]`, weights `w : [K, N]` and a
  bias row, entry `(p, j)` is `∑ k, a (p, k) * w (k, j) + bias j`; with two inputs `a : [n, K1]`, `b : [n, K2]` and a weight
  block for each, the two sums are added before the bias and the result is cut off below at `0`. These are sums and
  products of extended reals; nothing here depends on the number of rows `n`, so the same function describes a block
  of rows and the whole array.
-/
import Idealize.ShloMosaic.Lib.ValueIdx
import Idealize.ShloMosaic.PureOps.Ideal

noncomputable section

namespace Cert.Spec

open Idealize.ShloMosaic Idealize.ShloMosaic.ValueIdx
open scoped BigOperators

/-- The affine layer on one input: entry `(p, j)` is `∑ k, a (p, k) * w (k, j) + bias j`. -/
def dense1 {n K N : ℕ} (a : (⟨2, ![n, K]⟩ : Shape).Idx → EReal) (w : (⟨2, ![K, N]⟩ : Shape).Idx → EReal)
    (bias : (⟨1, ![N]⟩ : Shape).Idx → EReal) : (⟨2, ![n, N]⟩ : Shape).Idx → EReal :=
  fun i => (∑ k : Fin K, a (ix2 (n0 := n) (n1 := K) (i 0) k) * w (ix2 (n0 := K) (n1 := N) k (i 1))) + bias (ix1 (n := N) (i 1))

/-- The layer on two inputs with a cut-off at zero: entry `(p, j)` is
    `max (∑ k, a (p, k) * wa (k, j) + ∑ k, b (p, k) * wb (k, j) + bias j) 0`. -/
def dense2 {n K1 K2 N : ℕ} (a : (⟨2, ![n, K1]⟩ : Shape).Idx → EReal) (b : (⟨2, ![n, K2]⟩ : Shape).Idx → EReal)
    (wa : (⟨2, ![K1, N]⟩ : Shape).Idx → EReal) (wb : (⟨2, ![K2, N]⟩ : Shape).Idx → EReal)
    (bias : (⟨1, ![N]⟩ : Shape).Idx → EReal) : (⟨2, ![n, N]⟩ : Shape).Idx → EReal :=
  fun i => max (((∑ k : Fin K1, a (ix2 (n0 := n) (n1 := K1) (i 0) k) * wa (ix2 (n0 := K1) (n1 := N) k (i 1)))
      + ∑ k : Fin K2, b (ix2 (n0 := n) (n1 := K2) (i 0) k) * wb (ix2 (n0 := K2) (n1 := N) k (i 1))) + bias (ix1 (n := N) (i 1))) 0

theorem dense1_apply {n K N : ℕ} (a : (⟨2, ![n, K]⟩ : Shape).Idx → EReal) (w : (⟨2, ![K, N]⟩ : Shape).Idx → EReal)
    (bias : (⟨1, ![N]⟩ : Shape).Idx → EReal) (p : Fin n) (j : Fin N) :
    dense1 a w bias (ix2 p j) = (∑ k : Fin K, a (ix2 p k) * w (ix2 k j)) + bias (ix1 j) := rfl

theorem dense2_apply {n K1 K2 N : ℕ} (a : (⟨2, ![n, K1]⟩ : Shape).Idx → EReal) (b : (⟨2, ![n, K2]⟩ : Shape).Idx → EReal)
    (wa : (⟨2, ![K1, N]⟩ : Shape).Idx → EReal) (wb : (⟨2, ![K2, N]⟩ : Shape).Idx → EReal)
    (bias : (⟨1, ![N]⟩ : Shape).Idx → EReal) (p : Fin n) (j : Fin N) :
    dense2 a b wa wb bias (ix2 p j)
      = max (((∑ k : Fin K1, a (ix2 p k) * wa (ix2 k j)) + ∑ k : Fin K2, b (ix2 p k) * wb (ix2 k j)) + bias (ix1 j)) 0 := rfl

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Bridge.lean ====
/-
  The vocabulary shared by the stage lemmas: the arrays the kernel program is launched with, and the buffers in which
  its run holds each stage of the network.

  The run of the kernel program is a sequence of host stretches and kernel launches; the contents of every buffer after
  each of them is a fold from the launch memory. A stage's value lives in one buffer from the boundary where it is
  written on: the edges' source and target nodes and the degree column after the first stretch, the node features after
  each dense launch over the nodes, the gathered rows, the messages and their means after the stretches and launches of
  each layer. The stage lemmas say that each of these is the reference network's stage of the same name.
-/
import proofs.«401737_j58909771432764_1_alg».proof.Proof.Gen.KernelIdeal.Frame
import proofs.«401737_j58909771432764_1_alg».proof.Proof.Gen.ReferenceIdeal
import proofs.«401737_j58909771432764_1_alg».proof.Proof.RefStages
import proofs.«401737_j58909771432764_1_alg».proof.Proof.Spec
import proofs.«401737_j58909771432764_1_alg».proof.Proof.LibRowOps

noncomputable section

namespace Cert.Bridge

open Cert.KernelIdeal Cert.KernelIdeal.Gen Idealize.ShloMosaic Idealize.ShloMosaic.TcCoe Idealize.SL.Sem

/-- A host stretch leaves a buffer it does not write as it found it: closes `after ops W b = W b`. -/
macro "skip_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The arguments, as launched -/

abbrev a0 : FVec Ideal S50000x2 .f32 := m ((c : Thread nD τ).loc main_arg0)
abbrev a1 : IVec S2x800000 32 := m ((c : Thread nD τ).loc main_arg1)
abbrev a2 : FVec Ideal S800000x2 .f32 := m ((c : Thread nD τ).loc main_arg2)
abbrev a3 : FVec Ideal S2x64 .f32 := m ((c : Thread nD τ).loc main_arg3)
abbrev a4 : FVec Ideal S64 .f32 := m ((c : Thread nD τ).loc main_arg4)
abbrev a5 : FVec Ideal S3x66x64 .f32 := m ((c : Thread nD τ).loc main_arg5)
abbrev a6 : FVec Ideal S3x64 .f32 := m ((c : Thread nD τ).loc main_arg6)
abbrev a7 : FVec Ideal S3x128x64 .f32 := m ((c : Thread nD τ).loc main_arg7)
abbrev a8 : FVec Ideal S3x64 .f32 := m ((c : Thread nD τ).loc main_arg8)
abbrev a9 : FVec Ideal S64x1 .f32 := m ((c : Thread nD τ).loc main_arg9)
abbrev a10 : FVec Ideal S1 .f32 := m ((c : Thread nD τ).loc main_arg10)
abbrev a11 : FVec Ideal S64x1 .f32 := m ((c : Thread nD τ).loc main_arg11)
abbrev a12 : FVec Ideal S1 .f32 := m ((c : Thread nD τ).loc main_arg12)
abbrev a13 : FVec Ideal S64x32 .f32 := m ((c : Thread nD τ).loc main_arg13)
abbrev a14 : FVec Ideal S32 .f32 := m ((c : Thread nD τ).loc main_arg14)
abbrev a15 : FVec Ideal S32x4 .f32 := m ((c : Thread nD τ).loc main_arg15)
abbrev a16 : FVec Ideal S4 .f32 := m ((c : Thread nD τ).loc main_arg16)

/-! ## Where the run holds each stage -/

abbrev kSrc : IVec S800000 32 := W1 m ρ c (Proc.devRef .tc main_v1)
abbrev kDst : IVec S800000 32 := W1 m ρ c (Proc.devRef .tc main_v3)
abbrev kDeg : FVec Ideal S50000x1 .f32 := W1 m ρ c (Proc.devRef .tc main_v10)
abbrev kH0 : FVec Ideal S50000x64 .f32 := W2 m ρ c (Proc.devRef .tc main_v11)
abbrev kRows0 : FVec Ideal S800000x64 .f32 := W3 m ρ c (Proc.devRef .tc main_v12)
abbrev kMsg0 : FVec Ideal S800000x64 .f32 := W5 m ρ c (Proc.devRef .tc main_v19)
abbrev kAgg0 : FVec Ideal S50000x64 .f32 := W6 m ρ c (Proc.devRef .tc main_v24)
abbrev kH1 : FVec Ideal S50000x64 .f32 := W7 m ρ c (Proc.devRef .tc main_v31)
abbrev kRows1 : FVec Ideal S800000x64 .f32 := W8 m ρ c (Proc.devRef .tc main_v32)
abbrev kMsg1 : FVec Ideal S800000x64 .f32 := W10 m ρ c (Proc.devRef .tc main_v39)
abbrev kAgg1 : FVec Ideal S50000x64 .f32 := W11 m ρ c (Proc.devRef .tc main_v44)
abbrev kH2 : FVec Ideal S50000x64 .f32 := W12 m ρ c (Proc.devRef .tc main_v51)
abbrev kRows2 : FVec Ideal S800000x64 .f32 := W13 m ρ c (Proc.devRef .tc main_v52)
abbrev kMsg2 : FVec Ideal S800000x64 .f32 := W15 m ρ c (Proc.devRef .tc main_v59)
abbrev kAgg2 : FVec Ideal S50000x64 .f32 := W16 m ρ c (Proc.devRef .tc main_v64)
abbrev kH3 : FVec Ideal S50000x64 .f32 := W17 m ρ c (Proc.devRef .tc main_v71)

end Cert.Bridge

end
-- ==== Proof.StageEdges.lean ====
/-
  The first host stretch of the kernel program reads the edge list once: its row 0 is the edges' source nodes, its
  row 1 their target nodes, and the in-degree column is one unit scattered onto a zero vector per edge at the edge's
  target node, cut off below at one and turned into a column. The reference network spells the same three arrays with
  the same operations on the same edge list, so each equation is the two spellings of one term met side by side.
-/
import proofs.«401737_j58909771432764_1_alg».proof.Proof.Bridge

noncomputable section
namespace Cert.Bridge
open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- Row 0 of the edge list, flattened: the source node of every edge. -/
theorem stA0_src : kSrc m ρ c = src (a1 m c) := by
  show StableHlo.after hostOps0 (W0 m ρ c) (Proc.devRef .tc main_v1) = _
  after_results
  unfold src
  rfl

/-- Row 1 of the edge list, flattened: the target node of every edge. -/
theorem stA0_dst : kDst m ρ c = dst (a1 m c) := by
  show StableHlo.after hostOps0 (W0 m ρ c) (Proc.devRef .tc main_v3) = _
  after_results
  unfold dst
  rfl

/-- The in-degree of every node, at least one, as a column: the count of the edges that end at the node. -/
theorem stA0_deg : kDeg m ρ c = degCol (a1 m c) := by
  show StableHlo.after hostOps0 (W0 m ρ c) (Proc.devRef .tc main_v10) = _
  after_results
  unfold degCol dst
  rfl

end Cert.Bridge
end
-- ==== Proof.Laws.lean ====
/-
  Two laws of dense layers on the extended reals.

  `proj_law`: the host's `x · w + bias` (a contraction over the shared axis, the bias row repeated down the rows) is,
  entry by entry, `∑ k, x (p, k) * w (k, j) + bias j`.

  `cat_law`: a dense layer applied to two arrays laid side by side, `max ([a ‖ b] · w + bias) 0`, is the layer on two
  inputs with the weight rows split where the columns were joined: the sum over the `K1 + K2` joined columns is the sum
  over the first `K1` plus the sum over the last `K2`, in that order, so nothing about the extended reals beyond the
  splitting of a finite sum is used.
-/
import proofs.«401737_j58909771432764_1_alg».proof.Proof.Spec
import proofs.«401737_j58909771432764_1_alg».proof.Proof.LibRowOps

noncomputable section

namespace Cert.Laws

open Idealize.ShloMosaic Idealize.ShloMosaic.ValueIdx
open scoped BigOperators

/-- The bias row, laid out as a one-row matrix and then repeated down the rows, reads entry `j` of the row at `(p, j)`.
    When the row has a single entry a broadcast reads its position `0`, which is then `j` itself. -/
theorem biasRows_apply {α : Type} {n N : ℕ}
    (hb1 : (⟨1, ![N]⟩ : Shape).BroadcastsInDim ⟨2, ![1, N]⟩ (![1] : Fin 1 → Fin 2))
    (hb2 : (⟨2, ![1, N]⟩ : Shape).BroadcastsInDim ⟨2, ![n, N]⟩ (![0, 1] : Fin 2 → Fin 2))
    (bias : (⟨1, ![N]⟩ : Shape).Idx → α) (p : Fin n) (j : Fin N) :
    broadcastInDim ⟨2, ![n, N]⟩ ![0, 1] hb2 (broadcastInDim ⟨2, ![1, N]⟩ ![1] hb1 bias) (ix2 p j) = bias (ix1 j) := by
  have hj : j.val = if N = 1 then 0 else j.val := by
    split
    · next h => have := j.isLt; omega
    · rfl
  refine (broadcastInDim_apply _ hb2 _ (ix2 p j) (ix2 (0 : Fin 1) j) fun a => ?_).trans ?_
  · match a with
    | ⟨0, _⟩ => rfl
    | ⟨1, _⟩ => exact hj
  · exact broadcastInDim_apply _ hb1 bias (ix2 (0 : Fin 1) j) (ix1 j) fun a => by
      match a with
      | ⟨0, _⟩ => exact hj

theorem proj_law {n K N : ℕ} (d : DotDims ⟨2, ![n, K]⟩ ⟨2, ![K, N]⟩ ⟨2, ![n, N]⟩) (hd : d = DotDims.plain n K N)
    (hb1 : (⟨1, ![N]⟩ : Shape).BroadcastsInDim ⟨2, ![1, N]⟩ (![1] : Fin 1 → Fin 2))
    (hb2 : (⟨2, ![1, N]⟩ : Shape).BroadcastsInDim ⟨2, ![n, N]⟩ (![0, 1] : Fin 2 → Fin 2))
    (x : FVec Ideal ⟨2, ![n, K]⟩ .f32) (w : FVec Ideal ⟨2, ![K, N]⟩ .f32) (bias : FVec Ideal ⟨1, ![N]⟩ .f32) :
    addf (Host.dotGeneral d none x w) (broadcastInDim ⟨2, ![n, N]⟩ ![0, 1] hb2 (broadcastInDim ⟨2, ![1, N]⟩ ![1] hb1 bias))
      = Cert.Spec.dense1 x w bias := by
  funext i
  obtain ⟨p, j, rfl⟩ : ∃ p j, i = ix2 p j := ⟨i 0, i 1, eq_ix2 i⟩
  rw [Cert.Spec.dense1_apply, addf_apply, Cert.LibRowOps.dotGeneral_plain_apply d hd, biasRows_apply]

theorem cat_law {n K1 K2 K N : ℕ} (hK : K1 + K2 = K)
    (d : DotDims ⟨2, ![n, K]⟩ ⟨2, ![K, N]⟩ ⟨2, ![n, N]⟩) (hd : d = DotDims.plain n K N)
    (hcat : Shape.Concatenates [(⟨2, ![n, K1]⟩ : Shape), ⟨2, ![n, K2]⟩] ⟨2, ![n, K]⟩ 1)
    (hb1 : (⟨1, ![N]⟩ : Shape).BroadcastsInDim ⟨2, ![1, N]⟩ (![1] : Fin 1 → Fin 2))
    (hb2 : (⟨2, ![1, N]⟩ : Shape).BroadcastsInDim ⟨2, ![n, N]⟩ (![0, 1] : Fin 2 → Fin 2))
    (hb0 : (⟨0, ![]⟩ : Shape).BroadcastsInDim ⟨2, ![n, N]⟩ (![] : Fin 0 → Fin 2))
    (hsA : (⟨2, ![K, N]⟩ : Shape).Slices ![0, 0] ⟨2, ![K1, N]⟩) (hsB : (⟨2, ![K, N]⟩ : Shape).Slices ![K1, 0] ⟨2, ![K2, N]⟩)
    (a : FVec Ideal ⟨2, ![n, K1]⟩ .f32) (b : FVec Ideal ⟨2, ![n, K2]⟩ .f32) (w : FVec Ideal ⟨2, ![K, N]⟩ .f32)
    (bias : FVec Ideal ⟨1, ![N]⟩ .f32) :
    maximumf
        (addf (Host.dotGeneral d none (concatenate ⟨2, ![n, K]⟩ 1 [⟨⟨2, ![n, K1]⟩, a⟩, ⟨⟨2, ![n, K2]⟩, b⟩] hcat) w)
          (broadcastInDim ⟨2, ![n, N]⟩ ![0, 1] hb2 (broadcastInDim ⟨2, ![1, N]⟩ ![1] hb1 bias)))
        (broadcastInDim ⟨2, ![n, N]⟩ ![] hb0 (constant ⟨0, ![]⟩ .f32 0x00000000#32))
      = Cert.Spec.dense2 a b (extractStridedSlice ⟨2, ![K1, N]⟩ ![0, 0] w hsA) (extractStridedSlice ⟨2, ![K2, N]⟩ ![K1, 0] w hsB) bias := by
  subst hK
  funext i
  obtain ⟨p, j, rfl⟩ : ∃ p j, i = ix2 p j := ⟨i 0, i 1, eq_ix2 i⟩
  rw [Cert.Spec.dense2_apply, maximumf_apply, addf_apply, Cert.LibRowOps.dotGeneral_plain_apply d hd, biasRows_apply,
    broadcastInDim_apply _ hb0 _ (ix2 p j) ix0 (fun e => e.elim0), constant_apply, Ideal.ofBits_zero_f32,
    Fin.sum_univ_add]
  refine congrArg (fun t => max (t + bias (ix1 j)) 0)
    (congrArg₂ (· + ·) (Finset.sum_congr rfl fun k _ => ?_) (Finset.sum_congr rfl fun k _ => ?_))
  · -- a joined column below `K1` is a column of the first array, and the matching weight row is row `k` of the first cut
    rw [concatenate_pair_apply_left 1 a b hcat (ix2 p (Fin.castAdd K2 k)) rfl (ix2 p k)
        (fun e => by match e with | ⟨0, _⟩ => rfl | ⟨1, _⟩ => rfl),
      slice2_axis0_apply 0 w hsA k j (Fin.castAdd K2 k) (Nat.zero_add _).symm]
  · -- a joined column `K1 + k` is column `k` of the second array, and the matching weight row is row `k` of the second cut
    rw [concatenate_pair_apply_right 1 a b hcat (ix2 p (Fin.natAdd K1 k)) rfl rfl (ix2 p k)
        (fun e he => by match e with | ⟨0, _⟩ => rfl | ⟨1, _⟩ => exact absurd rfl he)
        (by show k.val + K1 = K1 + k.val; omega),
      slice2_axis0_apply K1 w hsB k j (Fin.natAdd K1 k) rfl]

end Cert.Laws

end
-- ==== Proof.StageProj.lean ====
/-
  The input projection of the network: the node features start as an affine image of the inputs, row by row.

  The launch cuts the 50000 rows of the input into ten blocks of 5000; at each block it multiplies the block by the
  weights and adds the bias row, and writes the result to the same rows of the output. Entry `(r, j)` of the output is
  `∑ k, x (r, k) * w (k, j) + b j`: it depends on row `r` of the input alone, so computing the layer block by block
  is computing it on the whole array, and the reference's product of the whole arrays has the same entries.
-/
import proofs.«401737_j58909771432764_1_alg».proof.Proof.Bridge
import proofs.«401737_j58909771432764_1_alg».proof.Proof.Laws

noncomputable section

namespace Cert.Bridge.Proj

open Cert.KernelIdeal Cert.KernelIdeal.Gen Idealize.ShloMosaic Idealize.ShloMosaic.TcCoe Idealize.SL.Sem
open Idealize.ShloMosaic.ValueIdx
open Cert.ReferenceIdeal.Stages

/-! ## One block -/

/-- What the body computes from a block of 5000 rows, the weights and the bias is the affine layer of those operands:
    a change of float format does nothing to an extended real, the product into a zero accumulator is the plain sum
    over the two input columns, and the bias row is repeated down the rows. -/
theorem proj_block (v0 : Vec Ideal S5000x2 .f32) (v2 : Vec Ideal S2x64 .f32) (v5 : Vec Ideal S64 .f32) :
    k0_pay1 v0 v2 v5 = Cert.Spec.dense1 v0 v2 v5 := by
  funext j
  obtain ⟨p, q, rfl⟩ : ∃ (p : Fin 5000) (q : Fin 64), j = ix2 p q := ⟨j 0, j 1, eq_ix2 j⟩
  unfold k0_pay1
  rw [Cert.Spec.dense1_apply]
  exact Cert.LibRowOps.layer_apply dot_S5000x2_S2x64_S5000x64_1_0_0_1_n_n rfl _ _ v5 shapeCasts_S64_S1x64
    broadcasts_S1x64_S5000x64 p q (fun k => v0 (ix2 p k)) (fun k => rfl)

/-! ## From the blocks to the array

  The launch is read at any contents `V` of the buffers at its entry. Its windows are the input `x : [50000, 2]` in
  blocks of 5000 rows, the weights `[2, 64]` and the bias `[64]` whole at every point, and the output `[50000, 64]`
  in the same blocks of 5000 rows. -/

section Launch

variable (V : (c : Dev nD) → (b : Ref sig .tc) → Buf (Elt Ideal) ((c : Thread nD τ).loc b))

/-- The launch's three input arrays, as it finds them. -/
abbrev projX (c : Dev nD) : FVec Ideal S50000x2 .f32 := V c main_arg0
abbrev projW (c : Dev nD) : FVec Ideal S2x64 .f32 := V c main_arg3
abbrev projB (c : Dev nD) : FVec Ideal S64 .f32 := V c main_arg4

theorem zeros2 : (![0, 0] : Fin 2 → Nat) = fun _ => 0 := funext fun a => by fin_cases a <;> rfl
theorem zeros1 : (![0] : Fin 1 → Nat) = fun _ => 0 := funext fun a => by fin_cases a <;> rfl

/-- Where the blocks sit, decided over the ten points: the input's and the output's block at point `t` is block `t`
    along the rows and the only block along the columns; the weights and the bias have one block. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Block `t` of the input is rows `5000 t … 5000 t + 4999` of the input array. -/
theorem xblock_apply (c : Dev nD) (t : Fin cfg0.N) (y : S5000x2.Idx) (k : S50000x2.Idx)
    (hk0 : (k 0).val = 5000 * t.val + (y 0).val) (hk1 : (k 1).val = (y 1).val) :
    (iblk0 V c 0 t : Vec Ideal S5000x2 .f32) y = projX V c k := by
  obtain ⟨e0, e1, -⟩ := block_places t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 2 + 1 * (y 1).val = (k 1).val; rw [e1, hk1]; omega

/-- The weights' block is the weights at every point. -/
theorem wblock_eq (c : Dev nD) (t : Fin cfg0.N) : (iblk0 V c 1 t : Vec Ideal S2x64 .f32) = projW V c := by
  obtain ⟨-, -, e0, e1, -⟩ := block_places t
  funext y
  unfold iblk0
  rw [View.read_apply]
  show V c main_arg3 _ = V c main_arg3 _
  congr 1
  funext a
  apply Fin.ext
  match a with
  | ⟨0, _⟩ => show win0_1.index t (0 : Fin 2) * 2 + 1 * (y 0).val = (y 0).val; rw [e0]; omega
  | ⟨1, _⟩ => show win0_1.index t (1 : Fin 2) * 64 + 1 * (y 1).val = (y 1).val; rw [e1]; omega

/-- The bias' block is the bias at every point. -/
theorem bblock_eq (c : Dev nD) (t : Fin cfg0.N) : (iblk0 V c 2 t : Vec Ideal S64 .f32) = projB V c := by
  obtain ⟨-, -, -, -, e0, -⟩ := block_places t
  funext y
  unfold iblk0
  rw [View.read_apply]
  show V c main_arg4 _ = V c main_arg4 _
  congr 1
  funext a
  apply Fin.ext
  match a with
  | ⟨0, _⟩ => show win0_2.index t (0 : Fin 1) * 64 + 1 * (y 0).val = (y 0).val; rw [e0]; omega

/-- The layer is local to a row: an entry of the layer of a block whose row is row `I 0` of the whole input is that
    entry of the layer of the whole input. -/
theorem dense1_of_rows (x : FVec Ideal S5000x2 .f32) (X : FVec Ideal S50000x2 .f32) (Wt : FVec Ideal S2x64 .f32)
    (B : FVec Ideal S64 .f32) (i : S5000x64.Idx) (I : S50000x64.Idx) (hcol : (i 1).val = (I 1).val)
    (hrow : ∀ k : Fin 2, x (ix2 (i 0) k) = X (ix2 (I 0) k)) :
    Cert.Spec.dense1 x Wt B i = Cert.Spec.dense1 X Wt B I := by
  obtain ⟨p, q, rfl⟩ : ∃ (p : Fin 5000) (q : Fin 64), i = ix2 p q := ⟨i 0, i 1, eq_ix2 i⟩
  obtain ⟨P, Q, rfl⟩ : ∃ (P : Fin 50000) (Q : Fin 64), I = ix2 P Q := ⟨I 0, I 1, eq_ix2 I⟩
  obtain rfl : q = Q := Fin.ext hcol
  rw [Cert.Spec.dense1_apply, Cert.Spec.dense1_apply]
  exact congrArg (· + B (ix1 q)) (Finset.sum_congr rfl fun k _ => congrArg (· * Wt (ix2 k q)) (hrow k))

/-- What point `t` writes back is block `t` of the layer of the whole arrays. -/
theorem proj_flushed (c : Dev nD) (t : Fin cfg0.N) :
    (dat0 V c).flushed 3 t
      = ((cfg0.win 3).blk t).view.read (Elt Ideal) (Cert.Spec.dense1 (projX V c) (projW V c) (projB V c)) := by
  show (cfg0.win 3).cut (grid0.coords t) ((dat0 V c).after 3 t) = _
  rw [after0_3]
  unfold out0_3
  rw [View.canon_unit_zero zeros2]
  simp only [View.ld_unit_zero (S := S5000x2) zeros2, View.ld_unit_zero (S := S2x64) zeros2, View.ld_unit_zero (S := S64) zeros1]
  rw [proj_block, wblock_eq, bblock_eq]
  obtain ⟨-, -, -, -, -, e0, e1⟩ := block_places t
  funext j
  rw [View.read_apply]
  refine dense1_of_rows (iblk0 V c 0 t) (projX V c) (projW V c) (projB V c) ((cfg0.win 3).xinj (grid0.coords t) j)
    (((cfg0.win 3).blk t).view.emb j) ?_ ?_
  · show (j 1).val = win0_3.index t (1 : Fin 2) * 64 + 1 * (j 1).val
    rw [e1]; omega
  · intro k
    refine xblock_apply V c t _ _ ?_ rfl
    show win0_3.index t (0 : Fin 2) * 5000 + 1 * (j 0).val = 5000 * t.val + (j 0).val
    rw [e0]; omega

/-- Row `r` of the output lies in the block of point `r / 5000`, which is written back: the ten blocks fill the array. -/
theorem proj_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, e0, e1⟩ := block_places t
  have e0' : win0_3.index t (0 : Fin 2) = (i 0).val / 5000 := e0
  refine ⟨t, flush0_3 t, ?_⟩
  show i ∈ ((View.whole main_v11).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0']; omega
  | ⟨1, _⟩ =>
    show win0_3.index t (1 : Fin 2) * 64 ≤ (i 1).val ∧ (i 1).val < win0_3.index t (1 : Fin 2) * 64 + 64
    rw [e1]; omega

/-- THE LAUNCH'S CLOSED FORM: after the launch the output array is the affine layer of the three input arrays as the
    launch found them. -/
theorem proj_closed (c : Dev nD) :
    ((dat0 V c).arrAt 3 cfg0.N : FVec Ideal S50000x64 .f32) = Cert.Spec.dense1 (projX V c) (projW V c) (projB V c) :=
  (dat0 V c).arrAt_eq_of_cover 3 (Cert.Spec.dense1 (projX V c) (projW V c) (projB V c))
    (fun t _ => proj_flushed V c t) proj_cover

end Launch

/-! ## The stage -/

variable (m : (ℓ : Loc nD τ sig) → Buf (Elt Ideal) ℓ) (ρ : Dev nD → PrngReg) (c : Dev nD)

/-- The host operations before the launch write none of the three inputs, so the launch finds them as launched. -/
theorem entry_x : projX (V1 m ρ) c = a0 m c :=
  calc (W1 m ρ c (Proc.devRef .tc main_arg0) : FVec Ideal S50000x2 .f32)
    _ = W0 m ρ c (Proc.devRef .tc main_arg0) := by skip_host hostOps0
    _ = a0 m c := rfl
theorem entry_w : projW (V1 m ρ) c = a3 m c :=
  calc (W1 m ρ c (Proc.devRef .tc main_arg3) : FVec Ideal S2x64 .f32)
    _ = W0 m ρ c (Proc.devRef .tc main_arg3) := by skip_host hostOps0
    _ = a3 m c := rfl
theorem entry_b : projB (V1 m ρ) c = a4 m c :=
  calc (W1 m ρ c (Proc.devRef .tc main_arg4) : FVec Ideal S64 .f32)
    _ = W0 m ρ c (Proc.devRef .tc main_arg4) := by skip_host hostOps0
    _ = a4 m c := rfl

end Cert.Bridge.Proj

namespace Cert.Bridge

open Cert.KernelIdeal Cert.KernelIdeal.Gen Idealize.ShloMosaic Idealize.ShloMosaic.TcCoe Idealize.SL.Sem
open Cert.ReferenceIdeal.Stages Cert.Bridge.Proj

variable (m : (ℓ : Loc nD τ sig) → Buf (Elt Ideal) ℓ) (ρ : Dev nD → PrngReg) (c : Dev nD)

/-- The node features after the first launch are the reference's input projection of the launched arguments: both are
    the affine layer `∑ k, x (r, k) * w (k, j) + b j` of the same three arrays. -/
theorem stA1 : kH0 m ρ c = h0 (a0 m c) (a3 m c) (a4 m c) := by
  have hk : kH0 m ρ c = (dat0 (V1 m ρ) c).arrAt 3 cfg0.N := W2_arr m ρ c 3
  rw [hk, proj_closed (V1 m ρ) c, entry_x, entry_w, entry_b]
  unfold h0
  exact (Cert.Laws.proj_law (n := 50000) (K := 2) (N := 64) _ rfl _ _ (a0 m c) (a3 m c) (a4 m c)).symm

end Cert.Bridge

end
-- ==== Proof.TakeMask.lean ====
/-
  The gather of source rows: what does not depend on the layer.

  The kernel program takes the rows of the node features at the edges' source nodes the guarded way: a negative
  source counts from the end (50000 is added to it), every wrapped source is tested against the range [0, 49999] of the
  node axis, and a row whose source fails the test is filled with a fixed value instead of a gathered row. The reference
  wraps the sources in the same way and gathers without a test. Under the precondition every source s satisfies
  -50000 ≤ s < 50000, so every wrapped source lies in [0, 49999], the test is passed at every edge, and the fill value
  is never taken: the guarded gather is the plain one.

  Here: a reduction by `and` of an array of ones is one; the wrapped word's range; the test passed at every edge
  and the guarded rows equal to the gathered rows, for any source column in range; the range of the sources read out
  of the precondition; the source column carried unchanged to each layer's gather; and the kernel program's spelling
  of the plain gather beside the reference's.
-/
import proofs.«401737_j58909771432764_1_alg».proof.Proof.Bridge
import proofs.«401737_j58909771432764_1_alg».proof.Defs
import proofs.«401737_j58909771432764_1_alg».proof.Proof.Gen.Pre_finite_inputs
import Idealize.ShloMosaic.Lib.ReduceAll
import Idealize.ShloMosaic.Lib.ValueIdx

noncomputable section

namespace Cert.TakeMask

open Cert.KernelIdeal Cert.KernelIdeal.Gen Idealize.ShloMosaic Idealize.ShloMosaic.TcCoe Idealize.SL.Sem
open Cert.ReferenceIdeal.Stages

/-! ## One-bit words -/

/-- A fold by `and`, started at one, over one-bit words that are all one ends at one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- A reduction by `and`, started at one, of an array of ones is one at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun i _ => hx i

/-! ## The wrapped source word -/

/-- A signed word in [-50000, 50000), with 50000 added to it when it is negative, lies in [0, 49999]: the sum of a
    negative word above -50000 and 50000 does not leave the signed range, so it is the sum of the integers. -/
theorem wrap_range (a : BitVec 32) (hlo : -50000 ≤ a.toInt) (hhi : a.toInt < 50000) :
    IntOp.cmpi .sge (Scalar.select (IntOp.cmpi .slt a 0#32) (IntOp.addi a 50000#32) a) 0#32 = 1#1
    ∧ IntOp.cmpi .sle (Scalar.select (IntOp.cmpi .slt a 0#32) (IntOp.addi a 50000#32) a) 49999#32 = 1#1 := by
  have h0 : (0#32 : BitVec 32).toInt = 0 := by decide
  have h5 : (50000#32 : BitVec 32).toInt = 50000 := by decide
  have h4 : (49999#32 : BitVec 32).toInt = 49999 := by decide
  rw [IntOp.cmpi_sge, IntOp.cmpi_sle, h0, h4]
  by_cases hn : a.toInt < 0
  · have hc : IntOp.cmpi .slt a 0#32 = 1#1 := IntOp.cmpi_slt.2 (by rw [h0]; exact hn)
    rw [hc, ValueIdx.select_one]
    have hs : (IntOp.addi a 50000#32).toInt = a.toInt + 50000 := by
      show (a + 50000#32).toInt = _
      rw [BitVec.toInt_add, h5]
      exact Int.bmod_eq_of_le (by omega) (by omega)
    rw [hs]; omega
  · have hc : ¬ IntOp.cmpi .slt a 0#32 = 1#1 := fun e => hn (by have := IntOp.cmpi_slt.1 e; rwa [h0] at this)
    rw [ValueIdx.eq_zero_of_ne_one hc, ValueIdx.select_zero]
    omega

/-! ## The range test is passed at every edge -/

section Mask

variable (hb0 : S_.BroadcastsInDim S800000 (![] : Fin 0 → Fin S800000.rank))
  (hb1 : S800000.BroadcastsInDim S800000x1 ![0])
  (hb2 : S_.BroadcastsInDim S800000x1 (![] : Fin 0 → Fin S800000x1.rank))
  (hb3 : S1.BroadcastsInDim S1x1 ![1])
  (hb4 : S1x1.BroadcastsInDim S800000x1 ![0, 1])
  (hb5 : S800000.BroadcastsInDim S800000x64 ![0])
  (hr : S800000x1.ReducesTo [1] S800000) (h0 : 0 < S_.numel)

/-- The test "0 ≤ wrapped source ≤ 49999", reduced along the index column, is one at every edge when every source lies
    in [-50000, 50000): each entry of the tested column is the wrapped word of some edge's source. -/
theorem mask_ones (s : IVec S800000 32) (hs : ∀ e, -50000 ≤ (s e).toInt ∧ (s e).toInt < 50000) (e : S800000.Idx) :
    Host.reduce IntOp.andi
      (andi
        (cmpi .sge
          (broadcastInDim S800000x1 ![0] hb1
            (select (cmpi .slt s (broadcastInDim S800000 ![] hb0 (constantI S_ 32 0#32)))
              (addi s (broadcastInDim S800000 ![] hb0 (constantI S_ 32 50000#32))) s))
          (broadcastInDim S800000x1 ![] hb2 (constantI S_ 32 0#32)))
        (cmpi .sle
          (broadcastInDim S800000x1 ![0] hb1
            (select (cmpi .slt s (broadcastInDim S800000 ![] hb0 (constantI S_ 32 0#32)))
              (addi s (broadcastInDim S800000 ![] hb0 (constantI S_ 32 50000#32))) s))
          (broadcastInDim S800000x1 ![0, 1] hb4 (broadcastInDim S1x1 ![1] hb3 (constantI S1 32 49999#32)))))
      (constantI S_ 1 1#1) hr h0 e = 1#1 := by
  refine reduce_andi_ones _ _ hr h0 rfl (fun i => ?_) e
  have key : ∀ e' : S800000.Idx,
      IntOp.andi (IntOp.cmpi .sge (Scalar.select (IntOp.cmpi .slt (s e') 0#32) (IntOp.addi (s e') 50000#32) (s e')) 0#32)
        (IntOp.cmpi .sle (Scalar.select (IntOp.cmpi .slt (s e') 0#32) (IntOp.addi (s e') 50000#32) (s e')) 49999#32) = 1#1 :=
    fun e' => IntOp.andi_eq_one.2 (wrap_range (s e') (hs e').1 (hs e').2)
  exact key _

/-- With every source in [-50000, 50000) the guarded rows are the gathered rows: the test is one at every edge, so the
    choice between a gathered row and the fill value always takes the gathered row. -/
theorem select_mask {α : Type} (s : IVec S800000 32) (hs : ∀ e, -50000 ≤ (s e).toInt ∧ (s e).toInt < 50000)
    (a b : S800000x64.Idx → α) :
    select
      (broadcastInDim S800000x64 ![0] hb5
        (Host.reduce IntOp.andi
          (andi
            (cmpi .sge
              (broadcastInDim S800000x1 ![0] hb1
                (select (cmpi .slt s (broadcastInDim S800000 ![] hb0 (constantI S_ 32 0#32)))
                  (addi s (broadcastInDim S800000 ![] hb0 (constantI S_ 32 50000#32))) s))
              (broadcastInDim S800000x1 ![] hb2 (constantI S_ 32 0#32)))
            (cmpi .sle
              (broadcastInDim S800000x1 ![0] hb1
                (select (cmpi .slt s (broadcastInDim S800000 ![] hb0 (constantI S_ 32 0#32)))
                  (addi s (broadcastInDim S800000 ![] hb0 (constantI S_ 32 50000#32))) s))
              (broadcastInDim S800000x1 ![0, 1] hb4 (broadcastInDim S1x1 ![1] hb3 (constantI S1 32 49999#32)))))
          (constantI S_ 1 1#1) hr h0))
      a b = a := by
  funext j
  rw [ValueIdx.select_apply]
  have hm := mask_ones hb0 hb1 hb2 hb3 hb4 hr h0 s hs
  have hbc : ∀ (mk : IVec S800000 1), (∀ e, mk e = 1#1) → broadcastInDim S800000x64 ![0] hb5 mk j = 1#1 := fun mk h => h _
  rw [hbc _ hm]
  exact ValueIdx.select_one _ _

end Mask

/-! ## Typed references: a value stored at its own type and read back -/

/-- Contents moved to a typed reference's buffer type and back are the contents. -/
theorem ofBuf_toBuf {sig : RefSig} {T : BufTy} {Val : EltTy → Type} (x : StableHlo.TRef sig T) (v : T.Contents Val) :
    x.ofBuf (x.toBuf v) = v := by
  obtain ⟨r, rfl, _, _⟩ := x
  rfl

/-! ## The sources' range, out of the precondition -/

variable (m : (ℓ : Loc nD τ sig) → Buf (Elt Ideal) ℓ) (ρ : Dev nD → PrngReg) (c : Dev nD)

instance subsingleton_scalar_idx : Subsingleton Cert.Pre_finite_inputs.S_.Idx := ⟨fun a b => funext fun d => d.elim0⟩

set_option maxHeartbeats 1600000 in
/-- The precondition's last conjunct says of row 0 of the edge list, entry by entry, -50000 ≤ s and s < 50000 as signed
    words; that row is the reference's source column. -/
theorem src_range (hpre : Cert.Pre_KernelIdeal m) (e : S800000.Idx) :
    -50000 ≤ (src (Cert.Bridge.a1 m c) e).toInt ∧ (src (Cert.Bridge.a1 m c) e).toInt < 50000 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  have h2 := (IntOp.andi_eq_one.1 h).2
  have h3 := Host.reduce_andi_all _ _ _ _ _ h2 e
  obtain ⟨hge, hlt⟩ := IntOp.andi_eq_one.1 h3
  have hge' : (4294917296#32 : BitVec 32).toInt ≤ (src (Cert.Bridge.a1 m c) e).toInt := IntOp.cmpi_sge.1 hge
  have hlt' : (src (Cert.Bridge.a1 m c) e).toInt < (50000#32 : BitVec 32).toInt := IntOp.cmpi_slt.1 hlt
  rw [show (4294917296#32 : BitVec 32).toInt = -50000 from by decide] at hge'
  rw [show (50000#32 : BitVec 32).toInt = 50000 from by decide] at hlt'
  exact ⟨hge', hlt'⟩

/-! ## The source column, carried to each layer's gather

The first stretch writes the source column once; no later stretch and no launch writes its buffer, so each layer's
gather reads what the first stretch left. -/

open Cert.Bridge in
/-- At layer 0's gather: the input projection's launch does not write the source column. -/
theorem src_at_W2 : (W2 m ρ c (Proc.devRef .tc main_v1) : IVec S800000 32) = Cert.Bridge.kSrc m ρ c :=
  W2_of_ne m ρ c main_v1 (by decide)

open Cert.Bridge in
/-- At layer 1's gather: nor do layer 0's stretches and its two launches. -/
theorem src_at_W7 : (W7 m ρ c (Proc.devRef .tc main_v1) : IVec S800000 32) = Cert.Bridge.kSrc m ρ c :=
  calc (W7 m ρ c (Proc.devRef .tc main_v1) : IVec S800000 32)
    _ = W6 m ρ c (Proc.devRef .tc main_v1) := W7_of_ne m ρ c main_v1 (by decide)
    _ = W5 m ρ c (Proc.devRef .tc main_v1) := by
          show StableHlo.after hostOps2 (W5 m ρ c) (Proc.devRef .tc main_v1) = _
          skip_host hostOps2
    _ = W4 m ρ c (Proc.devRef .tc main_v1) := W5_of_ne m ρ c main_v1 (by decide)
    _ = W3 m ρ c (Proc.devRef .tc main_v1) := by
          show StableHlo.after hostOps1_1 (W3 m ρ c) (Proc.devRef .tc main_v1) = _
          skip_host hostOps1_1
    _ = W2 m ρ c (Proc.devRef .tc main_v1) := by
          show StableHlo.after hostOps1 (W2 m ρ c) (Proc.devRef .tc main_v1) = _
          skip_host hostOps1
    _ = Cert.Bridge.kSrc m ρ c := src_at_W2 m ρ c

open Cert.Bridge in
/-- At layer 2's gather: nor do layer 1's. -/
theorem src_at_W12 : (W12 m ρ c (Proc.devRef .tc main_v1) : IVec S800000 32) = Cert.Bridge.kSrc m ρ c :=
  calc (W12 m ρ c (Proc.devRef .tc main_v1) : IVec S800000 32)
    _ = W11 m ρ c (Proc.devRef .tc main_v1) := W12_of_ne m ρ c main_v1 (by decide)
    _ = W10 m ρ c (Proc.devRef .tc main_v1) := by
          show StableHlo.after hostOps4 (W10 m ρ c) (Proc.devRef .tc main_v1) = _
          skip_host hostOps4
    _ = W9 m ρ c (Proc.devRef .tc main_v1) := W10_of_ne m ρ c main_v1 (by decide)
    _ = W8 m ρ c (Proc.devRef .tc main_v1) := by
          show StableHlo.after hostOps3_1 (W8 m ρ c) (Proc.devRef .tc main_v1) = _
          skip_host hostOps3_1
    _ = W7 m ρ c (Proc.devRef .tc main_v1) := by
          show StableHlo.after hostOps3 (W7 m ρ c) (Proc.devRef .tc main_v1) = _
          skip_host hostOps3
    _ = Cert.Bridge.kSrc m ρ c := src_at_W7 m ρ c

/-! ## The two spellings of the plain gather -/

/-- The kernel program's gather at the wrapped sources is the reference's `rows`: the same operations over the same
    shapes, each program naming the shapes and the gather's dimension record in its own vocabulary. -/
theorem rows_spelling (h : FVec Ideal S50000x64 .f32) (x1 : IVec S2x800000 32) :
    Host.gather gather_S50000x64_S800000x1_S800000x64_1_0_n_n_0_1_164 h
      (broadcastInDim S800000x1 ![0] bcast_S800000_S800000x1_0
        (select (cmpi .slt (src x1) (broadcastInDim S800000 ![] bcast_S_S800000 (constantI S_ 32 0#32)))
          (addi (src x1) (broadcastInDim S800000 ![] bcast_S_S800000 (constantI S_ 32 50000#32))) (src x1)))
      = rows h x1 := rfl

end Cert.TakeMask

end
-- ==== Proof.StageTake0.lean ====
/-
  The gather of source rows, layer 0.

  Between the input projection's launch and the message launch the host program gathers, for every edge, the row of the
  node features at the edge's source node. It does so the guarded way (a source outside the node range would give a
  filled row); the precondition keeps every source in range, so the guarded gather is the plain gather, and that is the
  reference's stage of the same name. The stretch's operations are read off the run as one composed term over the two
  buffers it reads, the source column and the node features; the layer-independent facts are in TakeMask.
-/
import proofs.«401737_j58909771432764_1_alg».proof.Proof.Bridge
import proofs.«401737_j58909771432764_1_alg».proof.Proof.TakeMask

noncomputable section

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-! ## The stretch's operands and result, read at their tensor types -/

/-- The source column read by the stretch is the buffer's contents. -/
theorem take0_src (p q r) :
    (StableHlo.TRef.of main_v1 p q r : StableHlo.TRef sig ⟨S800000, .i32⟩).ofBuf (W2 m ρ c (Proc.devRef .tc main_v1))
      = (W2 m ρ c (Proc.devRef .tc main_v1) : IVec S800000 32) := rfl

/-- The node features read by the stretch are the buffer's contents. -/
theorem take0_h (p q r) :
    (StableHlo.TRef.of main_v11 p q r : StableHlo.TRef sig ⟨S50000x64, .f32⟩).ofBuf (W2 m ρ c (Proc.devRef .tc main_v11))
      = (W2 m ρ c (Proc.devRef .tc main_v11) : FVec Ideal S50000x64 .f32) := rfl

/-- The rows stored by the stretch are the buffer's contents. -/
theorem take0_rows (p q r) (v : FVec Ideal S800000x64 .f32) :
    ((StableHlo.TRef.of main_v12 p q r : StableHlo.TRef sig ⟨S800000x64, .f32⟩).toBuf (Val := Elt Ideal) v : FVec Ideal S800000x64 .f32) = v := rfl

/-! ## The stage -/

set_option maxHeartbeats 1600000 in
/-- Layer 0's gathered rows are the reference's: the stretch computes the guarded gather of the node features at the
    wrapped source column; the sources are in range, so it is the plain gather, which is `rows`. -/
theorem stB0 (hpre : Cert.Pre_KernelIdeal m) (h : FVec Ideal S50000x64 .f32) (hh : kH0 m ρ c = h) (hs : kSrc m ρ c = src (a1 m c)) :
    kRows0 m ρ c = rows h (a1 m c) := by
  have e1 : (W2 m ρ c (Proc.devRef .tc main_v1) : IVec S800000 32) = src (a1 m c) := (TakeMask.src_at_W2 m ρ c).trans hs
  have e11 : (W2 m ρ c (Proc.devRef .tc main_v11) : FVec Ideal S50000x64 .f32) = h := hh
  dsimp only [kRows0, W3]
  after_results_simp
  simp only [TakeMask.ofBuf_toBuf]
  rw [take0_rows, take0_src, take0_h, e1, e11]
  refine (TakeMask.select_mask _ _ _ _ _ _ _ _ (src (a1 m c)) (fun e => TakeMask.src_range m c hpre e) _ _).trans ?_
  exact TakeMask.rows_spelling h (a1 m c)

end Cert.Bridge

end
-- ==== Proof.StageTake1.lean ====
/-
  The gather of source rows, layer 1.

  Between layer 0's update launch and the message launch the host program gathers, for every edge, the row of the
  node features at the edge's source node. It does so the guarded way (a source outside the node range would give a
  filled row); the precondition keeps every source in range, so the guarded gather is the plain gather, and that is the
  reference's stage of the same name. The stretch's operations are read off the run as one composed term over the two
  buffers it reads, the source column and the node features; the layer-independent facts are in TakeMask.
-/
import proofs.«401737_j58909771432764_1_alg».proof.Proof.Bridge
import proofs.«401737_j58909771432764_1_alg».proof.Proof.TakeMask

noncomputable section

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-! ## The stretch's operands and result, read at their tensor types -/

/-- The source column read by the stretch is the buffer's contents. -/
theorem take1_src (p q r) :
    (StableHlo.TRef.of main_v1 p q r : StableHlo.TRef sig ⟨S800000, .i32⟩).ofBuf (W7 m ρ c (Proc.devRef .tc main_v1))
      = (W7 m ρ c (Proc.devRef .tc main_v1) : IVec S800000 32) := rfl

/-- The node features read by the stretch are the buffer's contents. -/
theorem take1_h (p q r) :
    (StableHlo.TRef.of main_v31 p q r : StableHlo.TRef sig ⟨S50000x64, .f32⟩).ofBuf (W7 m ρ c (Proc.devRef .tc main_v31))
      = (W7 m ρ c (Proc.devRef .tc main_v31) : FVec Ideal S50000x64 .f32) := rfl

/-- The rows stored by the stretch are the buffer's contents. -/
theorem take1_rows (p q r) (v : FVec Ideal S800000x64 .f32) :
    ((StableHlo.TRef.of main_v32 p q r : StableHlo.TRef sig ⟨S800000x64, .f32⟩).toBuf (Val := Elt Ideal) v : FVec Ideal S800000x64 .f32) = v := rfl

/-! ## The stage -/

set_option maxHeartbeats 1600000 in
/-- Layer 1's gathered rows are the reference's: the stretch computes the guarded gather of the node features at the
    wrapped source column; the sources are in range, so it is the plain gather, which is `rows`. -/
theorem stB1 (hpre : Cert.Pre_KernelIdeal m) (h : FVec Ideal S50000x64 .f32) (hh : kH1 m ρ c = h) (hs : kSrc m ρ c = src (a1 m c)) :
    kRows1 m ρ c = rows h (a1 m c) := by
  have e1 : (W7 m ρ c (Proc.devRef .tc main_v1) : IVec S800000 32) = src (a1 m c) := (TakeMask.src_at_W7 m ρ c).trans hs
  have e11 : (W7 m ρ c (Proc.devRef .tc main_v31) : FVec Ideal S50000x64 .f32) = h := hh
  dsimp only [kRows1, W8]
  after_results_simp
  simp only [TakeMask.ofBuf_toBuf]
  rw [take1_rows, take1_src, take1_h, e1, e11]
  refine (TakeMask.select_mask _ _ _ _ _ _ _ _ (src (a1 m c)) (fun e => TakeMask.src_range m c hpre e) _ _).trans ?_
  exact TakeMask.rows_spelling h (a1 m c)

end Cert.Bridge

end
-- ==== Proof.StageTake2.lean ====
/-
  The gather of source rows, layer 2.

  Between layer 1's update launch and the message launch the host program gathers, for every edge, the row of the
  node features at the edge's source node. It does so the guarded way (a source outside the node range would give a
  filled row); the precondition keeps every source in range, so the guarded gather is the plain gather, and that is the
  reference's stage of the same name. The stretch's operations are read off the run as one composed term over the two
  buffers it reads, the source column and the node features; the layer-independent facts are in TakeMask.
-/
import proofs.«401737_j58909771432764_1_alg».proof.Proof.Bridge
import proofs.«401737_j58909771432764_1_alg».proof.Proof.TakeMask

noncomputable section

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-! ## The stretch's operands and result, read at their tensor types -/

/-- The source column read by the stretch is the buffer's contents. -/
theorem take2_src (p q r) :
    (StableHlo.TRef.of main_v1 p q r : StableHlo.TRef sig ⟨S800000, .i32⟩).ofBuf (W12 m ρ c (Proc.devRef .tc main_v1))
      = (W12 m ρ c (Proc.devRef .tc main_v1) : IVec S800000 32) := rfl

/-- The node features read by the stretch are the buffer's contents. -/
theorem take2_h (p q r) :
    (StableHlo.TRef.of main_v51 p q r : StableHlo.TRef sig ⟨S50000x64, .f32⟩).ofBuf (W12 m ρ c (Proc.devRef .tc main_v51))
      = (W12 m ρ c (Proc.devRef .tc main_v51) : FVec Ideal S50000x64 .f32) := rfl

/-- The rows stored by the stretch are the buffer's contents. -/
theorem take2_rows (p q r) (v : FVec Ideal S800000x64 .f32) :
    ((StableHlo.TRef.of main_v52 p q r : StableHlo.TRef sig ⟨S800000x64, .f32⟩).toBuf (Val := Elt Ideal) v : FVec Ideal S800000x64 .f32) = v := rfl

/-! ## The stage -/

set_option maxHeartbeats 1600000 in
/-- Layer 2's gathered rows are the reference's: the stretch computes the guarded gather of the node features at the
    wrapped source column; the sources are in range, so it is the plain gather, which is `rows`. -/
theorem stB2 (hpre : Cert.Pre_KernelIdeal m) (h : FVec Ideal S50000x64 .f32) (hh : kH2 m ρ c = h) (hs : kSrc m ρ c = src (a1 m c)) :
    kRows2 m ρ c = rows h (a1 m c) := by
  have e1 : (W12 m ρ c (Proc.devRef .tc main_v1) : IVec S800000 32) = src (a1 m c) := (TakeMask.src_at_W12 m ρ c).trans hs
  have e11 : (W12 m ρ c (Proc.devRef .tc main_v51) : FVec Ideal S50000x64 .f32) = h := hh
  dsimp only [kRows2, W13]
  after_results_simp
  simp only [TakeMask.ofBuf_toBuf]
  rw [take2_rows, take2_src, take2_h, e1, e11]
  refine (TakeMask.select_mask _ _ _ _ _ _ _ _ (src (a1 m c)) (fun e => TakeMask.src_range m c hpre e) _ _).trans ?_
  exact TakeMask.rows_spelling h (a1 m c)

end Cert.Bridge

end
-- ==== Proof.StageMsgCarry.lean ====
/-
  The three arguments the message layers read — the edge attributes, the stacked message weights and the stacked
  message biases — are inputs that no stretch of host operations and no launch of the run writes. So at the boundary
  where each of the three layers begins, the buffer of each still holds what the program was launched with.

  The run is a fold from the launch memory through the stretches and launches; a buffer is carried back one step at a
  time. A stretch that does not write it leaves it alone. A launch leaves every buffer that is not one of its windows'
  arrays alone; the edge attributes ARE an input window's array of each message launch, and an input window's array
  after the launch is its array before.
-/
import proofs.«401737_j58909771432764_1_alg».proof.Proof.Bridge

noncomputable section

namespace Cert.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The edge attributes -/

/-- Where layer 0 begins: the input projection's launch and the first stretch do not touch them. -/
theorem msgArg2_L0 : W2 m ρ c (Proc.devRef .tc main_arg2) = a2 m c :=
  calc W2 m ρ c (Proc.devRef .tc main_arg2)
      = W1 m ρ c (Proc.devRef .tc main_arg2) := W2_of_ne m ρ c main_arg2 (by decide)
    _ = W0 m ρ c (Proc.devRef .tc main_arg2) := by skip_host hostOps0
    _ = a2 m c := rfl

/-- Where layer 1 begins: back through layer 0's update launch, the mean, the message launch (which reads them as its
    second input window) and the two stretches before it. -/
theorem msgArg2_L1 : W7 m ρ c (Proc.devRef .tc main_arg2) = a2 m c :=
  calc W7 m ρ c (Proc.devRef .tc main_arg2)
      = W6 m ρ c (Proc.devRef .tc main_arg2) := W7_of_ne m ρ c main_arg2 (by decide)
    _ = W5 m ρ c (Proc.devRef .tc main_arg2) := by skip_host hostOps2
    _ = W4 m ρ c (Proc.devRef .tc main_arg2) :=
        (W5_arr m ρ c 1).trans (((dat1 (V4 m ρ) c).arrAt_in 1 rfl _).trans (A_eq1 (V4 m ρ) c 1))
    _ = W3 m ρ c (Proc.devRef .tc main_arg2) := by skip_host hostOps1_1
    _ = W2 m ρ c (Proc.devRef .tc main_arg2) := by skip_host hostOps1
    _ = a2 m c := msgArg2_L0 m ρ c

/-- Where layer 2 begins: the same steps through layer 1. -/
theorem msgArg2_L2 : W12 m ρ c (Proc.devRef .tc main_arg2) = a2 m c :=
  calc W12 m ρ c (Proc.devRef .tc main_arg2)
      = W11 m ρ c (Proc.devRef .tc main_arg2) := W12_of_ne m ρ c main_arg2 (by decide)
    _ = W10 m ρ c (Proc.devRef .tc main_arg2) := by skip_host hostOps4
    _ = W9 m ρ c (Proc.devRef .tc main_arg2) :=
        (W10_arr m ρ c 1).trans (((dat3 (V9 m ρ) c).arrAt_in 1 rfl _).trans (A_eq3 (V9 m ρ) c 1))
    _ = W8 m ρ c (Proc.devRef .tc main_arg2) := by skip_host hostOps3_1
    _ = W7 m ρ c (Proc.devRef .tc main_arg2) := by skip_host hostOps3
    _ = a2 m c := msgArg2_L1 m ρ c

/-! ## The stacked message weights: no launch has them as a window's array -/

theorem msgArg5_L0 : W2 m ρ c (Proc.devRef .tc main_arg5) = a5 m c :=
  calc W2 m ρ c (Proc.devRef .tc main_arg5)
      = W1 m ρ c (Proc.devRef .tc main_arg5) := W2_of_ne m ρ c main_arg5 (by decide)
    _ = W0 m ρ c (Proc.devRef .tc main_arg5) := by skip_host hostOps0
    _ = a5 m c := rfl

theorem msgArg5_L1 : W7 m ρ c (Proc.devRef .tc main_arg5) = a5 m c :=
  calc W7 m ρ c (Proc.devRef .tc main_arg5)
      = W6 m ρ c (Proc.devRef .tc main_arg5) := W7_of_ne m ρ c main_arg5 (by decide)
    _ = W5 m ρ c (Proc.devRef .tc main_arg5) := by skip_host hostOps2
    _ = W4 m ρ c (Proc.devRef .tc main_arg5) := W5_of_ne m ρ c main_arg5 (by decide)
    _ = W3 m ρ c (Proc.devRef .tc main_arg5) := by skip_host hostOps1_1
    _ = W2 m ρ c (Proc.devRef .tc main_arg5) := by skip_host hostOps1
    _ = a5 m c := msgArg5_L0 m ρ c

theorem msgArg5_L2 : W12 m ρ c (Proc.devRef .tc main_arg5) = a5 m c :=
  calc W12 m ρ c (Proc.devRef .tc main_arg5)
      = W11 m ρ c (Proc.devRef .tc main_arg5) := W12_of_ne m ρ c main_arg5 (by decide)
    _ = W10 m ρ c (Proc.devRef .tc main_arg5) := by skip_host hostOps4
    _ = W9 m ρ c (Proc.devRef .tc main_arg5) := W10_of_ne m ρ c main_arg5 (by decide)
    _ = W8 m ρ c (Proc.devRef .tc main_arg5) := by skip_host hostOps3_1
    _ = W7 m ρ c (Proc.devRef .tc main_arg5) := by skip_host hostOps3
    _ = a5 m c := msgArg5_L1 m ρ c

/-! ## The stacked message biases: likewise -/

theorem msgArg6_L0 : W2 m ρ c (Proc.devRef .tc main_arg6) = a6 m c :=
  calc W2 m ρ c (Proc.devRef .tc main_arg6)
      = W1 m ρ c (Proc.devRef .tc main_arg6) := W2_of_ne m ρ c main_arg6 (by decide)
    _ = W0 m ρ c (Proc.devRef .tc main_arg6) := by skip_host hostOps0
    _ = a6 m c := rfl

theorem msgArg6_L1 : W7 m ρ c (Proc.devRef .tc main_arg6) = a6 m c :=
  calc W7 m ρ c (Proc.devRef .tc main_arg6)
      = W6 m ρ c (Proc.devRef .tc main_arg6) := W7_of_ne m ρ c main_arg6 (by decide)
    _ = W5 m ρ c (Proc.devRef .tc main_arg6) := by skip_host hostOps2
    _ = W4 m ρ c (Proc.devRef .tc main_arg6) := W5_of_ne m ρ c main_arg6 (by decide)
    _ = W3 m ρ c (Proc.devRef .tc main_arg6) := by skip_host hostOps1_1
    _ = W2 m ρ c (Proc.devRef .tc main_arg6) := by skip_host hostOps1
    _ = a6 m c := msgArg6_L0 m ρ c

theorem msgArg6_L2 : W12 m ρ c (Proc.devRef .tc main_arg6) = a6 m c :=
  calc W12 m ρ c (Proc.devRef .tc main_arg6)
      = W11 m ρ c (Proc.devRef .tc main_arg6) := W12_of_ne m ρ c main_arg6 (by decide)
    _ = W10 m ρ c (Proc.devRef .tc main_arg6) := by skip_host hostOps4
    _ = W9 m ρ c (Proc.devRef .tc main_arg6) := W10_of_ne m ρ c main_arg6 (by decide)
    _ = W8 m ρ c (Proc.devRef .tc main_arg6) := by skip_host hostOps3_1
    _ = W7 m ρ c (Proc.devRef .tc main_arg6) := by skip_host hostOps3
    _ = a6 m c := msgArg6_L1 m ρ c

end Cert.Bridge

end
-- ==== Proof.StageMsg0.lean ====
/-
  The message layer of layer 0: the dense launch over the 800000 edges computes the reference's messages.

  Each edge's message is `max (h_src · W[:64] + e · W[64:] + b, 0)`: row `r` of the output depends on row `r` of the
  gathered source rows and of the edge attributes only. The launch walks the rows in 200 blocks of 4000; the block at
  grid point `t` holds rows `4000 t … 4000 t + 3999`, the weight blocks and the bias are whole at every point. So the
  block of the layer of the whole arrays is the layer of the blocks, the 200 blocks cover every row, and the output
  array is the layer of the five input arrays. On the reference's side the same layer is written with the two inputs
  laid side by side against the unsplit weights; splitting the sum over the 66 joined columns into its first 64 and
  last 2 gives the same function.
-/
import proofs.«401737_j58909771432764_1_alg».proof.Proof.Bridge
import proofs.«401737_j58909771432764_1_alg».proof.Proof.Laws
import proofs.«401737_j58909771432764_1_alg».proof.Proof.StageMsgCarry
import Idealize.ShloMosaic.Lib.Pipeline.Value
import Idealize.ShloMosaic.Lib.Tactic

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Stages

/-! ## One block -/

/-- One block of 4000 edges: what the launch's body stores is the layer on the block's five operands. The two
    products go into zero accumulators, so each is a plain sum; a change of float format and a cast to the same shape
    change nothing; the bias row is repeated down the rows; the cut-off is against the zero word. -/
theorem msgBlock0 (v0 : Vec Ideal S4000x64 .f32) (v3 : Vec Ideal S4000x2 .f32) (v5 : Vec Ideal S64x64 .f32)
    (v8 : Vec Ideal S2x64 .f32) (v14 : Vec Ideal S64 .f32) :
    k1_pay1 (F := Ideal) v0 v3 v5 v8 v14 = Cert.Spec.dense2 v0 v3 v5 v8 v14 := by
  funext i
  obtain ⟨p, j, rfl⟩ : ∃ (p : Fin 4000) (j : Fin 64), i = ix2 p j := ⟨i 0, i 1, eq_ix2 i⟩
  rw [Cert.Spec.dense2_apply]
  unfold k1_pay1
  simp only [shapeCast_self]
  rw [maximumf_apply, addf_apply, addf_apply, broadcast_apply,
    Cert.LibRowOps.matmul_plain_apply dot_S4000x64_S64x64_S4000x64_1_0_0_1_n_n rfl,
    Cert.LibRowOps.matmul_plain_apply dot_S4000x2_S2x64_S4000x64_1_0_0_1_n_n rfl, Cert.LibRowOps.rowBcast_apply]
  exact congrArg (max ((∑ k, v0 (ix2 p k) * v5 (ix2 k j)) + (∑ k, v3 (ix2 p k) * v8 (ix2 k j)) + v14 (ix1 j))) Ideal.ofBits_zero_f32

/-! ## The launch, for any buffer contents `V` at its entry -/

section Launch

variable (V : (c : Dev nD) → (b : Ref sig .tc) → Buf (Elt Ideal) ((c : Thread nD τ).loc b))

/-- The launch's five input arrays and the layer of them, at their literal types. -/
abbrev msgRowsIn0 (c : Dev nD) : FVec Ideal S800000x64 .f32 := V c main_v12
abbrev msgAttrIn0 (c : Dev nD) : FVec Ideal S800000x2 .f32 := V c main_arg2
abbrev msgWaIn0 (c : Dev nD) : FVec Ideal S64x64 .f32 := V c main_v15
abbrev msgWbIn0 (c : Dev nD) : FVec Ideal S2x64 .f32 := V c main_v16
abbrev msgBiasIn0 (c : Dev nD) : FVec Ideal S64 .f32 := V c main_v18
abbrev msgLayer0 (c : Dev nD) : FVec Ideal S800000x64 .f32 :=
  Cert.Spec.dense2 (msgRowsIn0 V c) (msgAttrIn0 V c) (msgWaIn0 V c) (msgWbIn0 V c) (msgBiasIn0 V c)

theorem msgZeroPair0 : (![0, 0] : Fin 2 → Nat) = fun _ => 0 := funext fun a => by fin_cases a <;> rfl
theorem msgZeroOne0 : (![0] : Fin 1 → Nat) = fun _ => 0 := funext fun a => by fin_cases a; rfl

/-- The printed index maps over the 200 grid points: the two row-tiled inputs and the output are at row block `t`,
    the weight blocks and the bias at block 0. -/
theorem msgIndex0 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Block `t` of the gathered rows is rows `4000 t … 4000 t + 3999` of the array. -/
theorem msgRowsBlk0 (c : Dev nD) (t : Fin cfg1.N) (x : S4000x64.Idx) (k : S800000x64.Idx)
    (hk0 : (k 0).val = 4000 * t.val + (x 0).val) (hk1 : (k 1).val = (x 1).val) :
    (iblk1 V c 0 t : Vec Ideal S4000x64 .f32) x = msgRowsIn0 V c k := by
  obtain ⟨e0, e1, -⟩ := msgIndex0 t
  unfold iblk1
  rw [View.read_apply]
  show V c main_v12 _ = V c main_v12 _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- Block `t` of the edge attributes is rows `4000 t … 4000 t + 3999` of the array. -/
theorem msgAttrBlk0 (c : Dev nD) (t : Fin cfg1.N) (x : S4000x2.Idx) (k : S800000x2.Idx)
    (hk0 : (k 0).val = 4000 * t.val + (x 0).val) (hk1 : (k 1).val = (x 1).val) :
    (iblk1 V c 1 t : Vec Ideal S4000x2 .f32) x = msgAttrIn0 V c k := by
  obtain ⟨-, -, e0, e1, -⟩ := msgIndex0 t
  unfold iblk1
  rw [View.read_apply]
  show V c main_arg2 _ = V c main_arg2 _
  congr 1
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 2 + 1 * (x 1).val = (k 1).val; rw [e1, hk1]; omega

/-- The weight blocks and the bias are staged whole at every point. -/
theorem msgWaBlk0 (c : Dev nD) (t : Fin cfg1.N) : (iblk1 V c 2 t : Vec Ideal S64x64 .f32) = msgWaIn0 V c := by
  obtain ⟨-, -, -, -, e0, e1, -⟩ := msgIndex0 t
  funext x
  unfold iblk1
  rw [View.read_apply]
  show V c main_v15 _ = V c main_v15 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem msgWbBlk0 (c : Dev nD) (t : Fin cfg1.N) : (iblk1 V c 3 t : Vec Ideal S2x64 .f32) = msgWbIn0 V c := by
  obtain ⟨-, -, -, -, -, -, e0, e1, -⟩ := msgIndex0 t
  funext x
  unfold iblk1
  rw [View.read_apply]
  show V c main_v16 _ = V c main_v16 _
  congr 1
  funext a
  apply Fin.ext
  match a with
  | ⟨0, _⟩ => show win1_3.index t (0 : Fin 2) * 2 + 1 * (x 0).val = (x 0).val; rw [e0]; omega
  | ⟨1, _⟩ => show win1_3.index t (1 : Fin 2) * 64 + 1 * (x 1).val = (x 1).val; rw [e1]; omega

theorem msgBiasBlk0 (c : Dev nD) (t : Fin cfg1.N) : (iblk1 V c 4 t : Vec Ideal S64 .f32) = msgBiasIn0 V c := by
  obtain ⟨-, -, -, -, -, -, -, -, e0, -⟩ := msgIndex0 t
  funext x
  unfold iblk1
  rw [View.read_apply]
  show V c main_v18 _ = V c main_v18 _
  congr 1
  funext a
  apply Fin.ext
  match a with
  | ⟨0, _⟩ => show win1_4.index t (0 : Fin 1) * 64 + 1 * (x 0).val = (x 0).val; rw [e0]; omega

/-- The layer is row-local: where row `p` of the two block operands is row `r` of the two arrays, row `p` of the
    layer of the blocks is row `r` of the layer of the arrays. -/
theorem msgRowLocal0 {n n' K1 K2 N : ℕ} (a : (⟨2, ![n, K1]⟩ : Shape).Idx → EReal) (b : (⟨2, ![n, K2]⟩ : Shape).Idx → EReal)
    (a' : (⟨2, ![n', K1]⟩ : Shape).Idx → EReal) (b' : (⟨2, ![n', K2]⟩ : Shape).Idx → EReal)
    (wa : (⟨2, ![K1, N]⟩ : Shape).Idx → EReal) (wb : (⟨2, ![K2, N]⟩ : Shape).Idx → EReal)
    (bias : (⟨1, ![N]⟩ : Shape).Idx → EReal) (p : Fin n) (r : Fin n') (j : Fin N)
    (ha : ∀ k, a (ix2 p k) = a' (ix2 r k)) (hb : ∀ k, b (ix2 p k) = b' (ix2 r k)) :
    Cert.Spec.dense2 a b wa wb bias (ix2 p j) = Cert.Spec.dense2 a' b' wa wb bias (ix2 r j) := by
  rw [Cert.Spec.dense2_apply, Cert.Spec.dense2_apply]
  simp only [ha, hb]

/-- WHAT POINT `t` WRITES BACK is block `t` of the layer of the whole arrays: the body stores the layer of its
    blocks, and row `p` of the row-tiled blocks is row `4000 t + p` of their arrays. -/
theorem msgFlushed0 (c : Dev nD) (t : Fin cfg1.N) :
    (dat1 V c).flushed 5 t = ((cfg1.win 5).blk t).view.read (Elt Ideal) (msgLayer0 V c) := by
  show (cfg1.win 5).cut (grid1.coords t) ((dat1 V c).after 5 t) = _
  rw [after1_5]
  unfold out1_5
  rw [View.canon_unit_zero msgZeroPair0]
  simp only [View.ld_unit_zero (S := S4000x64) msgZeroPair0, View.ld_unit_zero (S := S4000x2) msgZeroPair0,
    View.ld_unit_zero (S := S64x64) msgZeroPair0, View.ld_unit_zero (S := S2x64) msgZeroPair0, View.ld_unit_zero (S := S64) msgZeroOne0]
  rw [msgBlock0, msgWaBlk0, msgWbBlk0, msgBiasBlk0]
  obtain ⟨-, -, -, -, -, -, -, -, -, e0, e1⟩ := msgIndex0 t
  have ht : t.val < 200 := lt_of_lt_of_eq t.isLt N_1
  funext y
  have hy0 : (y 0).val < 4000 := (y 0).isLt
  have hy1 : (y 1).val < 64 := (y 1).isLt
  have hL : (cfg1.win 5).xinj (grid1.coords t) y = ix2 (⟨(y 0).val, hy0⟩ : Fin 4000) (⟨(y 1).val, hy1⟩ : Fin 64) :=
    funext fun a => Fin.ext (by match a with | ⟨0, _⟩ => rfl | ⟨1, _⟩ => rfl)
  have hR : ((cfg1.win 5).blk t).view.emb y
      = ix2 (⟨4000 * t.val + (y 0).val, by omega⟩ : Fin 800000) (⟨(y 1).val, hy1⟩ : Fin 64) :=
    funext fun a => Fin.ext (by
      match a with
      | ⟨0, _⟩ => show win1_5.index t (0 : Fin 2) * 4000 + 1 * (y 0).val = 4000 * t.val + (y 0).val; rw [e0]; omega
      | ⟨1, _⟩ => show win1_5.index t (1 : Fin 2) * 64 + 1 * (y 1).val = (y 1).val; rw [e1]; omega)
  show Cert.Spec.dense2 (iblk1 V c 0 t : Vec Ideal S4000x64 .f32) (iblk1 V c 1 t : Vec Ideal S4000x2 .f32)
        (msgWaIn0 V c) (msgWbIn0 V c) (msgBiasIn0 V c) ((cfg1.win 5).xinj (grid1.coords t) y)
      = msgLayer0 V c (((cfg1.win 5).blk t).view.emb y)
  rw [hL, hR]
  exact msgRowLocal0 (n := 4000) (n' := 800000) (K1 := 64) (K2 := 2) (N := 64)
    (iblk1 V c 0 t : Vec Ideal S4000x64 .f32) (iblk1 V c 1 t : Vec Ideal S4000x2 .f32) (msgRowsIn0 V c) (msgAttrIn0 V c)
    (msgWaIn0 V c) (msgWbIn0 V c) (msgBiasIn0 V c) ⟨(y 0).val, hy0⟩ ⟨4000 * t.val + (y 0).val, by omega⟩ ⟨(y 1).val, hy1⟩
    (fun k => msgRowsBlk0 V c t _ _ rfl rfl) (fun k => msgAttrBlk0 V c t _ _ rfl rfl)

/-- An index of the output array is in point `t`'s block iff each coordinate is in the block's range on its axis. -/
theorem msgMemBlk0 (t : Fin cfg1.N) (i : S800000x64.Idx) :
    i ∈ ((cfg1.win 5).blk t).view.set
      ↔ ∀ a : Fin 2, win1_5.index t a * S4000x64.size a ≤ (i a).val ∧ (i a).val < win1_5.index t a * S4000x64.size a + S4000x64.size a := by
  show i ∈ ((View.whole main_v19).slice (win1_5.rect t)).set ↔ _
  rw [View.set_slice_whole, Rect.mem_set_unit]
  exact Iff.rfl

/-- The 200 blocks cover the array: row `r` is in block `r / 4000`, and every point writes its block back. -/
theorem msgCover0 (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  have hN : cfg1.N = 200 := N_1
  have hq : (i 0).val / 4000 < cfg1.N := by rw [hN]; omega
  obtain ⟨-, -, -, -, -, -, -, -, -, e0, e1⟩ := msgIndex0 ⟨(i 0).val / 4000, hq⟩
  refine ⟨⟨(i 0).val / 4000, hq⟩, flush1_5 _, ?_⟩
  rw [msgMemBlk0]
  intro a
  match a with
  | ⟨0, _⟩ =>
    show win1_5.index ⟨(i 0).val / 4000, hq⟩ (0 : Fin 2) * 4000 ≤ (i 0).val
      ∧ (i 0).val < win1_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hq⟩ (1 : Fin 2) * 64 ≤ (i 1).val
      ∧ (i 1).val < win1_5.index ⟨(i 0).val / 4000, hq⟩ (1 : Fin 2) * 64 + 64
    rw [e1]; omega

/-- THE LAUNCH'S CLOSED FORM: after the launch the output array is the layer of the five input arrays as the
    launch finds them. -/
theorem msgClosed0 (c : Dev nD) : (dat1 V c).arrAt 5 cfg1.N = msgLayer0 V c :=
  (dat1 V c).arrAt_eq_of_cover 5 (msgLayer0 V c) (fun t _ => msgFlushed0 V c t) fun i => msgCover0 i

end Launch

/-! ## The launch in the run -/

section Run

variable (m : (ℓ : Loc nD τ sig) → Buf (Elt Ideal) ℓ) (ρ : Dev nD → PrngReg) (c : Dev nD)

/-- The launch finds the gathered rows where the gather left them: the stretch between writes other buffers. -/
theorem msgRowsAt0 : msgRowsIn0 (V4 m ρ) c = kRows0 m ρ c := by
  show StableHlo.after hostOps1_1 (W3 m ρ c) (Proc.devRef .tc main_v12) = W3 m ρ c (Proc.devRef .tc main_v12)
  skip_host hostOps1_1

/-- The edge attributes are the launched ones. -/
theorem msgAttrAt0 : msgAttrIn0 (V4 m ρ) c = a2 m c :=
  calc W4 m ρ c (Proc.devRef .tc main_arg2)
      = W3 m ρ c (Proc.devRef .tc main_arg2) := by skip_host hostOps1_1
    _ = W2 m ρ c (Proc.devRef .tc main_arg2) := by skip_host hostOps1
    _ = a2 m c := msgArg2_L0 m ρ c

/-- The two weight blocks: the stretch before the launch cuts slab 0 out of the stacked weights, drops its unit
    axis, and cuts rows 0 … 63 and rows 64, 65 out of the `[66, 64]` matrix that is left. -/
theorem msgWaAt0 : msgWaIn0 (V4 m ρ) c = extractStridedSlice S64x64 ![0, 0] (wMsg0 (a5 m c)) slices_S66x64_S64x64_0_0 := by
  show StableHlo.after hostOps1_1 (W3 m ρ c) (Proc.devRef .tc main_v15) = _
  after_results
  rw [msgArg5_L0 m ρ c]
  rfl

theorem msgWbAt0 : msgWbIn0 (V4 m ρ) c = extractStridedSlice S2x64 ![64, 0] (wMsg0 (a5 m c)) slices_S66x64_S2x64_64_0 := by
  show StableHlo.after hostOps1_1 (W3 m ρ c) (Proc.devRef .tc main_v16) = _
  after_results
  rw [msgArg5_L0 m ρ c]
  rfl

/-- The bias: slab 0 of the stacked biases with its unit axis dropped. -/
theorem msgBiasAt0 : msgBiasIn0 (V4 m ρ) c = bMsg0 (a6 m c) := by
  show StableHlo.after hostOps1_1 (W3 m ρ c) (Proc.devRef .tc main_v18) = _
  after_results
  rw [msgArg6_L0 m ρ c]
  rfl

/-- LAYER 0'S MESSAGES: the buffer the message launch writes holds the reference's messages of the gathered rows. -/
theorem stC0 (hs : FVec Ideal S800000x64 .f32) (hr : kRows0 m ρ c = hs) :
    kMsg0 m ρ c = msg hs (a2 m c) (wMsg0 (a5 m c)) (bMsg0 (a6 m c)) := by
  have eK : kMsg0 m ρ c = msgLayer0 (V4 m ρ) c := (W5_arr m ρ c 5).trans (msgClosed0 (V4 m ρ) c)
  rw [eK]
  show Cert.Spec.dense2 (msgRowsIn0 (V4 m ρ) c) (msgAttrIn0 (V4 m ρ) c) (msgWaIn0 (V4 m ρ) c) (msgWbIn0 (V4 m ρ) c)
    (msgBiasIn0 (V4 m ρ) c) = _
  rw [msgRowsAt0, hr, msgAttrAt0, msgWaAt0, msgWbAt0, msgBiasAt0]
  unfold msg
  exact (Cert.Laws.cat_law (n := 800000) (K1 := 64) (K2 := 2) (K := 66) (N := 64) rfl _ rfl _ _ _ _
    slices_S66x64_S64x64_0_0 slices_S66x64_S2x64_64_0 hs (a2 m c) (wMsg0 (a5 m c)) (bMsg0 (a6 m c))).symm

end Run

end Cert.Bridge

end
-- ==== Proof.StageMsg1.lean ====
/-
  The message layer of layer 1: the dense launch over the 800000 edges computes the reference's messages.

  Each edge's message is `max (h_src · W[:64] + e · W[64:] + b, 0)`: row `r` of the output depends on row `r` of the
  gathered source rows and of the edge attributes only. The launch walks the rows in 200 blocks of 4000; the block at
  grid point `t` holds rows `4000 t … 4000 t + 3999`, the weight blocks and the bias are whole at every point. So the
  block of the layer of the whole arrays is the layer of the blocks, the 200 blocks cover every row, and the output
  array is the layer of the five input arrays. On the reference's side the same layer is written with the two inputs
  laid side by side against the unsplit weights; splitting the sum over the 66 joined columns into its first 64 and
  last 2 gives the same function.
-/
import proofs.«401737_j58909771432764_1_alg».proof.Proof.Bridge
import proofs.«401737_j58909771432764_1_alg».proof.Proof.Laws
import proofs.«401737_j58909771432764_1_alg».proof.Proof.StageMsgCarry
import Idealize.ShloMosaic.Lib.Pipeline.Value
import Idealize.ShloMosaic.Lib.Tactic

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Stages

/-! ## One block -/

/-- One block of 4000 edges: what the launch's body stores is the layer on the block's five operands. The two
    products go into zero accumulators, so each is a plain sum; a change of float format and a cast to the same shape
    change nothing; the bias row is repeated down the rows; the cut-off is against the zero word. -/
theorem msgBlock1 (v0 : Vec Ideal S4000x64 .f32) (v3 : Vec Ideal S4000x2 .f32) (v5 : Vec Ideal S64x64 .f32)
    (v8 : Vec Ideal S2x64 .f32) (v14 : Vec Ideal S64 .f32) :
    k3_pay1 (F := Ideal) v0 v3 v5 v8 v14 = Cert.Spec.dense2 v0 v3 v5 v8 v14 := by
  funext i
  obtain ⟨p, j, rfl⟩ : ∃ (p : Fin 4000) (j : Fin 64), i = ix2 p j := ⟨i 0, i 1, eq_ix2 i⟩
  rw [Cert.Spec.dense2_apply]
  unfold k3_pay1
  simp only [shapeCast_self]
  rw [maximumf_apply, addf_apply, addf_apply, broadcast_apply,
    Cert.LibRowOps.matmul_plain_apply dot_S4000x64_S64x64_S4000x64_1_0_0_1_n_n rfl,
    Cert.LibRowOps.matmul_plain_apply dot_S4000x2_S2x64_S4000x64_1_0_0_1_n_n rfl, Cert.LibRowOps.rowBcast_apply]
  exact congrArg (max ((∑ k, v0 (ix2 p k) * v5 (ix2 k j)) + (∑ k, v3 (ix2 p k) * v8 (ix2 k j)) + v14 (ix1 j))) Ideal.ofBits_zero_f32

/-! ## The launch, for any buffer contents `V` at its entry -/

section Launch

variable (V : (c : Dev nD) → (b : Ref sig .tc) → Buf (Elt Ideal) ((c : Thread nD τ).loc b))

/-- The launch's five input arrays and the layer of them, at their literal types. -/
abbrev msgRowsIn1 (c : Dev nD) : FVec Ideal S800000x64 .f32 := V c main_v32
abbrev msgAttrIn1 (c : Dev nD) : FVec Ideal S800000x2 .f32 := V c main_arg2
abbrev msgWaIn1 (c : Dev nD) : FVec Ideal S64x64 .f32 := V c main_v35
abbrev msgWbIn1 (c : Dev nD) : FVec Ideal S2x64 .f32 := V c main_v36
abbrev msgBiasIn1 (c : Dev nD) : FVec Ideal S64 .f32 := V c main_v38
abbrev msgLayer1 (c : Dev nD) : FVec Ideal S800000x64 .f32 :=
  Cert.Spec.dense2 (msgRowsIn1 V c) (msgAttrIn1 V c) (msgWaIn1 V c) (msgWbIn1 V c) (msgBiasIn1 V c)

theorem msgZeroPair1 : (![0, 0] : Fin 2 → Nat) = fun _ => 0 := funext fun a => by fin_cases a <;> rfl
theorem msgZeroOne1 : (![0] : Fin 1 → Nat) = fun _ => 0 := funext fun a => by fin_cases a; rfl

/-- The printed index maps over the 200 grid points: the two row-tiled inputs and the output are at row block `t`,
    the weight blocks and the bias at block 0. -/
theorem msgIndex1 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Block `t` of the gathered rows is rows `4000 t … 4000 t + 3999` of the array. -/
theorem msgRowsBlk1 (c : Dev nD) (t : Fin cfg3.N) (x : S4000x64.Idx) (k : S800000x64.Idx)
    (hk0 : (k 0).val = 4000 * t.val + (x 0).val) (hk1 : (k 1).val = (x 1).val) :
    (iblk3 V c 0 t : Vec Ideal S4000x64 .f32) x = msgRowsIn1 V c k := by
  obtain ⟨e0, e1, -⟩ := msgIndex1 t
  unfold iblk3
  rw [View.read_apply]
  show V c main_v32 _ = V c main_v32 _
  congr 1
  funext a
  apply Fin.ext
  match a with
  | ⟨0, _⟩ => show win3_0.index t (0 : Fin 2) * 4000 + 1 * (x 0).val = (k 0).val; rw [e0, hk0]; omega
  | ⟨1, _⟩ => show win3_0.index t (1 : Fin 2) * 64 + 1 * (x 1).val = (k 1).val; rw [e1, hk1]; omega

/-- Block `t` of the edge attributes is rows `4000 t … 4000 t + 3999` of the array. -/
theorem msgAttrBlk1 (c : Dev nD) (t : Fin cfg3.N) (x : S4000x2.Idx) (k : S800000x2.Idx)
    (hk0 : (k 0).val = 4000 * t.val + (x 0).val) (hk1 : (k 1).val = (x 1).val) :
    (iblk3 V c 1 t : Vec Ideal S4000x2 .f32) x = msgAttrIn1 V c k := by
  obtain ⟨-, -, e0, e1, -⟩ := msgIndex1 t
  unfold iblk3
  rw [View.read_apply]
  show V c main_arg2 _ = V c main_arg2 _
  congr 1
  funext a
  apply Fin.ext
  match a with
  | ⟨0, _⟩ => show win3_1.index t (0 : Fin 2) * 4000 + 1 * (x 0).val = (k 0).val; rw [e0, hk0]; omega
  | ⟨1, _⟩ => show win3_1.index t (1 : Fin 2) * 2 + 1 * (x 1).val = (k 1).val; rw [e1, hk1]; omega

/-- The weight blocks and the bias are staged whole at every point. -/
theorem msgWaBlk1 (c : Dev nD) (t : Fin cfg3.N) : (iblk3 V c 2 t : Vec Ideal S64x64 .f32) = msgWaIn1 V c := by
  obtain ⟨-, -, -, -, e0, e1, -⟩ := msgIndex1 t
  funext x
  unfold iblk3
  rw [View.read_apply]
  show V c main_v35 _ = V c main_v35 _
  congr 1
  funext a
  apply Fin.ext
  match a with
  | ⟨0, _⟩ => show win3_2.index t (0 : Fin 2) * 64 + 1 * (x 0).val = (x 0).val; rw [e0]; omega
  | ⟨1, _⟩ => show win3_2.index t (1 : Fin 2) * 64 + 1 * (x 1).val = (x 1).val; rw [e1]; omega

theorem msgWbBlk1 (c : Dev nD) (t : Fin cfg3.N) : (iblk3 V c 3 t : Vec Ideal S2x64 .f32) = msgWbIn1 V c := by
  obtain ⟨-, -, -, -, -, -, e0, e1, -⟩ := msgIndex1 t
  funext x
  unfold iblk3
  rw [View.read_apply]
  show V c main_v36 _ = V c main_v36 _
  congr 1
  funext a
  apply Fin.ext
  match a with
  | ⟨0, _⟩ => show win3_3.index t (0 : Fin 2) * 2 + 1 * (x 0).val = (x 0).val; rw [e0]; omega
  | ⟨1, _⟩ => show win3_3.index t (1 : Fin 2) * 64 + 1 * (x 1).val = (x 1).val; rw [e1]; omega

theorem msgBiasBlk1 (c : Dev nD) (t : Fin cfg3.N) : (iblk3 V c 4 t : Vec Ideal S64 .f32) = msgBiasIn1 V c := by
  obtain ⟨-, -, -, -, -, -, -, -, e0, -⟩ := msgIndex1 t
  funext x
  unfold iblk3
  rw [View.read_apply]
  show V c main_v38 _ = V c main_v38 _
  congr 1
  funext a
  apply Fin.ext
  match a with
  | ⟨0, _⟩ => show win3_4.index t (0 : Fin 1) * 64 + 1 * (x 0).val = (x 0).val; rw [e0]; omega

/-- The layer is row-local: where row `p` of the two block operands is row `r` of the two arrays, row `p` of the
    layer of the blocks is row `r` of the layer of the arrays. -/
theorem msgRowLocal1 {n n' K1 K2 N : ℕ} (a : (⟨2, ![n, K1]⟩ : Shape).Idx → EReal) (b : (⟨2, ![n, K2]⟩ : Shape).Idx → EReal)
    (a' : (⟨2, ![n', K1]⟩ : Shape).Idx → EReal) (b' : (⟨2, ![n', K2]⟩ : Shape).Idx → EReal)
    (wa : (⟨2, ![K1, N]⟩ : Shape).Idx → EReal) (wb : (⟨2, ![K2, N]⟩ : Shape).Idx → EReal)
    (bias : (⟨1, ![N]⟩ : Shape).Idx → EReal) (p : Fin n) (r : Fin n') (j : Fin N)
    (ha : ∀ k, a (ix2 p k) = a' (ix2 r k)) (hb : ∀ k, b (ix2 p k) = b' (ix2 r k)) :
    Cert.Spec.dense2 a b wa wb bias (ix2 p j) = Cert.Spec.dense2 a' b' wa wb bias (ix2 r j) := by
  rw [Cert.Spec.dense2_apply, Cert.Spec.dense2_apply]
  simp only [ha, hb]

/-- WHAT POINT `t` WRITES BACK is block `t` of the layer of the whole arrays: the body stores the layer of its
    blocks, and row `p` of the row-tiled blocks is row `4000 t + p` of their arrays. -/
theorem msgFlushed1 (c : Dev nD) (t : Fin cfg3.N) :
    (dat3 V c).flushed 5 t = ((cfg3.win 5).blk t).view.read (Elt Ideal) (msgLayer1 V c) := by
  show (cfg3.win 5).cut (grid3.coords t) ((dat3 V c).after 5 t) = _
  rw [after3_5]
  unfold out3_5
  rw [View.canon_unit_zero msgZeroPair1]
  simp only [View.ld_unit_zero (S := S4000x64) msgZeroPair1, View.ld_unit_zero (S := S4000x2) msgZeroPair1,
    View.ld_unit_zero (S := S64x64) msgZeroPair1, View.ld_unit_zero (S := S2x64) msgZeroPair1, View.ld_unit_zero (S := S64) msgZeroOne1]
  rw [msgBlock1, msgWaBlk1, msgWbBlk1, msgBiasBlk1]
  obtain ⟨-, -, -, -, -, -, -, -, -, e0, e1⟩ := msgIndex1 t
  have ht : t.val < 200 := lt_of_lt_of_eq t.isLt N_3
  funext y
  have hy0 : (y 0).val < 4000 := (y 0).isLt
  have hy1 : (y 1).val < 64 := (y 1).isLt
  have hL : (cfg3.win 5).xinj (grid3.coords t) y = ix2 (⟨(y 0).val, hy0⟩ : Fin 4000) (⟨(y 1).val, hy1⟩ : Fin 64) :=
    funext fun a => Fin.ext (by match a with | ⟨0, _⟩ => rfl | ⟨1, _⟩ => rfl)
  have hR : ((cfg3.win 5).blk t).view.emb y
      = ix2 (⟨4000 * t.val + (y 0).val, by omega⟩ : Fin 800000) (⟨(y 1).val, hy1⟩ : Fin 64) :=
    funext fun a => Fin.ext (by
      match a with
      | ⟨0, _⟩ => show win3_5.index t (0 : Fin 2) * 4000 + 1 * (y 0).val = 4000 * t.val + (y 0).val; rw [e0]; omega
      | ⟨1, _⟩ => show win3_5.index t (1 : Fin 2) * 64 + 1 * (y 1).val = (y 1).val; rw [e1]; omega)
  show Cert.Spec.dense2 (iblk3 V c 0 t : Vec Ideal S4000x64 .f32) (iblk3 V c 1 t : Vec Ideal S4000x2 .f32)
        (msgWaIn1 V c) (msgWbIn1 V c) (msgBiasIn1 V c) ((cfg3.win 5).xinj (grid3.coords t) y)
      = msgLayer1 V c (((cfg3.win 5).blk t).view.emb y)
  rw [hL, hR]
  exact msgRowLocal1 (n := 4000) (n' := 800000) (K1 := 64) (K2 := 2) (N := 64)
    (iblk3 V c 0 t : Vec Ideal S4000x64 .f32) (iblk3 V c 1 t : Vec Ideal S4000x2 .f32) (msgRowsIn1 V c) (msgAttrIn1 V c)
    (msgWaIn1 V c) (msgWbIn1 V c) (msgBiasIn1 V c) ⟨(y 0).val, hy0⟩ ⟨4000 * t.val + (y 0).val, by omega⟩ ⟨(y 1).val, hy1⟩
    (fun k => msgRowsBlk1 V c t _ _ rfl rfl) (fun k => msgAttrBlk1 V c t _ _ rfl rfl)

/-- An index of the output array is in point `t`'s block iff each coordinate is in the block's range on its axis. -/
theorem msgMemBlk1 (t : Fin cfg3.N) (i : S800000x64.Idx) :
    i ∈ ((cfg3.win 5).blk t).view.set
      ↔ ∀ a : Fin 2, win3_5.index t a * S4000x64.size a ≤ (i a).val ∧ (i a).val < win3_5.index t a * S4000x64.size a + S4000x64.size a := by
  show i ∈ ((View.whole main_v39).slice (win3_5.rect t)).set ↔ _
  rw [View.set_slice_whole, Rect.mem_set_unit]
  exact Iff.rfl

/-- The 200 blocks cover the array: row `r` is in block `r / 4000`, and every point writes its block back. -/
theorem msgCover1 (i : S800000x64.Idx) :
    ∃ t : Fin cfg3.N, (cfg3.win 5).flush t = true ∧ i ∈ ((cfg3.win 5).blk t).view.set := by
  have hi0 : (i 0).val < 800000 := (i 0).isLt
  have hi1 : (i 1).val < 64 := (i 1).isLt
  have hN : cfg3.N = 200 := N_3
  have hq : (i 0).val / 4000 < cfg3.N := by rw [hN]; omega
  obtain ⟨-, -, -, -, -, -, -, -, -, e0, e1⟩ := msgIndex1 ⟨(i 0).val / 4000, hq⟩
  refine ⟨⟨(i 0).val / 4000, hq⟩, flush3_5 _, ?_⟩
  rw [msgMemBlk1]
  intro a
  match a with
  | ⟨0, _⟩ =>
    show win3_5.index ⟨(i 0).val / 4000, hq⟩ (0 : Fin 2) * 4000 ≤ (i 0).val
      ∧ (i 0).val < win3_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, hq⟩ (1 : Fin 2) * 64 ≤ (i 1).val
      ∧ (i 1).val < win3_5.index ⟨(i 0).val / 4000, hq⟩ (1 : Fin 2) * 64 + 64
    rw [e1]; omega

/-- THE LAUNCH'S CLOSED FORM: after the launch the output array is the layer of the five input arrays as the
    launch finds them. -/
theorem msgClosed1 (c : Dev nD) : (dat3 V c).arrAt 5 cfg3.N = msgLayer1 V c :=
  (dat3 V c).arrAt_eq_of_cover 5 (msgLayer1 V c) (fun t _ => msgFlushed1 V c t) fun i => msgCover1 i

end Launch

/-! ## The launch in the run -/

section Run

variable (m : (ℓ : Loc nD τ sig) → Buf (Elt Ideal) ℓ) (ρ : Dev nD → PrngReg) (c : Dev nD)

/-- The launch finds the gathered rows where the gather left them: the stretch between writes other buffers. -/
theorem msgRowsAt1 : msgRowsIn1 (V9 m ρ) c = kRows1 m ρ c := by
  show StableHlo.after hostOps3_1 (W8 m ρ c) (Proc.devRef .tc main_v32) = W8 m ρ c (Proc.devRef .tc main_v32)
  skip_host hostOps3_1

/-- The edge attributes are the launched ones. -/
theorem msgAttrAt1 : msgAttrIn1 (V9 m ρ) c = a2 m c :=
  calc W9 m ρ c (Proc.devRef .tc main_arg2)
      = W8 m ρ c (Proc.devRef .tc main_arg2) := by skip_host hostOps3_1
    _ = W7 m ρ c (Proc.devRef .tc main_arg2) := by skip_host hostOps3
    _ = a2 m c := msgArg2_L1 m ρ c

/-- The two weight blocks: the stretch before the launch cuts slab 1 out of the stacked weights, drops its unit
    axis, and cuts rows 0 … 63 and rows 64, 65 out of the `[66, 64]` matrix that is left. -/
theorem msgWaAt1 : msgWaIn1 (V9 m ρ) c = extractStridedSlice S64x64 ![0, 0] (wMsg1 (a5 m c)) slices_S66x64_S64x64_0_0 := by
  show StableHlo.after hostOps3_1 (W8 m ρ c) (Proc.devRef .tc main_v35) = _
  after_results
  rw [msgArg5_L1 m ρ c]
  rfl

theorem msgWbAt1 : msgWbIn1 (V9 m ρ) c = extractStridedSlice S2x64 ![64, 0] (wMsg1 (a5 m c)) slices_S66x64_S2x64_64_0 := by
  show StableHlo.after hostOps3_1 (W8 m ρ c) (Proc.devRef .tc main_v36) = _
  after_results
  rw [msgArg5_L1 m ρ c]
  rfl

/-- The bias: slab 1 of the stacked biases with its unit axis dropped. -/
theorem msgBiasAt1 : msgBiasIn1 (V9 m ρ) c = bMsg1 (a6 m c) := by
  show StableHlo.after hostOps3_1 (W8 m ρ c) (Proc.devRef .tc main_v38) = _
  after_results
  rw [msgArg6_L1 m ρ c]
  rfl

/-- LAYER 1'S MESSAGES: the buffer the message launch writes holds the reference's messages of the gathered rows. -/
theorem stC1 (hs : FVec Ideal S800000x64 .f32) (hr : kRows1 m ρ c = hs) :
    kMsg1 m ρ c = msg hs (a2 m c) (wMsg1 (a5 m c)) (bMsg1 (a6 m c)) := by
  have eK : kMsg1 m ρ c = msgLayer1 (V9 m ρ) c := (W10_arr m ρ c 5).trans (msgClosed1 (V9 m ρ) c)
  rw [eK]
  show Cert.Spec.dense2 (msgRowsIn1 (V9 m ρ) c) (msgAttrIn1 (V9 m ρ) c) (msgWaIn1 (V9 m ρ) c) (msgWbIn1 (V9 m ρ) c)
    (msgBiasIn1 (V9 m ρ) c) = _
  rw [msgRowsAt1, hr, msgAttrAt1, msgWaAt1, msgWbAt1, msgBiasAt1]
  unfold msg
  exact (Cert.Laws.cat_law (n := 800000) (K1 := 64) (K2 := 2) (K := 66) (N := 64) rfl _ rfl _ _ _ _
    slices_S66x64_S64x64_0_0 slices_S66x64_S2x64_64_0 hs (a2 m c) (wMsg1 (a5 m c)) (bMsg1 (a6 m c))).symm

end Run

end Cert.Bridge

end
-- ==== Proof.StageMsg2.lean ====
/-
  The message layer of layer 2: the dense launch over the 800000 edges computes the reference's messages.

  Each edge's message is `max (h_src · W[:64] + e · W[64:] + b, 0)`: row `r` of the output depends on row `r` of the
  gathered source rows and of the edge attributes only. The launch walks the rows in 200 blocks of 4000; the block at
  grid point `t` holds rows `4000 t … 4000 t + 3999`, the weight blocks and the bias are whole at every point. So the
  block of the layer of the whole arrays is the layer of the blocks, the 200 blocks cover every row, and the output
  array is the layer of the five input arrays. On the reference's side the same layer is written with the two inputs
  laid side by side against the unsplit weights; splitting the sum over the 66 joined columns into its first 64 and
  last 2 gives the same function.
-/
import proofs.«401737_j58909771432764_1_alg».proof.Proof.Bridge
import proofs.«401737_j58909771432764_1_alg».proof.Proof.Laws
import proofs.«401737_j58909771432764_1_alg».proof.Proof.StageMsgCarry
import Idealize.ShloMosaic.Lib.Pipeline.Value
import Idealize.ShloMosaic.Lib.Tactic

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Stages

/-! ## One block -/

/-- One block of 4000 edges: what the launch's body stores is the layer on the block's five operands. The two
    products go into zero accumulators, so each is a plain sum; a change of float format and a cast to the same shape
    change nothing; the bias row is repeated down the rows; the cut-off is against the zero word. -/
theorem msgBlock2 (v0 : Vec Ideal S4000x64 .f32) (v3 : Vec Ideal S4000x2 .f32) (v5 : Vec Ideal S64x64 .f32)
    (v8 : Vec Ideal S2x64 .f32) (v14 : Vec Ideal S64 .f32) :
    k5_pay1 (F := Ideal) v0 v3 v5 v8 v14 = Cert.Spec.dense2 v0 v3 v5 v8 v14 := by
  funext i
  obtain ⟨p, j, rfl⟩ : ∃ (p : Fin 4000) (j : Fin 64), i = ix2 p j := ⟨i 0, i 1, eq_ix2 i⟩
  rw [Cert.Spec.dense2_apply]
  unfold k5_pay1
  simp only [shapeCast_self]
  rw [maximumf_apply, addf_apply, addf_apply, broadcast_apply,
    Cert.LibRowOps.matmul_plain_apply dot_S4000x64_S64x64_S4000x64_1_0_0_1_n_n rfl,
    Cert.LibRowOps.matmul_plain_apply dot_S4000x2_S2x64_S4000x64_1_0_0_1_n_n rfl, Cert.LibRowOps.rowBcast_apply]
  exact congrArg (max ((∑ k, v0 (ix2 p k) * v5 (ix2 k j)) + (∑ k, v3 (ix2 p k) * v8 (ix2 k j)) + v14 (ix1 j))) Ideal.ofBits_zero_f32

/-! ## The launch, for any buffer contents `V` at its entry -/

section Launch

variable (V : (c : Dev nD) → (b : Ref sig .tc) → Buf (Elt Ideal) ((c : Thread nD τ).loc b))

/-- The launch's five input arrays and the layer of them, at their literal types. -/
abbrev msgRowsIn2 (c : Dev nD) : FVec Ideal S800000x64 .f32 := V c main_v52
abbrev msgAttrIn2 (c : Dev nD) : FVec Ideal S800000x2 .f32 := V c main_arg2
abbrev msgWaIn2 (c : Dev nD) : FVec Ideal S64x64 .f32 := V c main_v55
abbrev msgWbIn2 (c : Dev nD) : FVec Ideal S2x64 .f32 := V c main_v56
abbrev msgBiasIn2 (c : Dev nD) : FVec Ideal S64 .f32 := V c main_v58
abbrev msgLayer2 (c : Dev nD) : FVec Ideal S800000x64 .f32 :=
  Cert.Spec.dense2 (msgRowsIn2 V c) (msgAttrIn2 V c) (msgWaIn2 V c) (msgWbIn2 V c) (msgBiasIn2 V c)

theorem msgZeroPair2 : (![0, 0] : Fin 2 → Nat) = fun _ => 0 := funext fun a => by fin_cases a <;> rfl
theorem msgZeroOne2 : (![0] : Fin 1 → Nat) = fun _ => 0 := funext fun a => by fin_cases a; rfl

/-- The printed index maps over the 200 grid points: the two row-tiled inputs and the output are at row block `t`,
    the weight blocks and the bias at block 0. -/
theorem msgIndex2 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Block `t` of the gathered rows is rows `4000 t … 4000 t + 3999` of the array. -/
theorem msgRowsBlk2 (c : Dev nD) (t : Fin cfg5.N) (x : S4000x64.Idx) (k : S800000x64.Idx)
    (hk0 : (k 0).val = 4000 * t.val + (x 0).val) (hk1 : (k 1).val = (x 1).val) :
    (iblk5 V c 0 t : Vec Ideal S4000x64 .f32) x = msgRowsIn2 V c k := by
  obtain ⟨e0, e1, -⟩ := msgIndex2 t
  unfold iblk5
  rw [View.read_apply]
  show V c main_v52 _ = V c main_v52 _
  congr 1
  funext a
  apply Fin.ext
  match a with
  | ⟨0, _⟩ => show win5_0.index t (0 : Fin 2) * 4000 + 1 * (x 0).val = (k 0).val; rw [e0, hk0]; omega
  | ⟨1, _⟩ => show win5_0.index t (1 : Fin 2) * 64 + 1 * (x 1).val = (k 1).val; rw [e1, hk1]; omega

/-- Block `t` of the edge attributes is rows `4000 t … 4000 t + 3999` of the array. -/
theorem msgAttrBlk2 (c : Dev nD) (t : Fin cfg5.N) (x : S4000x2.Idx) (k : S800000x2.Idx)
    (hk0 : (k 0).val = 4000 * t.val + (x 0).val) (hk1 : (k 1).val = (x 1).val) :
    (iblk5 V c 1 t : Vec Ideal S4000x2 .f32) x = msgAttrIn2 V c k := by
  obtain ⟨-, -, e0, e1, -⟩ := msgIndex2 t
  unfold iblk5
  rw [View.read_apply]
  show V c main_arg2 _ = V c main_arg2 _
  congr 1
  funext a
  apply Fin.ext
  match a with
  | ⟨0, _⟩ => show win5_1.index t (0 : Fin 2) * 4000 + 1 * (x 0).val = (k 0).val; rw [e0, hk0]; omega
  | ⟨1, _⟩ => show win5_1.index t (1 : Fin 2) * 2 + 1 * (x 1).val = (k 1).val; rw [e1, hk1]; omega

/-- The weight blocks and the bias are staged whole at every point. -/
theorem msgWaBlk2 (c : Dev nD) (t : Fin cfg5.N) : (iblk5 V c 2 t : Vec Ideal S64x64 .f32) = msgWaIn2 V c := by
  obtain ⟨-, -, -, -, e0, e1, -⟩ := msgIndex2 t
  funext x
  unfold iblk5
  rw [View.read_apply]
  show V c main_v55 _ = V c main_v55 _
  congr 1
  funext a
  apply Fin.ext
  match a with
  | ⟨0, _⟩ => show win5_2.index t (0 : Fin 2) * 64 + 1 * (x 0).val = (x 0).val; rw [e0]; omega
  | ⟨1, _⟩ => show win5_2.index t (1 : Fin 2) * 64 + 1 * (x 1).val = (x 1).val; rw [e1]; omega

theorem msgWbBlk2 (c : Dev nD) (t : Fin cfg5.N) : (iblk5 V c 3 t : Vec Ideal S2x64 .f32) = msgWbIn2 V c := by
  obtain ⟨-, -, -, -, -, -, e0, e1, -⟩ := msgIndex2 t
  funext x
  unfold iblk5
  rw [View.read_apply]
  show V c main_v56 _ = V c main_v56 _
  congr 1
  funext a
  apply Fin.ext
  match a with
  | ⟨0, _⟩ => show win5_3.index t (0 : Fin 2) * 2 + 1 * (x 0).val = (x 0).val; rw [e0]; omega
  | ⟨1, _⟩ => show win5_3.index t (1 : Fin 2) * 64 + 1 * (x 1).val = (x 1).val; rw [e1]; omega

theorem msgBiasBlk2 (c : Dev nD) (t : Fin cfg5.N) : (iblk5 V c 4 t : Vec Ideal S64 .f32) = msgBiasIn2 V c := by
  obtain ⟨-, -, -, -, -, -, -, -, e0, -⟩ := msgIndex2 t
  funext x
  unfold iblk5
  rw [View.read_apply]
  show V c main_v58 _ = V c main_v58 _
  congr 1
  funext a
  apply Fin.ext
  match a with
  | ⟨0, _⟩ => show win5_4.index t (0 : Fin 1) * 64 + 1 * (x 0).val = (x 0).val; rw [e0]; omega

/-- The layer is row-local: where row `p` of the two block operands is row `r` of the two arrays, row `p` of the
    layer of the blocks is row `r` of the layer of the arrays. -/
theorem msgRowLocal2 {n n' K1 K2 N : ℕ} (a : (⟨2, ![n, K1]⟩ : Shape).Idx → EReal) (b : (⟨2, ![n, K2]⟩ : Shape).Idx → EReal)
    (a' : (⟨2, ![n', K1]⟩ : Shape).Idx → EReal) (b' : (⟨2, ![n', K2]⟩ : Shape).Idx → EReal)
    (wa : (⟨2, ![K1, N]⟩ : Shape).Idx → EReal) (wb : (⟨2, ![K2, N]⟩ : Shape).Idx → EReal)
    (bias : (⟨1, ![N]⟩ : Shape).Idx → EReal) (p : Fin n) (r : Fin n') (j : Fin N)
    (ha : ∀ k, a (ix2 p k) = a' (ix2 r k)) (hb : ∀ k, b (ix2 p k) = b' (ix2 r k)) :
    Cert.Spec.dense2 a b wa wb bias (ix2 p j) = Cert.Spec.dense2 a' b' wa wb bias (ix2 r j) := by
  rw [Cert.Spec.dense2_apply, Cert.Spec.dense2_apply]
  simp only [ha, hb]

/-- WHAT POINT `t` WRITES BACK is block `t` of the layer of the whole arrays: the body stores the layer of its
    blocks, and row `p` of the row-tiled blocks is row `4000 t + p` of their arrays. -/
theorem msgFlushed2 (c : Dev nD) (t : Fin cfg5.N) :
    (dat5 V c).flushed 5 t = ((cfg5.win 5).blk t).view.read (Elt Ideal) (msgLayer2 V c) := by
  show (cfg5.win 5).cut (grid5.coords t) ((dat5 V c).after 5 t) = _
  rw [after5_5]
  unfold out5_5
  rw [View.canon_unit_zero msgZeroPair2]
  simp only [View.ld_unit_zero (S := S4000x64) msgZeroPair2, View.ld_unit_zero (S := S4000x2) msgZeroPair2,
    View.ld_unit_zero (S := S64x64) msgZeroPair2, View.ld_unit_zero (S := S2x64) msgZeroPair2, View.ld_unit_zero (S := S64) msgZeroOne2]
  rw [msgBlock2, msgWaBlk2, msgWbBlk2, msgBiasBlk2]
  obtain ⟨-, -, -, -, -, -, -, -, -, e0, e1⟩ := msgIndex2 t
  have ht : t.val < 200 := lt_of_lt_of_eq t.isLt N_5
  funext y
  have hy0 : (y 0).val < 4000 := (y 0).isLt
  have hy1 : (y 1).val < 64 := (y 1).isLt
  have hL : (cfg5.win 5).xinj (grid5.coords t) y = ix2 (⟨(y 0).val, hy0⟩ : Fin 4000) (⟨(y 1).val, hy1⟩ : Fin 64) :=
    funext fun a => Fin.ext (by match a with | ⟨0, _⟩ => rfl | ⟨1, _⟩ => rfl)
  have hR : ((cfg5.win 5).blk t).view.emb y
      = ix2 (⟨4000 * t.val + (y 0).val, by omega⟩ : Fin 800000) (⟨(y 1).val, hy1⟩ : Fin 64) :=
    funext fun a => Fin.ext (by
      match a with
      | ⟨0, _⟩ => show win5_5.index t (0 : Fin 2) * 4000 + 1 * (y 0).val = 4000 * t.val + (y 0).val; rw [e0]; omega
      | ⟨1, _⟩ => show win5_5.index t (1 : Fin 2) * 64 + 1 * (y 1).val = (y 1).val; rw [e1]; omega)
  show Cert.Spec.dense2 (iblk5 V c 0 t : Vec Ideal S4000x64 .f32) (iblk5 V c 1 t : Vec Ideal S4000x2 .f32)
        (msgWaIn2 V c) (msgWbIn2 V c) (msgBiasIn2 V c) ((cfg5.win 5).xinj (grid5.coords t) y)
      = msgLayer2 V c (((cfg5.win 5).blk t).view.emb y)
  rw [hL, hR]
  exact msgRowLocal2 (n := 4000) (n' := 800000) (K1 := 64) (K2 := 2) (N := 64)
    (iblk5 V c 0 t : Vec Ideal S4000x64 .f32) (iblk5 V c 1 t : Vec Ideal S4000x2 .f32) (msgRowsIn2 V c) (msgAttrIn2 V c)
    (msgWaIn2 V c) (msgWbIn2 V c) (msgBiasIn2 V c) ⟨(y 0).val, hy0⟩ ⟨4000 * t.val + (y 0).val, by omega⟩ ⟨(y 1).val, hy1⟩
    (fun k => msgRowsBlk2 V c t _ _ rfl rfl) (fun k => msgAttrBlk2 V c t _ _ rfl rfl)

/-- An index of the output array is in point `t`'s block iff each coordinate is in the block's range on its axis. -/
theorem msgMemBlk2 (t : Fin cfg5.N) (i : S800000x64.Idx) :
    i ∈ ((cfg5.win 5).blk t).view.set
      ↔ ∀ a : Fin 2, win5_5.index t a * S4000x64.size a ≤ (i a).val ∧ (i a).val < win5_5.index t a * S4000x64.size a + S4000x64.size a := by
  show i ∈ ((View.whole main_v59).slice (win5_5.rect t)).set ↔ _
  rw [View.set_slice_whole, Rect.mem_set_unit]
  exact Iff.rfl

/-- The 200 blocks cover the array: row `r` is in block `r / 4000`, and every point writes its block back. -/
theorem msgCover2 (i : S800000x64.Idx) :
    ∃ t : Fin cfg5.N, (cfg5.win 5).flush t = true ∧ i ∈ ((cfg5.win 5).blk t).view.set := by
  have hi0 : (i 0).val < 800000 := (i 0).isLt
  have hi1 : (i 1).val < 64 := (i 1).isLt
  have hN : cfg5.N = 200 := N_5
  have hq : (i 0).val / 4000 < cfg5.N := by rw [hN]; omega
  obtain ⟨-, -, -, -, -, -, -, -, -, e0, e1⟩ := msgIndex2 ⟨(i 0).val / 4000, hq⟩
  refine ⟨⟨(i 0).val / 4000, hq⟩, flush5_5 _, ?_⟩
  rw [msgMemBlk2]
  intro a
  match a with
  | ⟨0, _⟩ =>
    show win5_5.index ⟨(i 0).val / 4000, hq⟩ (0 : Fin 2) * 4000 ≤ (i 0).val
      ∧ (i 0).val < win5_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win5_5.index ⟨(i 0).val / 4000, hq⟩ (1 : Fin 2) * 64 ≤ (i 1).val
      ∧ (i 1).val < win5_5.index ⟨(i 0).val / 4000, hq⟩ (1 : Fin 2) * 64 + 64
    rw [e1]; omega

/-- THE LAUNCH'S CLOSED FORM: after the launch the output array is the layer of the five input arrays as the
    launch finds them. -/
theorem msgClosed2 (c : Dev nD) : (dat5 V c).arrAt 5 cfg5.N = msgLayer2 V c :=
  (dat5 V c).arrAt_eq_of_cover 5 (msgLayer2 V c) (fun t _ => msgFlushed2 V c t) fun i => msgCover2 i

end Launch

/-! ## The launch in the run -/

section Run

variable (m : (ℓ : Loc nD τ sig) → Buf (Elt Ideal) ℓ) (ρ : Dev nD → PrngReg) (c : Dev nD)

/-- The launch finds the gathered rows where the gather left them: the stretch between writes other buffers. -/
theorem msgRowsAt2 : msgRowsIn2 (V14 m ρ) c = kRows2 m ρ c := by
  show StableHlo.after hostOps5_1 (W13 m ρ c) (Proc.devRef .tc main_v52) = W13 m ρ c (Proc.devRef .tc main_v52)
  skip_host hostOps5_1

/-- The edge attributes are the launched ones. -/
theorem msgAttrAt2 : msgAttrIn2 (V14 m ρ) c = a2 m c :=
  calc W14 m ρ c (Proc.devRef .tc main_arg2)
      = W13 m ρ c (Proc.devRef .tc main_arg2) := by skip_host hostOps5_1
    _ = W12 m ρ c (Proc.devRef .tc main_arg2) := by skip_host hostOps5
    _ = a2 m c := msgArg2_L2 m ρ c

/-- The two weight blocks: the stretch before the launch cuts slab 2 out of the stacked weights, drops its unit
    axis, and cuts rows 0 … 63 and rows 64, 65 out of the `[66, 64]` matrix that is left. -/
theorem msgWaAt2 : msgWaIn2 (V14 m ρ) c = extractStridedSlice S64x64 ![0, 0] (wMsg2 (a5 m c)) slices_S66x64_S64x64_0_0 := by
  show StableHlo.after hostOps5_1 (W13 m ρ c) (Proc.devRef .tc main_v55) = _
  after_results
  rw [msgArg5_L2 m ρ c]
  rfl

theorem msgWbAt2 : msgWbIn2 (V14 m ρ) c = extractStridedSlice S2x64 ![64, 0] (wMsg2 (a5 m c)) slices_S66x64_S2x64_64_0 := by
  show StableHlo.after hostOps5_1 (W13 m ρ c) (Proc.devRef .tc main_v56) = _
  after_results
  rw [msgArg5_L2 m ρ c]
  rfl

/-- The bias: slab 2 of the stacked biases with its unit axis dropped. -/
theorem msgBiasAt2 : msgBiasIn2 (V14 m ρ) c = bMsg2 (a6 m c) := by
  show StableHlo.after hostOps5_1 (W13 m ρ c) (Proc.devRef .tc main_v58) = _
  after_results
  rw [msgArg6_L2 m ρ c]
  rfl

/-- LAYER 2'S MESSAGES: the buffer the message launch writes holds the reference's messages of the gathered rows. -/
theorem stC2 (hs : FVec Ideal S800000x64 .f32) (hr : kRows2 m ρ c = hs) :
    kMsg2 m ρ c = msg hs (a2 m c) (wMsg2 (a5 m c)) (bMsg2 (a6 m c)) := by
  have eK : kMsg2 m ρ c = msgLayer2 (V14 m ρ) c := (W15_arr m ρ c 5).trans (msgClosed2 (V14 m ρ) c)
  rw [eK]
  show Cert.Spec.dense2 (msgRowsIn2 (V14 m ρ) c) (msgAttrIn2 (V14 m ρ) c) (msgWaIn2 (V14 m ρ) c) (msgWbIn2 (V14 m ρ) c)
    (msgBiasIn2 (V14 m ρ) c) = _
  rw [msgRowsAt2, hr, msgAttrAt2, msgWaAt2, msgWbAt2, msgBiasAt2]
  unfold msg
  exact (Cert.Laws.cat_law (n := 800000) (K1 := 64) (K2 := 2) (K := 66) (N := 64) rfl _ rfl _ _ _ _
    slices_S66x64_S64x64_0_0 slices_S66x64_S2x64_64_0 hs (a2 m c) (wMsg2 (a5 m c)) (bMsg2 (a6 m c))).symm

end Run

end Cert.Bridge

end
-- ==== Proof.StageAgg0.lean ====
/-
  Layer 0's mean of the incoming messages. The host stretch after the message launch scatters the message rows onto a
  zero array by the edges' target nodes and divides every row by the node's in-degree column. The target nodes and the
  degree column were made by the first stretch and nothing since has written them, so the buffers read here still hold
  them; the messages are the launch's output. With the three operands named, the stretch's term is the reference
  network's mean, operation for operation.
-/
import proofs.«401737_j58909771432764_1_alg».proof.Proof.Bridge

noncomputable section
namespace Cert.Bridge
open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- The scatter-add of layer 0's messages by target node over a zero array, divided by the clamped in-degree. -/
theorem stD0 (ms : FVec Ideal S800000x64 .f32) (hm : kMsg0 m ρ c = ms) (hd : kDst m ρ c = dst (a1 m c)) (hg : kDeg m ρ c = degCol (a1 m c)) :
    kAgg0 m ρ c = agg ms (a1 m c) := by
  -- the target nodes, untouched since the first stretch
  have e3 : W5 m ρ c (Proc.devRef .tc main_v3) = dst (a1 m c) :=
    calc W5 m ρ c (Proc.devRef .tc main_v3)
      _ = W4 m ρ c (Proc.devRef .tc main_v3) := W5_of_ne m ρ c main_v3 (by decide)
      _ = W3 m ρ c (Proc.devRef .tc main_v3) := by skip_host hostOps1_1
      _ = W2 m ρ c (Proc.devRef .tc main_v3) := by skip_host hostOps1
      _ = W1 m ρ c (Proc.devRef .tc main_v3) := W2_of_ne m ρ c main_v3 (by decide)
      _ = dst (a1 m c) := hd
  -- the degree column, untouched since the first stretch
  have e10 : W5 m ρ c (Proc.devRef .tc main_v10) = degCol (a1 m c) :=
    calc W5 m ρ c (Proc.devRef .tc main_v10)
      _ = W4 m ρ c (Proc.devRef .tc main_v10) := W5_of_ne m ρ c main_v10 (by decide)
      _ = W3 m ρ c (Proc.devRef .tc main_v10) := by skip_host hostOps1_1
      _ = W2 m ρ c (Proc.devRef .tc main_v10) := by skip_host hostOps1
      _ = W1 m ρ c (Proc.devRef .tc main_v10) := W2_of_ne m ρ c main_v10 (by decide)
      _ = degCol (a1 m c) := hg
  -- the messages
  have e19 : W5 m ρ c (Proc.devRef .tc main_v19) = ms := hm
  show StableHlo.after hostOps2 (W5 m ρ c) (Proc.devRef .tc main_v24) = _
  after_results
  rw [e3, e10, e19]
  unfold agg
  rfl

end Cert.Bridge
end
-- ==== Proof.StageAgg1.lean ====
/-
  Layer 1's mean of the incoming messages. The host stretch after layer 1's message launch scatters the message rows
  onto a zero array by the edges' target nodes and divides every row by the node's in-degree column. The target nodes
  and the degree column were made by the first stretch; neither layer 0 nor layer 1's gather and message launch has
  written them, so the buffers read here still hold them; the messages are the launch's output. With the three
  operands named, the stretch's term is the reference network's mean, operation for operation.
-/
import proofs.«401737_j58909771432764_1_alg».proof.Proof.Bridge

noncomputable section
namespace Cert.Bridge
open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- The scatter-add of layer 1's messages by target node over a zero array, divided by the clamped in-degree. -/
theorem stD1 (ms : FVec Ideal S800000x64 .f32) (hm : kMsg1 m ρ c = ms) (hd : kDst m ρ c = dst (a1 m c)) (hg : kDeg m ρ c = degCol (a1 m c)) :
    kAgg1 m ρ c = agg ms (a1 m c) := by
  -- the target nodes, untouched since the first stretch
  have e3 : W10 m ρ c (Proc.devRef .tc main_v3) = dst (a1 m c) :=
    calc W10 m ρ c (Proc.devRef .tc main_v3)
      _ = W9 m ρ c (Proc.devRef .tc main_v3) := W10_of_ne m ρ c main_v3 (by decide)
      _ = W8 m ρ c (Proc.devRef .tc main_v3) := by skip_host hostOps3_1
      _ = W7 m ρ c (Proc.devRef .tc main_v3) := by skip_host hostOps3
      _ = W6 m ρ c (Proc.devRef .tc main_v3) := W7_of_ne m ρ c main_v3 (by decide)
      _ = W5 m ρ c (Proc.devRef .tc main_v3) := by skip_host hostOps2
      _ = W4 m ρ c (Proc.devRef .tc main_v3) := W5_of_ne m ρ c main_v3 (by decide)
      _ = W3 m ρ c (Proc.devRef .tc main_v3) := by skip_host hostOps1_1
      _ = W2 m ρ c (Proc.devRef .tc main_v3) := by skip_host hostOps1
      _ = W1 m ρ c (Proc.devRef .tc main_v3) := W2_of_ne m ρ c main_v3 (by decide)
      _ = dst (a1 m c) := hd
  -- the degree column, untouched since the first stretch
  have e10 : W10 m ρ c (Proc.devRef .tc main_v10) = degCol (a1 m c) :=
    calc W10 m ρ c (Proc.devRef .tc main_v10)
      _ = W9 m ρ c (Proc.devRef .tc main_v10) := W10_of_ne m ρ c main_v10 (by decide)
      _ = W8 m ρ c (Proc.devRef .tc main_v10) := by skip_host hostOps3_1
      _ = W7 m ρ c (Proc.devRef .tc main_v10) := by skip_host hostOps3
      _ = W6 m ρ c (Proc.devRef .tc main_v10) := W7_of_ne m ρ c main_v10 (by decide)
      _ = W5 m ρ c (Proc.devRef .tc main_v10) := by skip_host hostOps2
      _ = W4 m ρ c (Proc.devRef .tc main_v10) := W5_of_ne m ρ c main_v10 (by decide)
      _ = W3 m ρ c (Proc.devRef .tc main_v10) := by skip_host hostOps1_1
      _ = W2 m ρ c (Proc.devRef .tc main_v10) := by skip_host hostOps1
      _ = W1 m ρ c (Proc.devRef .tc main_v10) := W2_of_ne m ρ c main_v10 (by decide)
      _ = degCol (a1 m c) := hg
  -- the messages
  have e39 : W10 m ρ c (Proc.devRef .tc main_v39) = ms := hm
  show StableHlo.after hostOps4 (W10 m ρ c) (Proc.devRef .tc main_v44) = _
  after_results
  rw [e3, e10, e39]
  unfold agg
  rfl

end Cert.Bridge
end
-- ==== Proof.StageAgg2.lean ====
/-
  Layer 2's mean of the incoming messages. The host stretch after layer 2's message launch scatters the message rows
  onto a zero array by the edges' target nodes and divides every row by the node's in-degree column. The target nodes
  and the degree column were made by the first stretch; none of layers 0 and 1 and layer 2's gather and message launch
  has written them, so the buffers read here still hold them; the messages are the launch's output. With the three
  operands named, the stretch's term is the reference network's mean, operation for operation.
-/
import proofs.«401737_j58909771432764_1_alg».proof.Proof.Bridge

noncomputable section
namespace Cert.Bridge
open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- The scatter-add of layer 2's messages by target node over a zero array, divided by the clamped in-degree. -/
theorem stD2 (ms : FVec Ideal S800000x64 .f32) (hm : kMsg2 m ρ c = ms) (hd : kDst m ρ c = dst (a1 m c)) (hg : kDeg m ρ c = degCol (a1 m c)) :
    kAgg2 m ρ c = agg ms (a1 m c) := by
  -- the target nodes, untouched since the first stretch
  have e3 : W15 m ρ c (Proc.devRef .tc main_v3) = dst (a1 m c) :=
    calc W15 m ρ c (Proc.devRef .tc main_v3)
      _ = W14 m ρ c (Proc.devRef .tc main_v3) := W15_of_ne m ρ c main_v3 (by decide)
      _ = W13 m ρ c (Proc.devRef .tc main_v3) := by skip_host hostOps5_1
      _ = W12 m ρ c (Proc.devRef .tc main_v3) := by skip_host hostOps5
      _ = W11 m ρ c (Proc.devRef .tc main_v3) := W12_of_ne m ρ c main_v3 (by decide)
      _ = W10 m ρ c (Proc.devRef .tc main_v3) := by skip_host hostOps4
      _ = W9 m ρ c (Proc.devRef .tc main_v3) := W10_of_ne m ρ c main_v3 (by decide)
      _ = W8 m ρ c (Proc.devRef .tc main_v3) := by skip_host hostOps3_1
      _ = W7 m ρ c (Proc.devRef .tc main_v3) := by skip_host hostOps3
      _ = W6 m ρ c (Proc.devRef .tc main_v3) := W7_of_ne m ρ c main_v3 (by decide)
      _ = W5 m ρ c (Proc.devRef .tc main_v3) := by skip_host hostOps2
      _ = W4 m ρ c (Proc.devRef .tc main_v3) := W5_of_ne m ρ c main_v3 (by decide)
      _ = W3 m ρ c (Proc.devRef .tc main_v3) := by skip_host hostOps1_1
      _ = W2 m ρ c (Proc.devRef .tc main_v3) := by skip_host hostOps1
      _ = W1 m ρ c (Proc.devRef .tc main_v3) := W2_of_ne m ρ c main_v3 (by decide)
      _ = dst (a1 m c) := hd
  -- the degree column, untouched since the first stretch
  have e10 : W15 m ρ c (Proc.devRef .tc main_v10) = degCol (a1 m c) :=
    calc W15 m ρ c (Proc.devRef .tc main_v10)
      _ = W14 m ρ c (Proc.devRef .tc main_v10) := W15_of_ne m ρ c main_v10 (by decide)
      _ = W13 m ρ c (Proc.devRef .tc main_v10) := by skip_host hostOps5_1
      _ = W12 m ρ c (Proc.devRef .tc main_v10) := by skip_host hostOps5
      _ = W11 m ρ c (Proc.devRef .tc main_v10) := W12_of_ne m ρ c main_v10 (by decide)
      _ = W10 m ρ c (Proc.devRef .tc main_v10) := by skip_host hostOps4
      _ = W9 m ρ c (Proc.devRef .tc main_v10) := W10_of_ne m ρ c main_v10 (by decide)
      _ = W8 m ρ c (Proc.devRef .tc main_v10) := by skip_host hostOps3_1
      _ = W7 m ρ c (Proc.devRef .tc main_v10) := by skip_host hostOps3
      _ = W6 m ρ c (Proc.devRef .tc main_v10) := W7_of_ne m ρ c main_v10 (by decide)
      _ = W5 m ρ c (Proc.devRef .tc main_v10) := by skip_host hostOps2
      _ = W4 m ρ c (Proc.devRef .tc main_v10) := W5_of_ne m ρ c main_v10 (by decide)
      _ = W3 m ρ c (Proc.devRef .tc main_v10) := by skip_host hostOps1_1
      _ = W2 m ρ c (Proc.devRef .tc main_v10) := by skip_host hostOps1
      _ = W1 m ρ c (Proc.devRef .tc main_v10) := W2_of_ne m ρ c main_v10 (by decide)
      _ = degCol (a1 m c) := hg
  -- the messages
  have e59 : W15 m ρ c (Proc.devRef .tc main_v59) = ms := hm
  show StableHlo.after hostOps6 (W15 m ρ c) (Proc.devRef .tc main_v64) = _
  after_results
  rw [e3, e10, e59]
  unfold agg
  rfl

end Cert.Bridge
end
-- ==== Proof.StageUpdShared.lean ====
/-
  What the three update layers share.

  The update layer sends row `p` of the node features and of the aggregated messages to row `p` of its output, so a
  block of rows of the layer of two arrays is the layer of the same blocks of rows (`layer_rows`).

  The stacked update weights `[3, 128, 64]` and biases `[3, 64]` are arguments of the program: no host operation and no
  launch writes them, so wherever a layer reads them they are still the arrays the program was launched with
  (`weights_at5` … `biases_at15`, one boundary of the run after the other).
-/
import proofs.«401737_j58909771432764_1_alg».proof.Proof.Bridge
import proofs.«401737_j58909771432764_1_alg».proof.Proof.Laws
import Idealize.ShloMosaic.Lib.ValueIdx

noncomputable section

namespace Cert.UpdShared

open Cert.KernelIdeal Cert.KernelIdeal.Gen Idealize.ShloMosaic Idealize.ShloMosaic.TcCoe Idealize.SL.Sem
open Idealize.ShloMosaic.ValueIdx
open scoped BigOperators

/-- Two spellings of the zero offsets of a rank-2 and of a rank-1 buffer. -/
theorem zeros2 : (![0, 0] : Fin 2 → Nat) = fun _ => 0 := funext fun a => by fin_cases a <;> rfl
theorem zeros1 : (![0] : Fin 1 → Nat) = fun _ => 0 := funext fun a => by fin_cases a <;> rfl

/-- The layer is row-local. Let `x0`, `x1` be blocks of 5000 rows whose row `p` is row `q * 5000 + p` of `A`, `B`.
    Then entry `(p, j)` of the layer of the blocks is entry `(q * 5000 + p, j)` of the layer of the arrays: both are
    `max (∑ k, A (r, k) * wa (k, j) + ∑ k, B (r, k) * wb (k, j) + bias j) 0` at the same row `r`. -/
theorem layer_rows (A B : FVec Ideal S50000x64 .f32) (x0 x1 : Vec Ideal S5000x64 .f32) (wa wb : Vec Ideal S64x64 .f32)
    (bias : Vec Ideal S64 .f32) (q : ℕ)
    (h0 : ∀ (y : S5000x64.Idx) (i : S50000x64.Idx), (i 0).val = q * 5000 + (y 0).val → (i 1).val = (y 1).val → x0 y = A i)
    (h1 : ∀ (y : S5000x64.Idx) (i : S50000x64.Idx), (i 0).val = q * 5000 + (y 0).val → (i 1).val = (y 1).val → x1 y = B i)
    (y : S5000x64.Idx) (i : S50000x64.Idx) (hi0 : (i 0).val = q * 5000 + (y 0).val) (hi1 : (i 1).val = (y 1).val) :
    Cert.Spec.dense2 x0 x1 wa wb bias y = Cert.Spec.dense2 A B wa wb bias i := by
  obtain ⟨p, j, rfl⟩ : ∃ (p : Fin 5000) (j : Fin 64), y = ix2 p j := ⟨y 0, y 1, eq_ix2 y⟩
  obtain ⟨r, j', rfl⟩ : ∃ (r : Fin 50000) (j' : Fin 64), i = ix2 r j' := ⟨i 0, i 1, eq_ix2 i⟩
  obtain rfl : j' = j := Fin.ext hi1
  rw [Cert.Spec.dense2_apply, Cert.Spec.dense2_apply]
  have ea : ∀ k : Fin 64, x0 (ix2 p k) = A (ix2 r k) := fun k => h0 (ix2 p k) (ix2 r k) hi0 rfl
  have eb : ∀ k : Fin 64, x1 (ix2 p k) = B (ix2 r k) := fun k => h1 (ix2 p k) (ix2 r k) hi0 rfl
  simp only [ea, eb]

variable (m : (ℓ : Loc nD τ sig) → Buf (Elt Ideal) ℓ) (ρ : Dev nD → PrngReg) (c : Dev nD)

open Cert.Bridge

/-! ## The stacked weights and biases, read where each layer reads them -/

/-- After the first layer's message launch. -/
theorem weights_at5 : (W5 m ρ c (Proc.devRef .tc main_arg7) : FVec Ideal S3x128x64 .f32) = a7 m c :=
  calc W5 m ρ c (Proc.devRef .tc main_arg7)
    _ = W4 m ρ c (Proc.devRef .tc main_arg7) := W5_of_ne m ρ c main_arg7 (by decide)
    _ = W3 m ρ c (Proc.devRef .tc main_arg7) := by skip_host hostOps1_1
    _ = W2 m ρ c (Proc.devRef .tc main_arg7) := by skip_host hostOps1
    _ = W1 m ρ c (Proc.devRef .tc main_arg7) := W2_of_ne m ρ c main_arg7 (by decide)
    _ = W0 m ρ c (Proc.devRef .tc main_arg7) := by skip_host hostOps0

theorem biases_at5 : (W5 m ρ c (Proc.devRef .tc main_arg8) : FVec Ideal S3x64 .f32) = a8 m c :=
  calc W5 m ρ c (Proc.devRef .tc main_arg8)
    _ = W4 m ρ c (Proc.devRef .tc main_arg8) := W5_of_ne m ρ c main_arg8 (by decide)
    _ = W3 m ρ c (Proc.devRef .tc main_arg8) := by skip_host hostOps1_1
    _ = W2 m ρ c (Proc.devRef .tc main_arg8) := by skip_host hostOps1
    _ = W1 m ρ c (Proc.devRef .tc main_arg8) := W2_of_ne m ρ c main_arg8 (by decide)
    _ = W0 m ρ c (Proc.devRef .tc main_arg8) := by skip_host hostOps0

/-- After the second layer's message launch. -/
theorem weights_at10 : (W10 m ρ c (Proc.devRef .tc main_arg7) : FVec Ideal S3x128x64 .f32) = a7 m c :=
  (calc W10 m ρ c (Proc.devRef .tc main_arg7)
    _ = W9 m ρ c (Proc.devRef .tc main_arg7) := W10_of_ne m ρ c main_arg7 (by decide)
    _ = W8 m ρ c (Proc.devRef .tc main_arg7) := by skip_host hostOps3_1
    _ = W7 m ρ c (Proc.devRef .tc main_arg7) := by skip_host hostOps3
    _ = W6 m ρ c (Proc.devRef .tc main_arg7) := W7_of_ne m ρ c main_arg7 (by decide)
    _ = W5 m ρ c (Proc.devRef .tc main_arg7) := by skip_host hostOps2).trans (weights_at5 m ρ c)

theorem biases_at10 : (W10 m ρ c (Proc.devRef .tc main_arg8) : FVec Ideal S3x64 .f32) = a8 m c :=
  (calc W10 m ρ c (Proc.devRef .tc main_arg8)
    _ = W9 m ρ c (Proc.devRef .tc main_arg8) := W10_of_ne m ρ c main_arg8 (by decide)
    _ = W8 m ρ c (Proc.devRef .tc main_arg8) := by skip_host hostOps3_1
    _ = W7 m ρ c (Proc.devRef .tc main_arg8) := by skip_host hostOps3
    _ = W6 m ρ c (Proc.devRef .tc main_arg8) := W7_of_ne m ρ c main_arg8 (by decide)
    _ = W5 m ρ c (Proc.devRef .tc main_arg8) := by skip_host hostOps2).trans (biases_at5 m ρ c)

/-- After the third layer's message launch. -/
theorem weights_at15 : (W15 m ρ c (Proc.devRef .tc main_arg7) : FVec Ideal S3x128x64 .f32) = a7 m c :=
  (calc W15 m ρ c (Proc.devRef .tc main_arg7)
    _ = W14 m ρ c (Proc.devRef .tc main_arg7) := W15_of_ne m ρ c main_arg7 (by decide)
    _ = W13 m ρ c (Proc.devRef .tc main_arg7) := by skip_host hostOps5_1
    _ = W12 m ρ c (Proc.devRef .tc main_arg7) := by skip_host hostOps5
    _ = W11 m ρ c (Proc.devRef .tc main_arg7) := W12_of_ne m ρ c main_arg7 (by decide)
    _ = W10 m ρ c (Proc.devRef .tc main_arg7) := by skip_host hostOps4).trans (weights_at10 m ρ c)

theorem biases_at15 : (W15 m ρ c (Proc.devRef .tc main_arg8) : FVec Ideal S3x64 .f32) = a8 m c :=
  (calc W15 m ρ c (Proc.devRef .tc main_arg8)
    _ = W14 m ρ c (Proc.devRef .tc main_arg8) := W15_of_ne m ρ c main_arg8 (by decide)
    _ = W13 m ρ c (Proc.devRef .tc main_arg8) := by skip_host hostOps5_1
    _ = W12 m ρ c (Proc.devRef .tc main_arg8) := by skip_host hostOps5
    _ = W11 m ρ c (Proc.devRef .tc main_arg8) := W12_of_ne m ρ c main_arg8 (by decide)
    _ = W10 m ρ c (Proc.devRef .tc main_arg8) := by skip_host hostOps4).trans (biases_at10 m ρ c)

end Cert.UpdShared

end
-- ==== Proof.StageUpd0.lean ====
/-
  The update layer of the first message-passing layer: the node features after it are the reference network's `upd`.

  The layer is one launch over the 50000 nodes, in 10 blocks of 5000 rows. Each grid point reads its block of rows of the
  node features and of the aggregated messages, the two `[64, 64]` halves of the layer's weights and the bias row, and
  writes `max (h · U₁ + a · U₂ + b) 0` of them to the same block of rows of the output.

  * `pay_law`: what a grid point computes from its blocks is the two-input dense layer `Cert.Spec.dense2` of the blocks —
    a change of float format and a cast to the same shape are the identity on extended reals, each product into a zero
    accumulator is a plain sum, the bias row is repeated down the rows, and the cut-off constant is `0`.
  * `closed_form`: the output array after the launch is `Cert.Spec.dense2` of the five arrays the launch finds, whatever
    they are. Block `t` of a row-tiled window is rows `5000 t … 5000 t + 4999` of its array, the weight and bias windows
    are whole arrays at every point, and the layer is row-local, so what point `t` writes back is block `t` of the layer of
    the whole arrays (`flushed_eq`); row `r` lies in the block of point `r / 5000`, so the blocks cover the output
    (`covered`).
  * `stE0`: the five arrays are the node features `h`, the aggregated messages `a`, rows `0 … 63` and `64 … 127` of slab `0`
    of the stacked update weights, and slab `0` of the stacked biases. The reference applies one `[128, 64]` weight matrix
    to `[h ‖ a]`; splitting the sum over the 128 joined columns at column 64 (`Cert.Laws.cat_law`) gives the same two-input
    layer with the same two halves of the same slab.
-/
import proofs.«401737_j58909771432764_1_alg».proof.Proof.Bridge
import proofs.«401737_j58909771432764_1_alg».proof.Proof.Laws
import proofs.«401737_j58909771432764_1_alg».proof.Proof.StageUpdShared
import Idealize.ShloMosaic.Lib.Pipeline.Value
import Idealize.ShloMosaic.Lib.ValueIdx
import Idealize.ShloMosaic.Lib.ValueLayout
import Idealize.ShloMosaic.PureOps.Ideal.Laws

noncomputable section

namespace Cert.Upd0

open Cert.KernelIdeal Cert.KernelIdeal.Gen Idealize.ShloMosaic Idealize.ShloMosaic.TcCoe Idealize.SL.Sem
open Idealize.ShloMosaic.ValueIdx Cert.UpdShared
open scoped BigOperators

/-! ## What one grid point computes -/

/-- Entry `(p, j)` of what a grid point stores, from the blocks it loaded. -/
theorem pay_at (v0 v3 : Vec Ideal S5000x64 .f32) (v6 v9 : Vec Ideal S64x64 .f32) (v15 : Vec Ideal S64 .f32)
    (p : Fin 5000) (j : Fin 64) :
    k2_pay1 v0 v3 v6 v9 v15 (ix2 p j)
      = max (((∑ k : Fin 64, v0 (ix2 p k) * v6 (ix2 k j)) + ∑ k : Fin 64, v3 (ix2 p k) * v9 (ix2 k j)) + v15 (ix1 j)) 0 := by
  unfold k2_pay1
  simp only [shapeCast_self]
  show max ((matmul (F := Ideal) dot_S5000x64_S64x64_S5000x64_1_0_0_1_n_n none (truncf .bf16 v0 bitsLt_bf16_f32) (truncf .bf16 v6 bitsLt_bf16_f32)
          (constant (F := Ideal) S5000x64 .f32 0x00000000#32) (ix2 p j)
        + matmul (F := Ideal) dot_S5000x64_S64x64_S5000x64_1_0_0_1_n_n none (truncf .bf16 v3 bitsLt_bf16_f32) (truncf .bf16 v9 bitsLt_bf16_f32)
          (constant (F := Ideal) S5000x64 .f32 0x00000000#32) (ix2 p j))
      + broadcastTo S5000x64 (shapeCast S1x64 v15 shapeCasts_S64_S1x64) broadcasts_S1x64_S5000x64 (ix2 p j))
      (Ideal.ofBits .f32 0x00000000#32) = _
  rw [Cert.LibRowOps.matmul_plain_apply dot_S5000x64_S64x64_S5000x64_1_0_0_1_n_n rfl,
    Cert.LibRowOps.matmul_plain_apply dot_S5000x64_S64x64_S5000x64_1_0_0_1_n_n rfl, Cert.LibRowOps.rowBcast_apply,
    Ideal.ofBits_zero_f32]
  rfl

/-- A grid point stores the two-input dense layer of its blocks. -/
theorem pay_law (v0 v3 : Vec Ideal S5000x64 .f32) (v6 v9 : Vec Ideal S64x64 .f32) (v15 : Vec Ideal S64 .f32) :
    k2_pay1 v0 v3 v6 v9 v15 = Cert.Spec.dense2 v0 v3 v6 v9 v15 := by
  funext i
  obtain ⟨p, j, rfl⟩ : ∃ (p : Fin 5000) (j : Fin 64), i = ix2 p j := ⟨i 0, i 1, eq_ix2 i⟩
  rw [pay_at, Cert.Spec.dense2_apply]

/-! ## From the blocks to the array -/

variable (V : (c : Dev nD) → (b : Ref sig .tc) → Buf (Elt Ideal) ((c : Thread nD τ).loc b))

/-- The windows' block indices at grid point `t`: the two row-tiled inputs and the output are at row block `t`, the
    weights and the bias at block `0` (decided over the 10 points). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of the node features' block at point `t` is row `5000 t + p` of the array. -/
theorem rows_block0 (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c main_v11 : S50000x64.Idx → EReal) i := by
  obtain ⟨e0, e1, -⟩ := idx_facts t
  unfold iblk2
  rw [View.read_apply]
  show (V c main_v11 : S50000x64.Idx → EReal) _ = V c main_v11 i
  congr 1
  funext a
  apply Fin.ext
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The same for the aggregated messages. -/
theorem rows_block1 (c : Dev nD) (t : Fin cfg2.N) (y : S5000x64.Idx) (i : S50000x64.Idx)
    (h0 : (i 0).val = t.val * 5000 + (y 0).val) (h1 : (i 1).val = (y 1).val) :
    (iblk2 V c 1 t : Vec Ideal S5000x64 .f32) y = (V c main_v24 : S50000x64.Idx → EReal) i := by
  obtain ⟨-, -, e0, e1, -⟩ := idx_facts t
  unfold iblk2
  rw [View.read_apply]
  show (V c main_v24 : S50000x64.Idx → EReal) _ = V c main_v24 i
  congr 1
  funext a
  apply Fin.ext
  match a with
  | ⟨0, _⟩ => show win2_1.index t (0 : Fin 2) * 5000 + 1 * (y 0).val = (i 0).val; omega
  | ⟨1, _⟩ => show win2_1.index t (1 : Fin 2) * 64 + 1 * (y 1).val = (i 1).val; omega

/-- The first weight half's block is the whole array at every point. -/
theorem whole_block2 (c : Dev nD) (t : Fin cfg2.N) :
    (iblk2 V c 2 t : Vec Ideal S64x64 .f32) = (V c main_v27 : S64x64.Idx → EReal) := by
  obtain ⟨-, -, -, -, e0, e1, -⟩ := idx_facts t
  funext y
  unfold iblk2
  rw [View.read_apply]
  show (V c main_v27 : S64x64.Idx → EReal) _ = V c main_v27 y
  congr 1
  funext a
  apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- So is the second weight half's. -/
theorem whole_block3 (c : Dev nD) (t : Fin cfg2.N) :
    (iblk2 V c 3 t : Vec Ideal S64x64 .f32) = (V c main_v28 : S64x64.Idx → EReal) := by
  obtain ⟨-, -, -, -, -, -, e0, e1, -⟩ := idx_facts t
  funext y
  unfold iblk2
  rw [View.read_apply]
  show (V c main_v28 : S64x64.Idx → EReal) _ = V c main_v28 y
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- And the bias row's. -/
theorem whole_block4 (c : Dev nD) (t : Fin cfg2.N) :
    (iblk2 V c 4 t : Vec Ideal S64 .f32) = (V c main_v30 : S64.Idx → EReal) := by
  obtain ⟨-, -, -, -, -, -, -, -, e0, -⟩ := idx_facts t
  funext y
  unfold iblk2
  rw [View.read_apply]
  show (V c main_v30 : S64.Idx → EReal) _ = V c main_v30 y
  congr 1
  funext a
  apply Fin.ext
  match a with
  | ⟨0, _⟩ => show win2_4.index t (0 : Fin 1) * 64 + 1 * (y 0).val = (y 0).val; omega

/-- What the output array ends holding: the layer of the five arrays the launch finds. -/
abbrev G (c : Dev nD) : S50000x64.Idx → EReal :=
  Cert.Spec.dense2 (V c main_v11 : FVec Ideal S50000x64 .f32) (V c main_v24 : FVec Ideal S50000x64 .f32)
    (V c main_v27 : FVec Ideal S64x64 .f32) (V c main_v28 : FVec Ideal S64x64 .f32) (V c main_v30 : FVec Ideal S64 .f32)

/-- What point `t` writes back is block `t` of `G`. -/
theorem flushed_eq (c : Dev nD) (t : Fin cfg2.N) :
    (dat2 V c).flushed 5 t = ((cfg2.win 5).blk t).view.read (Elt Ideal) (G V c) := by
  obtain ⟨-, -, -, -, -, -, -, -, -, e0, e1⟩ := idx_facts t
  show (cfg2.win 5).cut (grid2.coords t) ((dat2 V c).after 5 t) = _
  rw [after2_5]
  unfold out2_5
  rw [View.canon_unit_zero zeros2]
  simp only [View.ld_unit_zero (S := S5000x64) zeros2, View.ld_unit_zero (S := S64x64) zeros2, View.ld_unit_zero (S := S64) zeros1]
  rw [pay_law, whole_block2, whole_block3, whole_block4]
  funext y
  rw [View.read_apply]
  refine layer_rows _ _ _ _ _ _ _ t.val (fun y i => rows_block0 V c t y i) (fun y i => rows_block1 V c t y i) y _ ?_ ?_
  · show win2_5.index t (0 : Fin 2) * 5000 + 1 * (y 0).val = t.val * 5000 + (y 0).val; omega
  · show win2_5.index t (1 : Fin 2) * 64 + 1 * (y 1).val = (y 1).val; omega

/-- An index of the output is in point `t`'s block iff each coordinate is in the block's range on its axis. -/
theorem mem_block (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v31).slice (win2_5.rect t)).set ↔ _
  rw [View.set_slice_whole, Rect.mem_set_unit]
  exact Iff.rfl

/-- Row `r` of the output lies in the block of point `r / 5000`. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have ht : t.val = (i 0).val / 5000 := rfl
  obtain ⟨-, -, -, -, -, -, -, -, -, e0, e1⟩ := idx_facts t
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The launch's closed form: its output array is the layer of its five input arrays, whatever the buffers hold at entry. -/
theorem closed_form (c : Dev nD) :
    ((dat2 V c).arrAt 5 cfg2.N : S50000x64.Idx → EReal)
      = Cert.Spec.dense2 (V c main_v11 : FVec Ideal S50000x64 .f32) (V c main_v24 : FVec Ideal S50000x64 .f32)
          (V c main_v27 : FVec Ideal S64x64 .f32) (V c main_v28 : FVec Ideal S64x64 .f32) (V c main_v30 : FVec Ideal S64 .f32) :=
  (dat2 V c).arrAt_eq_of_cover 5 (G V c) (fun t _ => flushed_eq V c t) covered

/-! ## The five arrays the launch finds -/

open Cert.Bridge

variable (m : (ℓ : Loc nD τ sig) → Buf (Elt Ideal) ℓ) (ρ : Dev nD → PrngReg) (c : Dev nD)

/-- The node features reach the launch as the previous dense launch over the nodes left them: the gather, the message
    launch and the scatter in between write other buffers. -/
theorem feat : (W6 m ρ c (Proc.devRef .tc main_v11) : FVec Ideal S50000x64 .f32) = kH0 m ρ c :=
  calc W6 m ρ c (Proc.devRef .tc main_v11)
    _ = W5 m ρ c (Proc.devRef .tc main_v11) := by skip_host hostOps2
    _ = W4 m ρ c (Proc.devRef .tc main_v11) := W5_of_ne m ρ c main_v11 (by decide)
    _ = W3 m ρ c (Proc.devRef .tc main_v11) := by skip_host hostOps1_1
    _ = W2 m ρ c (Proc.devRef .tc main_v11) := by skip_host hostOps1

/-- The first weight half: rows `0 … 63` of the layer's slab of the stacked update weights. -/
theorem wa : (W6 m ρ c (Proc.devRef .tc main_v27) : FVec Ideal S64x64 .f32)
    = extractStridedSlice S64x64 ![0, 0] (shapeCast S128x64 (extractStridedSlice S1x128x64 ![0, 0, 0] (a7 m c) slices_S3x128x64_S1x128x64_0_0_0)
        shapeCasts_S1x128x64_S128x64) slices_S128x64_S64x64_0_0 := by
  rw [← weights_at5 m ρ c]
  show StableHlo.after hostOps2 (W5 m ρ c) (Proc.devRef .tc main_v27) = _
  after_results
  rfl

/-- The second weight half: rows `64 … 127` of the same slab. -/
theorem wb : (W6 m ρ c (Proc.devRef .tc main_v28) : FVec Ideal S64x64 .f32)
    = extractStridedSlice S64x64 ![64, 0] (shapeCast S128x64 (extractStridedSlice S1x128x64 ![0, 0, 0] (a7 m c) slices_S3x128x64_S1x128x64_0_0_0)
        shapeCasts_S1x128x64_S128x64) slices_S128x64_S64x64_64_0 := by
  rw [← weights_at5 m ρ c]
  show StableHlo.after hostOps2 (W5 m ρ c) (Proc.devRef .tc main_v28) = _
  after_results
  rfl

/-- The bias row: the layer's slab of the stacked update biases. -/
theorem bias : (W6 m ρ c (Proc.devRef .tc main_v30) : FVec Ideal S64 .f32)
    = shapeCast S64 (extractStridedSlice S1x64 ![0, 0] (a8 m c) slices_S3x64_S1x64_0_0) shapeCasts_S1x64_S64 := by
  rw [← biases_at5 m ρ c]
  show StableHlo.after hostOps2 (W5 m ρ c) (Proc.devRef .tc main_v30) = _
  after_results
  rfl

end Cert.Upd0

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

theorem stE0 (h a : FVec Ideal S50000x64 .f32) (hh : kH0 m ρ c = h) (ha : kAgg0 m ρ c = a) :
    kH1 m ρ c = upd h a (wUpd0 (a7 m c)) (bUpd0 (a8 m c)) := by
  have run : kH1 m ρ c = (dat2 (V6 m ρ) c).arrAt 5 cfg2.N := W7_arr m ρ c 5
  have o0 : (V6 m ρ c main_v11 : FVec Ideal S50000x64 .f32) = h := (Cert.Upd0.feat m ρ c).trans hh
  have o1 : (V6 m ρ c main_v24 : FVec Ideal S50000x64 .f32) = a := ha
  rw [run, Cert.Upd0.closed_form, o0, o1]
  show Cert.Spec.dense2 h a (W6 m ρ c (Proc.devRef .tc main_v27) : FVec Ideal S64x64 .f32)
      (W6 m ρ c (Proc.devRef .tc main_v28) : FVec Ideal S64x64 .f32) (W6 m ρ c (Proc.devRef .tc main_v30) : FVec Ideal S64 .f32) = _
  rw [Cert.Upd0.wa, Cert.Upd0.wb, Cert.Upd0.bias]
  unfold upd wUpd0 bUpd0
  refine Eq.trans ?_ (Cert.Laws.cat_law (n := 50000) (K1 := 64) (K2 := 64) (K := 128) (N := 64) rfl
    Cert.ReferenceIdeal.dot_S50000x128_S128x64_S50000x64_1_0_0_1_n_n rfl _ _ _ _ slices_S128x64_S64x64_0_0 slices_S128x64_S64x64_64_0
    h a _ _).symm
  rfl

end Cert.Bridge

end
-- ==== Proof.StageUpd1.lean ====
/-
  The update layer of the second message-passing layer: the node features after it are the reference network's `upd`.

  The layer is one launch over the 50000 nodes, in 10 blocks of 5000 rows. Each grid point reads its block of rows of the
  node features and of the aggregated messages, the two `[64, 64]` halves of the layer's weights and the bias row, and
  writes `max (h · U₁ + a · U₂ + b) 0` of them to the same block of rows of the output.

  * `pay_law`: what a grid point computes from its blocks is the two-input dense layer `Cert.Spec.dense2` of the blocks —
    a change of float format and a cast to the same shape are the identity on extended reals, each product into a zero
    accumulator is a plain sum, the bias row is repeated down the rows, and the cut-off constant is `0`.
  * `closed_form`: the output array after the launch is `Cert.Spec.dense2` of the five arrays the launch finds, whatever
    they are. Block `t` of a row-tiled window is rows `5000 t … 5000 t + 4999` of its array, the weight and bias windows
    are whole arrays at every point, and the layer is row-local, so what point `t` writes back is block `t` of the layer of
    the whole arrays (`flushed_eq`); row `r` lies in the block of point `r / 5000`, so the blocks cover the output
    (`covered`).
  * `stE1`: the five arrays are the node features `h`, the aggregated messages `a`, rows `0 … 63` and `64 … 127` of slab `1`
    of the stacked update weights, and slab `1` of the stacked biases. The reference applies one `[128, 64]` weight matrix
    to `[h ‖ a]`; splitting the sum over the 128 joined columns at column 64 (`Cert.Laws.cat_law`) gives the same two-input
    layer with the same two halves of the same slab.
-/
import proofs.«401737_j58909771432764_1_alg».proof.Proof.Bridge
import proofs.«401737_j58909771432764_1_alg».proof.Proof.Laws
import proofs.«401737_j58909771432764_1_alg».proof.Proof.StageUpdShared
import Idealize.ShloMosaic.Lib.Pipeline.Value
import Idealize.ShloMosaic.Lib.ValueIdx
import Idealize.ShloMosaic.Lib.ValueLayout
import Idealize.ShloMosaic.PureOps.Ideal.Laws

noncomputable section

namespace Cert.Upd1

open Cert.KernelIdeal Cert.KernelIdeal.Gen Idealize.ShloMosaic Idealize.ShloMosaic.TcCoe Idealize.SL.Sem
open Idealize.ShloMosaic.ValueIdx Cert.UpdShared
open scoped BigOperators

/-! ## What one grid point computes -/

/-- Entry `(p, j)` of what a grid point stores, from the blocks it loaded. -/
theorem pay_at (v0 v3 : Vec Ideal S5000x64 .f32) (v6 v9 : Vec Ideal S64x64 .f32) (v15 : Vec Ideal S64 .f32)
    (p : Fin 5000) (j : Fin 64) :
    k4_pay1 v0 v3 v6 v9 v15 (ix2 p j)
      = max (((∑ k : Fin 64, v0 (ix2 p k) * v6 (ix2 k j)) + ∑ k : Fin 64, v3 (ix2 p k) * v9 (ix2 k j)) + v15 (ix1 j)) 0 := by
  unfold k4_pay1
  simp only [shapeCast_self]
  show max ((matmul (F := Ideal) dot_S5000x64_S64x64_S5000x64_1_0_0_1_n_n none (truncf .bf16 v0 bitsLt_bf16_f32) (truncf .bf16 v6 bitsLt_bf16_f32)
          (constant (F := Ideal) S5000x64 .f32 0x00000000#32) (ix2 p j)
        + matmul (F := Ideal) dot_S5000x64_S64x64_S5000x64_1_0_0_1_n_n none (truncf .bf16 v3 bitsLt_bf16_f32) (truncf .bf16 v9 bitsLt_bf16_f32)
          (constant (F := Ideal) S5000x64 .f32 0x00000000#32) (ix2 p j))
      + broadcastTo S5000x64 (shapeCast S1x64 v15 shapeCasts_S64_S1x64) broadcasts_S1x64_S5000x64 (ix2 p j))
      (Ideal.ofBits .f32 0x00000000#32) = _
  rw [Cert.LibRowOps.matmul_plain_apply dot_S5000x64_S64x64_S5000x64_1_0_0_1_n_n rfl,
    Cert.LibRowOps.matmul_plain_apply dot_S5000x64_S64x64_S5000x64_1_0_0_1_n_n rfl, Cert.LibRowOps.rowBcast_apply,
    Ideal.ofBits_zero_f32]
  rfl

/-- A grid point stores the two-input dense layer of its blocks. -/
theorem pay_law (v0 v3 : Vec Ideal S5000x64 .f32) (v6 v9 : Vec Ideal S64x64 .f32) (v15 : Vec Ideal S64 .f32) :
    k4_pay1 v0 v3 v6 v9 v15 = Cert.Spec.dense2 v0 v3 v6 v9 v15 := by
  funext i
  obtain ⟨p, j, rfl⟩ : ∃ (p : Fin 5000) (j : Fin 64), i = ix2 p j := ⟨i 0, i 1, eq_ix2 i⟩
  rw [pay_at, Cert.Spec.dense2_apply]

/-! ## From the blocks to the array -/

variable (V : (c : Dev nD) → (b : Ref sig .tc) → Buf (Elt Ideal) ((c : Thread nD τ).loc b))

/-- The windows' block indices at grid point `t`: the two row-tiled inputs and the output are at row block `t`, the
    weights and the bias at block `0` (decided over the 10 points). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row `p` of the node features' block at point `t` is row `5000 t + p` of the array. -/
theorem rows_block0 (c : Dev nD) (t : Fin cfg4.N) (y : S5000x64.Idx) (i : S50000x64.Idx)
    (h0 : (i 0).val = t.val * 5000 + (y 0).val) (h1 : (i 1).val = (y 1).val) :
    (iblk4 V c 0 t : Vec Ideal S5000x64 .f32) y = (V c main_v31 : S50000x64.Idx → EReal) i := by
  obtain ⟨e0, e1, -⟩ := idx_facts t
  unfold iblk4
  rw [View.read_apply]
  show (V c main_v31 : S50000x64.Idx → EReal) _ = V c main_v31 i
  congr 1
  funext a
  apply Fin.ext
  match a with
  | ⟨0, _⟩ => show win4_0.index t (0 : Fin 2) * 5000 + 1 * (y 0).val = (i 0).val; omega
  | ⟨1, _⟩ => show win4_0.index t (1 : Fin 2) * 64 + 1 * (y 1).val = (i 1).val; omega

/-- The same for the aggregated messages. -/
theorem rows_block1 (c : Dev nD) (t : Fin cfg4.N) (y : S5000x64.Idx) (i : S50000x64.Idx)
    (h0 : (i 0).val = t.val * 5000 + (y 0).val) (h1 : (i 1).val = (y 1).val) :
    (iblk4 V c 1 t : Vec Ideal S5000x64 .f32) y = (V c main_v44 : S50000x64.Idx → EReal) i := by
  obtain ⟨-, -, e0, e1, -⟩ := idx_facts t
  unfold iblk4
  rw [View.read_apply]
  show (V c main_v44 : S50000x64.Idx → EReal) _ = V c main_v44 i
  congr 1
  funext a
  apply Fin.ext
  match a with
  | ⟨0, _⟩ => show win4_1.index t (0 : Fin 2) * 5000 + 1 * (y 0).val = (i 0).val; omega
  | ⟨1, _⟩ => show win4_1.index t (1 : Fin 2) * 64 + 1 * (y 1).val = (i 1).val; omega

/-- The first weight half's block is the whole array at every point. -/
theorem whole_block2 (c : Dev nD) (t : Fin cfg4.N) :
    (iblk4 V c 2 t : Vec Ideal S64x64 .f32) = (V c main_v47 : S64x64.Idx → EReal) := by
  obtain ⟨-, -, -, -, e0, e1, -⟩ := idx_facts t
  funext y
  unfold iblk4
  rw [View.read_apply]
  show (V c main_v47 : S64x64.Idx → EReal) _ = V c main_v47 y
  congr 1
  funext a
  apply Fin.ext
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- So is the second weight half's. -/
theorem whole_block3 (c : Dev nD) (t : Fin cfg4.N) :
    (iblk4 V c 3 t : Vec Ideal S64x64 .f32) = (V c main_v48 : S64x64.Idx → EReal) := by
  obtain ⟨-, -, -, -, -, -, e0, e1, -⟩ := idx_facts t
  funext y
  unfold iblk4
  rw [View.read_apply]
  show (V c main_v48 : S64x64.Idx → EReal) _ = V c main_v48 y
  congr 1
  funext a
  apply Fin.ext
  match a with
  | ⟨0, _⟩ => show win4_3.index t (0 : Fin 2) * 64 + 1 * (y 0).val = (y 0).val; omega
  | ⟨1, _⟩ => show win4_3.index t (1 : Fin 2) * 64 + 1 * (y 1).val = (y 1).val; omega

/-- And the bias row's. -/
theorem whole_block4 (c : Dev nD) (t : Fin cfg4.N) :
    (iblk4 V c 4 t : Vec Ideal S64 .f32) = (V c main_v50 : S64.Idx → EReal) := by
  obtain ⟨-, -, -, -, -, -, -, -, e0, -⟩ := idx_facts t
  funext y
  unfold iblk4
  rw [View.read_apply]
  show (V c main_v50 : S64.Idx → EReal) _ = V c main_v50 y
  congr 1
  funext a
  apply Fin.ext
  match a with
  | ⟨0, _⟩ => show win4_4.index t (0 : Fin 1) * 64 + 1 * (y 0).val = (y 0).val; omega

/-- What the output array ends holding: the layer of the five arrays the launch finds. -/
abbrev G (c : Dev nD) : S50000x64.Idx → EReal :=
  Cert.Spec.dense2 (V c main_v31 : FVec Ideal S50000x64 .f32) (V c main_v44 : FVec Ideal S50000x64 .f32)
    (V c main_v47 : FVec Ideal S64x64 .f32) (V c main_v48 : FVec Ideal S64x64 .f32) (V c main_v50 : FVec Ideal S64 .f32)

/-- What point `t` writes back is block `t` of `G`. -/
theorem flushed_eq (c : Dev nD) (t : Fin cfg4.N) :
    (dat4 V c).flushed 5 t = ((cfg4.win 5).blk t).view.read (Elt Ideal) (G V c) := by
  obtain ⟨-, -, -, -, -, -, -, -, -, e0, e1⟩ := idx_facts t
  show (cfg4.win 5).cut (grid4.coords t) ((dat4 V c).after 5 t) = _
  rw [after4_5]
  unfold out4_5
  rw [View.canon_unit_zero zeros2]
  simp only [View.ld_unit_zero (S := S5000x64) zeros2, View.ld_unit_zero (S := S64x64) zeros2, View.ld_unit_zero (S := S64) zeros1]
  rw [pay_law, whole_block2, whole_block3, whole_block4]
  funext y
  rw [View.read_apply]
  refine layer_rows _ _ _ _ _ _ _ t.val (fun y i => rows_block0 V c t y i) (fun y i => rows_block1 V c t y i) y _ ?_ ?_
  · show win4_5.index t (0 : Fin 2) * 5000 + 1 * (y 0).val = t.val * 5000 + (y 0).val; omega
  · show win4_5.index t (1 : Fin 2) * 64 + 1 * (y 1).val = (y 1).val; omega

/-- An index of the output is in point `t`'s block iff each coordinate is in the block's range on its axis. -/
theorem mem_block (t : Fin cfg4.N) (i : S50000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v51).slice (win4_5.rect t)).set ↔ _
  rw [View.set_slice_whole, Rect.mem_set_unit]
  exact Iff.rfl

/-- Row `r` of the output lies in the block of point `r / 5000`. -/
theorem covered (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  have ht : t.val = (i 0).val / 5000 := rfl
  obtain ⟨-, -, -, -, -, -, -, -, -, e0, e1⟩ := idx_facts t
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The launch's closed form: its output array is the layer of its five input arrays, whatever the buffers hold at entry. -/
theorem closed_form (c : Dev nD) :
    ((dat4 V c).arrAt 5 cfg4.N : S50000x64.Idx → EReal)
      = Cert.Spec.dense2 (V c main_v31 : FVec Ideal S50000x64 .f32) (V c main_v44 : FVec Ideal S50000x64 .f32)
          (V c main_v47 : FVec Ideal S64x64 .f32) (V c main_v48 : FVec Ideal S64x64 .f32) (V c main_v50 : FVec Ideal S64 .f32) :=
  (dat4 V c).arrAt_eq_of_cover 5 (G V c) (fun t _ => flushed_eq V c t) covered

/-! ## The five arrays the launch finds -/

open Cert.Bridge

variable (m : (ℓ : Loc nD τ sig) → Buf (Elt Ideal) ℓ) (ρ : Dev nD → PrngReg) (c : Dev nD)

/-- The node features reach the launch as the previous dense launch over the nodes left them: the gather, the message
    launch and the scatter in between write other buffers. -/
theorem feat : (W11 m ρ c (Proc.devRef .tc main_v31) : FVec Ideal S50000x64 .f32) = kH1 m ρ c :=
  calc W11 m ρ c (Proc.devRef .tc main_v31)
    _ = W10 m ρ c (Proc.devRef .tc main_v31) := by skip_host hostOps4
    _ = W9 m ρ c (Proc.devRef .tc main_v31) := W10_of_ne m ρ c main_v31 (by decide)
    _ = W8 m ρ c (Proc.devRef .tc main_v31) := by skip_host hostOps3_1
    _ = W7 m ρ c (Proc.devRef .tc main_v31) := by skip_host hostOps3

/-- The first weight half: rows `0 … 63` of the layer's slab of the stacked update weights. -/
theorem wa : (W11 m ρ c (Proc.devRef .tc main_v47) : FVec Ideal S64x64 .f32)
    = extractStridedSlice S64x64 ![0, 0] (shapeCast S128x64 (extractStridedSlice S1x128x64 ![1, 0, 0] (a7 m c) slices_S3x128x64_S1x128x64_1_0_0)
        shapeCasts_S1x128x64_S128x64) slices_S128x64_S64x64_0_0 := by
  rw [← weights_at10 m ρ c]
  show StableHlo.after hostOps4 (W10 m ρ c) (Proc.devRef .tc main_v47) = _
  after_results
  rfl

/-- The second weight half: rows `64 … 127` of the same slab. -/
theorem wb : (W11 m ρ c (Proc.devRef .tc main_v48) : FVec Ideal S64x64 .f32)
    = extractStridedSlice S64x64 ![64, 0] (shapeCast S128x64 (extractStridedSlice S1x128x64 ![1, 0, 0] (a7 m c) slices_S3x128x64_S1x128x64_1_0_0)
        shapeCasts_S1x128x64_S128x64) slices_S128x64_S64x64_64_0 := by
  rw [← weights_at10 m ρ c]
  show StableHlo.after hostOps4 (W10 m ρ c) (Proc.devRef .tc main_v48) = _
  after_results
  rfl

/-- The bias row: the layer's slab of the stacked update biases. -/
theorem bias : (W11 m ρ c (Proc.devRef .tc main_v50) : FVec Ideal S64 .f32)
    = shapeCast S64 (extractStridedSlice S1x64 ![1, 0] (a8 m c) slices_S3x64_S1x64_1_0) shapeCasts_S1x64_S64 := by
  rw [← biases_at10 m ρ c]
  show StableHlo.after hostOps4 (W10 m ρ c) (Proc.devRef .tc main_v50) = _
  after_results
  rfl

end Cert.Upd1

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

theorem stE1 (h a : FVec Ideal S50000x64 .f32) (hh : kH1 m ρ c = h) (ha : kAgg1 m ρ c = a) :
    kH2 m ρ c = upd h a (wUpd1 (a7 m c)) (bUpd1 (a8 m c)) := by
  have run : kH2 m ρ c = (dat4 (V11 m ρ) c).arrAt 5 cfg4.N := W12_arr m ρ c 5
  have o0 : (V11 m ρ c main_v31 : FVec Ideal S50000x64 .f32) = h := (Cert.Upd1.feat m ρ c).trans hh
  have o1 : (V11 m ρ c main_v44 : FVec Ideal S50000x64 .f32) = a := ha
  rw [run, Cert.Upd1.closed_form, o0, o1]
  show Cert.Spec.dense2 h a (W11 m ρ c (Proc.devRef .tc main_v47) : FVec Ideal S64x64 .f32)
      (W11 m ρ c (Proc.devRef .tc main_v48) : FVec Ideal S64x64 .f32) (W11 m ρ c (Proc.devRef .tc main_v50) : FVec Ideal S64 .f32) = _
  rw [Cert.Upd1.wa, Cert.Upd1.wb, Cert.Upd1.bias]
  unfold upd wUpd1 bUpd1
  refine Eq.trans ?_ (Cert.Laws.cat_law (n := 50000) (K1 := 64) (K2 := 64) (K := 128) (N := 64) rfl
    Cert.ReferenceIdeal.dot_S50000x128_S128x64_S50000x64_1_0_0_1_n_n rfl _ _ _ _ slices_S128x64_S64x64_0_0 slices_S128x64_S64x64_64_0
    h a _ _).symm
  rfl

end Cert.Bridge

end
-- ==== Proof.StageUpd2.lean ====
/-
  The update layer of the third message-passing layer: the node features after it are the reference network's `upd`.

  The layer is one launch over the 50000 nodes, in 10 blocks of 5000 rows. Each grid point reads its block of rows of the
  node features and of the aggregated messages, the two `[64, 64]` halves of the layer's weights and the bias row, and
  writes `max (h · U₁ + a · U₂ + b) 0` of them to the same block of rows of the output.

  * `pay_law`: what a grid point computes from its blocks is the two-input dense layer `Cert.Spec.dense2` of the blocks —
    a change of float format and a cast to the same shape are the identity on extended reals, each product into a zero
    accumulator is a plain sum, the bias row is repeated down the rows, and the cut-off constant is `0`.
  * `closed_form`: the output array after the launch is `Cert.Spec.dense2` of the five arrays the launch finds, whatever
    they are. Block `t` of a row-tiled window is rows `5000 t … 5000 t + 4999` of its array, the weight and bias windows
    are whole arrays at every point, and the layer is row-local, so what point `t` writes back is block `t` of the layer of
    the whole arrays (`flushed_eq`); row `r` lies in the block of point `r / 5000`, so the blocks cover the output
    (`covered`).
  * `stE2`: the five arrays are the node features `h`, the aggregated messages `a`, rows `0 … 63` and `64 … 127` of slab `2`
    of the stacked update weights, and slab `2` of the stacked biases. The reference applies one `[128, 64]` weight matrix
    to `[h ‖ a]`; splitting the sum over the 128 joined columns at column 64 (`Cert.Laws.cat_law`) gives the same two-input
    layer with the same two halves of the same slab.
-/
import proofs.«401737_j58909771432764_1_alg».proof.Proof.Bridge
import proofs.«401737_j58909771432764_1_alg».proof.Proof.Laws
import proofs.«401737_j58909771432764_1_alg».proof.Proof.StageUpdShared
import Idealize.ShloMosaic.Lib.Pipeline.Value
import Idealize.ShloMosaic.Lib.ValueIdx
import Idealize.ShloMosaic.Lib.ValueLayout
import Idealize.ShloMosaic.PureOps.Ideal.Laws

noncomputable section

namespace Cert.Upd2

open Cert.KernelIdeal Cert.KernelIdeal.Gen Idealize.ShloMosaic Idealize.ShloMosaic.TcCoe Idealize.SL.Sem
open Idealize.ShloMosaic.ValueIdx Cert.UpdShared
open scoped BigOperators

/-! ## What one grid point computes -/

/-- Entry `(p, j)` of what a grid point stores, from the blocks it loaded. -/
theorem pay_at (v0 v3 : Vec Ideal S5000x64 .f32) (v6 v9 : Vec Ideal S64x64 .f32) (v15 : Vec Ideal S64 .f32)
    (p : Fin 5000) (j : Fin 64) :
    k6_pay1 v0 v3 v6 v9 v15 (ix2 p j)
      = max (((∑ k : Fin 64, v0 (ix2 p k) * v6 (ix2 k j)) + ∑ k : Fin 64, v3 (ix2 p k) * v9 (ix2 k j)) + v15 (ix1 j)) 0 := by
  unfold k6_pay1
  simp only [shapeCast_self]
  show max ((matmul (F := Ideal) dot_S5000x64_S64x64_S5000x64_1_0_0_1_n_n none (truncf .bf16 v0 bitsLt_bf16_f32) (truncf .bf16 v6 bitsLt_bf16_f32)
          (constant (F := Ideal) S5000x64 .f32 0x00000000#32) (ix2 p j)
        + matmul (F := Ideal) dot_S5000x64_S64x64_S5000x64_1_0_0_1_n_n none (truncf .bf16 v3 bitsLt_bf16_f32) (truncf .bf16 v9 bitsLt_bf16_f32)
          (constant (F := Ideal) S5000x64 .f32 0x00000000#32) (ix2 p j))
      + broadcastTo S5000x64 (shapeCast S1x64 v15 shapeCasts_S64_S1x64) broadcasts_S1x64_S5000x64 (ix2 p j))
      (Ideal.ofBits .f32 0x00000000#32) = _
  rw [Cert.LibRowOps.matmul_plain_apply dot_S5000x64_S64x64_S5000x64_1_0_0_1_n_n rfl,
    Cert.LibRowOps.matmul_plain_apply dot_S5000x64_S64x64_S5000x64_1_0_0_1_n_n rfl, Cert.LibRowOps.rowBcast_apply,
    Ideal.ofBits_zero_f32]
  rfl

/-- A grid point stores the two-input dense layer of its blocks. -/
theorem pay_law (v0 v3 : Vec Ideal S5000x64 .f32) (v6 v9 : Vec Ideal S64x64 .f32) (v15 : Vec Ideal S64 .f32) :
    k6_pay1 v0 v3 v6 v9 v15 = Cert.Spec.dense2 v0 v3 v6 v9 v15 := by
  funext i
  obtain ⟨p, j, rfl⟩ : ∃ (p : Fin 5000) (j : Fin 64), i = ix2 p j := ⟨i 0, i 1, eq_ix2 i⟩
  rw [pay_at, Cert.Spec.dense2_apply]

/-! ## From the blocks to the array -/

variable (V : (c : Dev nD) → (b : Ref sig .tc) → Buf (Elt Ideal) ((c : Thread nD τ).loc b))

/-- The windows' block indices at grid point `t`: the two row-tiled inputs and the output are at row block `t`, the
    weights and the bias at block `0` (decided over the 10 points). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

/-- Row `p` of the node features' block at point `t` is row `5000 t + p` of the array. -/
theorem rows_block0 (c : Dev nD) (t : Fin cfg6.N) (y : S5000x64.Idx) (i : S50000x64.Idx)
    (h0 : (i 0).val = t.val * 5000 + (y 0).val) (h1 : (i 1).val = (y 1).val) :
    (iblk6 V c 0 t : Vec Ideal S5000x64 .f32) y = (V c main_v51 : S50000x64.Idx → EReal) i := by
  obtain ⟨e0, e1, -⟩ := idx_facts t
  unfold iblk6
  rw [View.read_apply]
  show (V c main_v51 : S50000x64.Idx → EReal) _ = V c main_v51 i
  congr 1
  funext a
  apply Fin.ext
  match a with
  | ⟨0, _⟩ => show win6_0.index t (0 : Fin 2) * 5000 + 1 * (y 0).val = (i 0).val; omega
  | ⟨1, _⟩ => show win6_0.index t (1 : Fin 2) * 64 + 1 * (y 1).val = (i 1).val; omega

/-- The same for the aggregated messages. -/
theorem rows_block1 (c : Dev nD) (t : Fin cfg6.N) (y : S5000x64.Idx) (i : S50000x64.Idx)
    (h0 : (i 0).val = t.val * 5000 + (y 0).val) (h1 : (i 1).val = (y 1).val) :
    (iblk6 V c 1 t : Vec Ideal S5000x64 .f32) y = (V c main_v64 : S50000x64.Idx → EReal) i := by
  obtain ⟨-, -, e0, e1, -⟩ := idx_facts t
  unfold iblk6
  rw [View.read_apply]
  show (V c main_v64 : S50000x64.Idx → EReal) _ = V c main_v64 i
  congr 1
  funext a
  apply Fin.ext
  match a with
  | ⟨0, _⟩ => show win6_1.index t (0 : Fin 2) * 5000 + 1 * (y 0).val = (i 0).val; omega
  | ⟨1, _⟩ => show win6_1.index t (1 : Fin 2) * 64 + 1 * (y 1).val = (i 1).val; omega

/-- The first weight half's block is the whole array at every point. -/
theorem whole_block2 (c : Dev nD) (t : Fin cfg6.N) :
    (iblk6 V c 2 t : Vec Ideal S64x64 .f32) = (V c main_v67 : S64x64.Idx → EReal) := by
  obtain ⟨-, -, -, -, e0, e1, -⟩ := idx_facts t
  funext y
  unfold iblk6
  rw [View.read_apply]
  show (V c main_v67 : S64x64.Idx → EReal) _ = V c main_v67 y
  congr 1
  funext a
  apply Fin.ext
  match a with
  | ⟨0, _⟩ => show win6_2.index t (0 : Fin 2) * 64 + 1 * (y 0).val = (y 0).val; omega
  | ⟨1, _⟩ => show win6_2.index t (1 : Fin 2) * 64 + 1 * (y 1).val = (y 1).val; omega

/-- So is the second weight half's. -/
theorem whole_block3 (c : Dev nD) (t : Fin cfg6.N) :
    (iblk6 V c 3 t : Vec Ideal S64x64 .f32) = (V c main_v68 : S64x64.Idx → EReal) := by
  obtain ⟨-, -, -, -, -, -, e0, e1, -⟩ := idx_facts t
  funext y
  unfold iblk6
  rw [View.read_apply]
  show (V c main_v68 : S64x64.Idx → EReal) _ = V c main_v68 y
  congr 1
  funext a
  apply Fin.ext
  match a with
  | ⟨0, _⟩ => show win6_3.index t (0 : Fin 2) * 64 + 1 * (y 0).val = (y 0).val; omega
  | ⟨1, _⟩ => show win6_3.index t (1 : Fin 2) * 64 + 1 * (y 1).val = (y 1).val; omega

/-- And the bias row's. -/
theorem whole_block4 (c : Dev nD) (t : Fin cfg6.N) :
    (iblk6 V c 4 t : Vec Ideal S64 .f32) = (V c main_v70 : S64.Idx → EReal) := by
  obtain ⟨-, -, -, -, -, -, -, -, e0, -⟩ := idx_facts t
  funext y
  unfold iblk6
  rw [View.read_apply]
  show (V c main_v70 : S64.Idx → EReal) _ = V c main_v70 y
  congr 1
  funext a
  apply Fin.ext
  match a with
  | ⟨0, _⟩ => show win6_4.index t (0 : Fin 1) * 64 + 1 * (y 0).val = (y 0).val; omega

/-- What the output array ends holding: the layer of the five arrays the launch finds. -/
abbrev G (c : Dev nD) : S50000x64.Idx → EReal :=
  Cert.Spec.dense2 (V c main_v51 : FVec Ideal S50000x64 .f32) (V c main_v64 : FVec Ideal S50000x64 .f32)
    (V c main_v67 : FVec Ideal S64x64 .f32) (V c main_v68 : FVec Ideal S64x64 .f32) (V c main_v70 : FVec Ideal S64 .f32)

/-- What point `t` writes back is block `t` of `G`. -/
theorem flushed_eq (c : Dev nD) (t : Fin cfg6.N) :
    (dat6 V c).flushed 5 t = ((cfg6.win 5).blk t).view.read (Elt Ideal) (G V c) := by
  obtain ⟨-, -, -, -, -, -, -, -, -, e0, e1⟩ := idx_facts t
  show (cfg6.win 5).cut (grid6.coords t) ((dat6 V c).after 5 t) = _
  rw [after6_5]
  unfold out6_5
  rw [View.canon_unit_zero zeros2]
  simp only [View.ld_unit_zero (S := S5000x64) zeros2, View.ld_unit_zero (S := S64x64) zeros2, View.ld_unit_zero (S := S64) zeros1]
  rw [pay_law, whole_block2, whole_block3, whole_block4]
  funext y
  rw [View.read_apply]
  refine layer_rows _ _ _ _ _ _ _ t.val (fun y i => rows_block0 V c t y i) (fun y i => rows_block1 V c t y i) y _ ?_ ?_
  · show win6_5.index t (0 : Fin 2) * 5000 + 1 * (y 0).val = t.val * 5000 + (y 0).val; omega
  · show win6_5.index t (1 : Fin 2) * 64 + 1 * (y 1).val = (y 1).val; omega

/-- An index of the output is in point `t`'s block iff each coordinate is in the block's range on its axis. -/
theorem mem_block (t : Fin cfg6.N) (i : S50000x64.Idx) :
    i ∈ ((cfg6.win 5).blk t).view.set ↔ ∀ a : Fin 2, win6_5.index t a * S5000x64.size a ≤ (i a).val
      ∧ (i a).val < win6_5.index t a * S5000x64.size a + S5000x64.size a := by
  show i ∈ ((View.whole main_v71).slice (win6_5.rect t)).set ↔ _
  rw [View.set_slice_whole, Rect.mem_set_unit]
  exact Iff.rfl

/-- Row `r` of the output lies in the block of point `r / 5000`. -/
theorem covered (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  have ht : t.val = (i 0).val / 5000 := rfl
  obtain ⟨-, -, -, -, -, -, -, -, -, e0, e1⟩ := idx_facts t
  refine ⟨t, flush6_5 t, ?_⟩
  rw [mem_block]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- The launch's closed form: its output array is the layer of its five input arrays, whatever the buffers hold at entry. -/
theorem closed_form (c : Dev nD) :
    ((dat6 V c).arrAt 5 cfg6.N : S50000x64.Idx → EReal)
      = Cert.Spec.dense2 (V c main_v51 : FVec Ideal S50000x64 .f32) (V c main_v64 : FVec Ideal S50000x64 .f32)
          (V c main_v67 : FVec Ideal S64x64 .f32) (V c main_v68 : FVec Ideal S64x64 .f32) (V c main_v70 : FVec Ideal S64 .f32) :=
  (dat6 V c).arrAt_eq_of_cover 5 (G V c) (fun t _ => flushed_eq V c t) covered

/-! ## The five arrays the launch finds -/

open Cert.Bridge

variable (m : (ℓ : Loc nD τ sig) → Buf (Elt Ideal) ℓ) (ρ : Dev nD → PrngReg) (c : Dev nD)

/-- The node features reach the launch as the previous dense launch over the nodes left them: the gather, the message
    launch and the scatter in between write other buffers. -/
theorem feat : (W16 m ρ c (Proc.devRef .tc main_v51) : FVec Ideal S50000x64 .f32) = kH2 m ρ c :=
  calc W16 m ρ c (Proc.devRef .tc main_v51)
    _ = W15 m ρ c (Proc.devRef .tc main_v51) := by skip_host hostOps6
    _ = W14 m ρ c (Proc.devRef .tc main_v51) := W15_of_ne m ρ c main_v51 (by decide)
    _ = W13 m ρ c (Proc.devRef .tc main_v51) := by skip_host hostOps5_1
    _ = W12 m ρ c (Proc.devRef .tc main_v51) := by skip_host hostOps5

/-- The first weight half: rows `0 … 63` of the layer's slab of the stacked update weights. -/
theorem wa : (W16 m ρ c (Proc.devRef .tc main_v67) : FVec Ideal S64x64 .f32)
    = extractStridedSlice S64x64 ![0, 0] (shapeCast S128x64 (extractStridedSlice S1x128x64 ![2, 0, 0] (a7 m c) slices_S3x128x64_S1x128x64_2_0_0)
        shapeCasts_S1x128x64_S128x64) slices_S128x64_S64x64_0_0 := by
  rw [← weights_at15 m ρ c]
  show StableHlo.after hostOps6 (W15 m ρ c) (Proc.devRef .tc main_v67) = _
  after_results
  rfl

/-- The second weight half: rows `64 … 127` of the same slab. -/
theorem wb : (W16 m ρ c (Proc.devRef .tc main_v68) : FVec Ideal S64x64 .f32)
    = extractStridedSlice S64x64 ![64, 0] (shapeCast S128x64 (extractStridedSlice S1x128x64 ![2, 0, 0] (a7 m c) slices_S3x128x64_S1x128x64_2_0_0)
        shapeCasts_S1x128x64_S128x64) slices_S128x64_S64x64_64_0 := by
  rw [← weights_at15 m ρ c]
  show StableHlo.after hostOps6 (W15 m ρ c) (Proc.devRef .tc main_v68) = _
  after_results
  rfl

/-- The bias row: the layer's slab of the stacked update biases. -/
theorem bias : (W16 m ρ c (Proc.devRef .tc main_v70) : FVec Ideal S64 .f32)
    = shapeCast S64 (extractStridedSlice S1x64 ![2, 0] (a8 m c) slices_S3x64_S1x64_2_0) shapeCasts_S1x64_S64 := by
  rw [← biases_at15 m ρ c]
  show StableHlo.after hostOps6 (W15 m ρ c) (Proc.devRef .tc main_v70) = _
  after_results
  rfl

end Cert.Upd2

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

theorem stE2 (h a : FVec Ideal S50000x64 .f32) (hh : kH2 m ρ c = h) (ha : kAgg2 m ρ c = a) :
    kH3 m ρ c = upd h a (wUpd2 (a7 m c)) (bUpd2 (a8 m c)) := by
  have run : kH3 m ρ c = (dat6 (V16 m ρ) c).arrAt 5 cfg6.N := W17_arr m ρ c 5
  have o0 : (V16 m ρ c main_v51 : FVec Ideal S50000x64 .f32) = h := (Cert.Upd2.feat m ρ c).trans hh
  have o1 : (V16 m ρ c main_v64 : FVec Ideal S50000x64 .f32) = a := ha
  rw [run, Cert.Upd2.closed_form, o0, o1]
  show Cert.Spec.dense2 h a (W16 m ρ c (Proc.devRef .tc main_v67) : FVec Ideal S64x64 .f32)
      (W16 m ρ c (Proc.devRef .tc main_v68) : FVec Ideal S64x64 .f32) (W16 m ρ c (Proc.devRef .tc main_v70) : FVec Ideal S64 .f32) = _
  rw [Cert.Upd2.wa, Cert.Upd2.wb, Cert.Upd2.bias]
  unfold upd wUpd2 bUpd2
  refine Eq.trans ?_ (Cert.Laws.cat_law (n := 50000) (K1 := 64) (K2 := 64) (K := 128) (N := 64) rfl
    Cert.ReferenceIdeal.dot_S50000x128_S128x64_S50000x64_1_0_0_1_n_n rfl _ _ _ _ slices_S128x64_S64x64_0_0 slices_S128x64_S64x64_64_0
    h a _ _).symm
  rfl

end Cert.Bridge

end
-- ==== Proof.StageHeads.lean ====
/-
  The two read-outs after the last launch. The final node embeddings are the last launch's output and no later
  operation writes them. The probability head takes an affine read-out of every node's embedding to a scalar and
  applies the logistic function; the logit head averages the embeddings over the nodes and passes the mean through two
  affine layers with a cut-off at zero between them. The weights and biases of both heads are inputs of the program
  that no stretch and no launch writes, so at the point where the heads read them they are still the launched arrays.
  With the embeddings and the weights named, each head's term is the reference network's, operation for operation.
-/
import proofs.«401737_j58909771432764_1_alg».proof.Proof.Bridge

noncomputable section
namespace Cert.Bridge
open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- After the last launch the run holds the node embeddings, and its two heads are the reference network's. -/
theorem stF (h : FVec Ideal S50000x64 .f32) (hh : kH3 m ρ c = h) :
    (W20 m ρ c (Proc.devRef .tc main_v71) : FVec Ideal S50000x64 .f32) = h
    ∧ (W20 m ρ c (Proc.devRef .tc main_v82) : FVec Ideal S50000 .f32) = probs h (a9 m c) (a10 m c)
    ∧ (W20 m ρ c (Proc.devRef .tc main_v93) : FVec Ideal S1x4 .f32) = logits h (a13 m c) (a14 m c) (a15 m c) (a16 m c) := by
  -- the node embeddings where the heads read them
  have e71 : W17 m ρ c (Proc.devRef .tc main_v71) = h := hh
  -- the heads' weights and biases are still the launched arrays: the three last stretches write none of them, and at
  -- the end of the run each is known to be as launched
  have k9 : W17 m ρ c (Proc.devRef .tc main_arg9) = a9 m c :=
    calc W17 m ρ c (Proc.devRef .tc main_arg9)
      _ = W18 m ρ c (Proc.devRef .tc main_arg9) := Eq.symm (by skip_host hostOps7)
      _ = W19 m ρ c (Proc.devRef .tc main_arg9) := Eq.symm (by skip_host hostOps7_1)
      _ = W20 m ρ c (Proc.devRef .tc main_arg9) := Eq.symm (by skip_host hostOps7_2)
      _ = a9 m c := W20_main_arg9 m ρ c
  have k10 : W17 m ρ c (Proc.devRef .tc main_arg10) = a10 m c :=
    calc W17 m ρ c (Proc.devRef .tc main_arg10)
      _ = W18 m ρ c (Proc.devRef .tc main_arg10) := Eq.symm (by skip_host hostOps7)
      _ = W19 m ρ c (Proc.devRef .tc main_arg10) := Eq.symm (by skip_host hostOps7_1)
      _ = W20 m ρ c (Proc.devRef .tc main_arg10) := Eq.symm (by skip_host hostOps7_2)
      _ = a10 m c := W20_main_arg10 m ρ c
  have k13 : W17 m ρ c (Proc.devRef .tc main_arg13) = a13 m c :=
    calc W17 m ρ c (Proc.devRef .tc main_arg13)
      _ = W18 m ρ c (Proc.devRef .tc main_arg13) := Eq.symm (by skip_host hostOps7)
      _ = W19 m ρ c (Proc.devRef .tc main_arg13) := Eq.symm (by skip_host hostOps7_1)
      _ = W20 m ρ c (Proc.devRef .tc main_arg13) := Eq.symm (by skip_host hostOps7_2)
      _ = a13 m c := W20_main_arg13 m ρ c
  have k14 : W17 m ρ c (Proc.devRef .tc main_arg14) = a14 m c :=
    calc W17 m ρ c (Proc.devRef .tc main_arg14)
      _ = W18 m ρ c (Proc.devRef .tc main_arg14) := Eq.symm (by skip_host hostOps7)
      _ = W19 m ρ c (Proc.devRef .tc main_arg14) := Eq.symm (by skip_host hostOps7_1)
      _ = W20 m ρ c (Proc.devRef .tc main_arg14) := Eq.symm (by skip_host hostOps7_2)
      _ = a14 m c := W20_main_arg14 m ρ c
  have k15 : W17 m ρ c (Proc.devRef .tc main_arg15) = a15 m c :=
    calc W17 m ρ c (Proc.devRef .tc main_arg15)
      _ = W18 m ρ c (Proc.devRef .tc main_arg15) := Eq.symm (by skip_host hostOps7)
      _ = W19 m ρ c (Proc.devRef .tc main_arg15) := Eq.symm (by skip_host hostOps7_1)
      _ = W20 m ρ c (Proc.devRef .tc main_arg15) := Eq.symm (by skip_host hostOps7_2)
      _ = a15 m c := W20_main_arg15 m ρ c
  have k16 : W17 m ρ c (Proc.devRef .tc main_arg16) = a16 m c :=
    calc W17 m ρ c (Proc.devRef .tc main_arg16)
      _ = W18 m ρ c (Proc.devRef .tc main_arg16) := Eq.symm (by skip_host hostOps7)
      _ = W19 m ρ c (Proc.devRef .tc main_arg16) := Eq.symm (by skip_host hostOps7_1)
      _ = W20 m ρ c (Proc.devRef .tc main_arg16) := Eq.symm (by skip_host hostOps7_2)
      _ = a16 m c := W20_main_arg16 m ρ c
  refine ⟨?_, ?_, ?_⟩
  · -- the embeddings: none of the three last stretches writes their buffer
    calc W20 m ρ c (Proc.devRef .tc main_v71)
      _ = W19 m ρ c (Proc.devRef .tc main_v71) := by skip_host hostOps7_2
      _ = W18 m ρ c (Proc.devRef .tc main_v71) := by skip_host hostOps7_1
      _ = W17 m ρ c (Proc.devRef .tc main_v71) := by skip_host hostOps7
      _ = h := hh
  · -- the probabilities: 1 / (1 + exp (-(h · w + b)))
    show StableHlo.after hostOps7_2 (W19 m ρ c) (Proc.devRef .tc main_v82) = _
    after_results_simp
    rw [e71, k9, k10]
    unfold probs
    rfl
  · -- the logits: max ((mean h) · w₁ + b₁) 0 · w₂ + b₂
    show StableHlo.after hostOps7_2 (W19 m ρ c) (Proc.devRef .tc main_v93) = _
    after_results_simp
    rw [e71, k13, k14, k15, k16]
    unfold logits
    rfl

end Cert.Bridge
end
-- ==== Proof.Values.lean ====
/-
  The kernel program computes the reference network.

  Stage by stage the run of the kernel program holds the reference network's values: the edges' end points and the
  degree column, the input projection, and in each layer the gathered source rows (where the precondition on the source
  indices makes the kernel's range mask all-true), the messages, their means and the updated node features. Chaining
  the stage lemmas gives the node embeddings after three layers, and the two heads read the results off them.
-/
import proofs.«401737_j58909771432764_1_alg».proof.Proof.Bridge
import proofs.«401737_j58909771432764_1_alg».proof.Proof.Net
import proofs.«401737_j58909771432764_1_alg».proof.Proof.StageEdges
import proofs.«401737_j58909771432764_1_alg».proof.Proof.StageProj
import proofs.«401737_j58909771432764_1_alg».proof.Proof.StageTake0
import proofs.«401737_j58909771432764_1_alg».proof.Proof.StageTake1
import proofs.«401737_j58909771432764_1_alg».proof.Proof.StageTake2
import proofs.«401737_j58909771432764_1_alg».proof.Proof.StageMsg0
import proofs.«401737_j58909771432764_1_alg».proof.Proof.StageMsg1
import proofs.«401737_j58909771432764_1_alg».proof.Proof.StageMsg2
import proofs.«401737_j58909771432764_1_alg».proof.Proof.StageAgg0
import proofs.«401737_j58909771432764_1_alg».proof.Proof.StageAgg1
import proofs.«401737_j58909771432764_1_alg».proof.Proof.StageAgg2
import proofs.«401737_j58909771432764_1_alg».proof.Proof.StageUpd0
import proofs.«401737_j58909771432764_1_alg».proof.Proof.StageUpd1
import proofs.«401737_j58909771432764_1_alg».proof.Proof.StageUpd2
import proofs.«401737_j58909771432764_1_alg».proof.Proof.StageHeads
import proofs.«401737_j58909771432764_1_alg».proof.Defs
import proofs.«401737_j58909771432764_1_alg».proof.Proof.Gen.Pre_finite_inputs

noncomputable section

namespace Cert.Bridge

open Cert.KernelIdeal Cert.KernelIdeal.Gen Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-! ## The chain -/

/-- The reference network's node features after each layer, as functions of the launched arguments. -/
abbrev rH0 : FVec Ideal S50000x64 .f32 := h0 (a0 m c) (a3 m c) (a4 m c)
abbrev rH1 : FVec Ideal S50000x64 .f32 :=
  layer (rH0 m c) (a1 m c) (a2 m c) (wMsg0 (a5 m c)) (bMsg0 (a6 m c)) (wUpd0 (a7 m c)) (bUpd0 (a8 m c))
abbrev rH2 : FVec Ideal S50000x64 .f32 :=
  layer (rH1 m c) (a1 m c) (a2 m c) (wMsg1 (a5 m c)) (bMsg1 (a6 m c)) (wUpd1 (a7 m c)) (bUpd1 (a8 m c))
abbrev rH3 : FVec Ideal S50000x64 .f32 :=
  layer (rH2 m c) (a1 m c) (a2 m c) (wMsg2 (a5 m c)) (bMsg2 (a6 m c)) (wUpd2 (a7 m c)) (bUpd2 (a8 m c))

variable (hpre : Cert.Pre_KernelIdeal m)
include hpre

theorem kH1_eq : kH1 m ρ c = rH1 m c := by
  have hh : kH0 m ρ c = rH0 m c := stA1 m ρ c
  have hr := stB0 m ρ c hpre _ hh (stA0_src m ρ c)
  have hm := stC0 m ρ c _ hr
  have ha := stD0 m ρ c _ hm (stA0_dst m ρ c) (stA0_deg m ρ c)
  exact stE0 m ρ c _ _ hh ha

theorem kH2_eq : kH2 m ρ c = rH2 m c := by
  have hh : kH1 m ρ c = rH1 m c := kH1_eq m ρ c hpre
  have hr := stB1 m ρ c hpre _ hh (stA0_src m ρ c)
  have hm := stC1 m ρ c _ hr
  have ha := stD1 m ρ c _ hm (stA0_dst m ρ c) (stA0_deg m ρ c)
  exact stE1 m ρ c _ _ hh ha

theorem kH3_eq : kH3 m ρ c = rH3 m c := by
  have hh : kH2 m ρ c = rH2 m c := kH2_eq m ρ c hpre
  have hr := stB2 m ρ c hpre _ hh (stA0_src m ρ c)
  have hm := stC2 m ρ c _ hr
  have ha := stD2 m ρ c _ hm (stA0_dst m ρ c) (stA0_deg m ρ c)
  exact stE2 m ρ c _ _ hh ha

/-- The kernel program's three results: the network's embeddings of the launched arguments, and the two heads read off them. -/
theorem results :
    (W20 m ρ c (Proc.devRef .tc main_v71) : FVec Ideal S50000x64 .f32) = embed (a0 m c) (a1 m c) (a2 m c) (a3 m c) (a4 m c) (a5 m c) (a6 m c) (a7 m c) (a8 m c)
    ∧ (W20 m ρ c (Proc.devRef .tc main_v82) : FVec Ideal S50000 .f32) = probs (embed (a0 m c) (a1 m c) (a2 m c) (a3 m c) (a4 m c) (a5 m c) (a6 m c) (a7 m c) (a8 m c)) (a9 m c) (a10 m c)
    ∧ (W20 m ρ c (Proc.devRef .tc main_v93) : FVec Ideal S1x4 .f32)
        = logits (embed (a0 m c) (a1 m c) (a2 m c) (a3 m c) (a4 m c) (a5 m c) (a6 m c) (a7 m c) (a8 m c)) (a13 m c) (a14 m c) (a15 m c) (a16 m c) :=
  stF m ρ c _ (kH3_eq m ρ c hpre)

end Cert.Bridge

end
-- ==== Proof.lean ====
/-
  The certificate of a three-layer message-passing network on 50000 nodes and 800000 edges.

  The kernel program runs the dense layers as tiled launches (the input projection, and per layer a layer over the edges
  and a layer over the nodes) with the gather of source rows, the scatter-add of messages and the two small heads on the
  host; the reference is the same network in plain array operations, with each two-input layer written as one product
  against the concatenated inputs. Over the extended reals the two agree: a product against `[a ‖ b]` is the sum of the
  products against `a` and `b` with the weight rows split, the tiles of a row-local layer are the layer of the tiles,
  and the host operations the programs share are applied to equal arrays. The kernel's gather fills a row whose source
  index is out of range where the reference's clamps, so the statement asks the source indices to be in range; under
  that precondition the kernel's range mask is all-true and the two gathers are one.

  The three frames: the two kernel programs' frames are the generated launch certificates; the reference's is its run
  with the results dropped. Nothing was rewritten between the kernel and its idealization, so that claim is `True`.
-/
import proofs.«401737_j58909771432764_1_alg».proof.Defs
import proofs.«401737_j58909771432764_1_alg».proof.Proof.Gen.Kernel
import proofs.«401737_j58909771432764_1_alg».proof.Proof.Gen.Kernel.Frame
import proofs.«401737_j58909771432764_1_alg».proof.Proof.Gen.KernelIdeal
import proofs.«401737_j58909771432764_1_alg».proof.Proof.Gen.KernelIdeal.Frame
import proofs.«401737_j58909771432764_1_alg».proof.Proof.Gen.ReferenceIdeal
import proofs.«401737_j58909771432764_1_alg».proof.Proof.Gen.Pre_finite_inputs
import proofs.«401737_j58909771432764_1_alg».proof.Proof.RunValues
import proofs.«401737_j58909771432764_1_alg».proof.Proof.RefRunHand
import proofs.«401737_j58909771432764_1_alg».proof.Proof.Values
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the three results dropped. -/
theorem frame_ri : Cert.frame_ReferenceIdeal := fun m ρ _ =>
  (θ_run Cert.ReferenceIdeal.defs _ _).mono (fun _ h c => (h c).2.2.2) (Cert.ReferenceIdeal.RefRunHand.run m ρ)

/-- From memories that agree on the arguments both programs end with the network's three results of those arguments:
    the kernel program by the stage lemmas under the precondition, the reference by its run read stage by stage. -/
theorem algebraic : Cert.algebraic_KernelIdeal_ReferenceIdeal := by
  intro m ρ m' ρ' hpre hagree
  refine ⟨fun c => Cert.KernelIdeal.Gen.W20 m ρ c (Proc.devRef .tc Cert.KernelIdeal.main_v82),
    fun c => Cert.KernelIdeal.Gen.W20 m ρ c (Proc.devRef .tc Cert.KernelIdeal.main_v93),
    fun c => Cert.KernelIdeal.Gen.W20 m ρ c (Proc.devRef .tc Cert.KernelIdeal.main_v71),
    Cert.KernelIdeal.RunValues.run_values (F := Ideal) m ρ, ?_⟩
  refine (θ_run Cert.ReferenceIdeal.defs _ _).mono (fun r h c => ?_) (Cert.ReferenceIdeal.RefRunHand.run m' ρ')
  obtain ⟨hp, hl, hh, hargs⟩ := h c
  obtain ⟨e0, e1, e2, e3, e4, e5, e6, e7, e8, e9, e10, e11, e12, e13, e14, e15, e16⟩ := hagree c
  obtain ⟨k71, k82, k93⟩ := Cert.Bridge.results m ρ c hpre
  refine ⟨hp.trans ?_, hl.trans ?_, hh.trans ?_, hargs⟩
  · rw [e0, e1, e2, e3, e4, e5, e6, e7, e8, e9, e10]
    exact k82.symm
  · rw [e0, e1, e2, e3, e4, e5, e6, e7, e8, e13, e14, e15, e16]
    exact k93.symm
  · rw [e0, e1, e2, e3, e4, e5, e6, e7, e8]
    exact k71.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
